-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  IdealRules.truncf_extf.Statement Cert.KernelIdeal.S512x64 .f32 .bf16
  ∧ IdealRules.truncf_extf.Statement Cert.KernelIdeal.S64x512 .f32 .bf16
  ∧ IdealRules.truncf_extf.Statement Cert.KernelIdeal.S512x64 .f32 .bf16
  ∧ IdealRules.truncf_extf.Statement Cert.KernelIdeal.S64x512 .f32 .bf16
  ∧ IdealRules.truncf_extf.Statement Cert.KernelIdeal.S512x64 .f32 .bf16
  ∧ IdealRules.truncf_extf.Statement Cert.KernelIdeal.S64x512 .f32 .bf16
  ∧ IdealRules.truncf_extf.Statement Cert.KernelIdeal.S512x64 .f32 .bf16
  ∧ IdealRules.truncf_extf.Statement Cert.KernelIdeal.S64x512 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4x8x8x512x64 : Shape := ⟨5, ![4, 8, 8, 512, 64]⟩
abbrev S4x8x8x64x512 : Shape := ⟨5, ![4, 8, 8, 64, 512]⟩
abbrev S4x8x8x1x1 : Shape := ⟨5, ![4, 8, 8, 1, 1]⟩
abbrev S8x8x1x1 : Shape := ⟨4, ![8, 8, 1, 1]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4x8x8x512x64 : S_.BroadcastsInDim S4x8x8x512x64 (![] : Fin 0 → Fin S4x8x8x512x64.rank)
  reducesTo_S4x8x8x512x64_S_d0_1_2_3_4 : S4x8x8x512x64.ReducesTo [0, 1, 2, 3, 4] S_
  bcast_S_S4x8x8x64x512 : S_.BroadcastsInDim S4x8x8x64x512 (![] : Fin 0 → Fin S4x8x8x64x512.rank)
  reducesTo_S4x8x8x64x512_S_d0_1_2_3_4 : S4x8x8x64x512.ReducesTo [0, 1, 2, 3, 4] S_
  bcast_S_S4x8x8x1x1 : S_.BroadcastsInDim S4x8x8x1x1 (![] : Fin 0 → Fin S4x8x8x1x1.rank)
  reducesTo_S4x8x8x1x1_S_d0_1_2_3_4 : S4x8x8x1x1.ReducesTo [0, 1, 2, 3, 4] S_
  bcast_S_S8x8x1x1 : S_.BroadcastsInDim S8x8x1x1 (![] : Fin 0 → Fin S8x8x1x1.rank)
  reducesTo_S8x8x1x1_S_d0_1_2_3 : S8x8x1x1.ReducesTo [0, 1, 2, 3] S_
  bcast_S_S4096 : S_.BroadcastsInDim S4096 (![] : Fin 0 → Fin S4096.rank)
  reducesTo_S4096_S_d0 : S4096.ReducesTo [0] S_

variable [Facts]

def fn_part2 {F : FTy → Type} [FloatOps F] (main_arg7 : FVec F S4096 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  main_v38

def fn_part1 {F : FTy → Type} [FloatOps F] (main_arg4 : FVec F S4x8x8x1x1 .f32) (main_arg5 : FVec F S4x8x8x1x1 .f32) (main_arg6 : FVec F S8x8x1x1 .f32) (main_arg7 : FVec F S4096 .f32) (main_v13 : IVec S_ 1) (main_v16 : IVec S4x8x8x1x1 1) : IVec S_ 1 :=
  let main_c_5 : IVec S_ 1 := constantI S_ 1 1#1
  let main_v17 : IVec S_ 1 := (fun x v => Host.reduce IntOp.andi x v reducesTo_S4x8x8x1x1_S_d0_1_2_3_4 h_S_) main_v16 main_c_5
  let main_v18 : IVec S_ 1 := andi main_v13 main_v17
  let main_v19 : FVec F S4x8x8x1x1 .f32 := Host.absf main_arg4
  let main_cst_6 : FVec F S_ .f32 := constant S_ .f32 0x7F800000#32
  let main_v20 : FVec F S4x8x8x1x1 .f32 := broadcastInDim S4x8x8x1x1 ![] bcast_S_S4x8x8x1x1 main_cst_6
  let main_v21 : IVec S4x8x8x1x1 1 := cmpf .olt main_v19 main_v20
  let main_c_7 : IVec S_ 1 := constantI S_ 1 1#1
  let main_v22 : IVec S_ 1 := (fun x v => Host.reduce IntOp.andi x v reducesTo_S4x8x8x1x1_S_d0_1_2_3_4 h_S_) main_v21 main_c_7
  let main_v23 : IVec S_ 1 := andi main_v18 main_v22
  let main_v24 : FVec F S4x8x8x1x1 .f32 := Host.absf main_arg5
  let main_cst_8 : FVec F S_ .f32 := constant S_ .f32 0x7F800000#32
  let main_v25 : FVec F S4x8x8x1x1 .f32 := broadcastInDim S4x8x8x1x1 ![] bcast_S_S4x8x8x1x1 main_cst_8
  let main_v26 : IVec S4x8x8x1x1 1 := cmpf .olt main_v24 main_v25
  let main_c_9 : IVec S_ 1 := constantI S_ 1 1#1
  let main_v27 : IVec S_ 1 := (fun x v => Host.reduce IntOp.andi x v reducesTo_S4x8x8x1x1_S_d0_1_2_3_4 h_S_) main_v26 main_c_9
  let main_v28 : IVec S_ 1 := andi main_v23 main_v27
  let main_v29 : FVec F S8x8x1x1 .f32 := Host.absf main_arg6
  let main_cst_10 : FVec F S_ .f32 := constant S_ .f32 0x7F800000#32
  let main_v30 : FVec F S8x8x1x1 .f32 := broadcastInDim S8x8x1x1 ![] bcast_S_S8x8x1x1 main_cst_10
  let main_v31 : IVec S8x8x1x1 1 := cmpf .olt main_v29 main_v30
  let main_c_11 : IVec S_ 1 := constantI S_ 1 1#1
  let main_v32 : IVec S_ 1 := (fun x v => Host.reduce IntOp.andi x v reducesTo_S8x8x1x1_S_d0_1_2_3 h_S_) main_v31 main_c_11
  let main_v33 : IVec S_ 1 := andi main_v28 main_v32
  fn_part2 (F := F) main_arg7 main_v33

def fn {F : FTy → Type} [FloatOps F] (main_arg0 : FVec F S4096x4096 .f32) (main_arg1 : FVec F S4x8x8x512x64 .f32) (main_arg2 : FVec F S4x8x8x64x512 .f32) (main_arg3 : FVec F S4x8x8x1x1 .f32) (main_arg4 : FVec F S4x8x8x1x1 .f32) (main_arg5 : FVec F S4x8x8x1x1 .f32) (main_arg6 : FVec F S8x8x1x1 .f32) (main_arg7 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4x8x8x512x64 .f32 := Host.absf main_arg1
  let main_cst_0 : FVec F S_ .f32 := constant S_ .f32 0x7F800000#32
  let main_v5 : FVec F S4x8x8x512x64 .f32 := broadcastInDim S4x8x8x512x64 ![] bcast_S_S4x8x8x512x64 main_cst_0
  let main_v6 : IVec S4x8x8x512x64 1 := cmpf .olt main_v4 main_v5
  let main_c_1 : IVec S_ 1 := constantI S_ 1 1#1
  let main_v7 : IVec S_ 1 := (fun x v => Host.reduce IntOp.andi x v reducesTo_S4x8x8x512x64_S_d0_1_2_3_4 h_S_) main_v6 main_c_1
  let main_v8 : IVec S_ 1 := andi main_v3 main_v7
  let main_v9 : FVec F S4x8x8x64x512 .f32 := Host.absf main_arg2
  let main_cst_2 : FVec F S_ .f32 := constant S_ .f32 0x7F800000#32
  let main_v10 : FVec F S4x8x8x64x512 .f32 := broadcastInDim S4x8x8x64x512 ![] bcast_S_S4x8x8x64x512 main_cst_2
  let main_v11 : IVec S4x8x8x64x512 1 := cmpf .olt main_v9 main_v10
  let main_c_3 : IVec S_ 1 := constantI S_ 1 1#1
  let main_v12 : IVec S_ 1 := (fun x v => Host.reduce IntOp.andi x v reducesTo_S4x8x8x64x512_S_d0_1_2_3_4 h_S_) main_v11 main_c_3
  let main_v13 : IVec S_ 1 := andi main_v8 main_v12
  let main_v14 : FVec F S4x8x8x1x1 .f32 := Host.absf main_arg3
  let main_cst_4 : FVec F S_ .f32 := constant S_ .f32 0x7F800000#32
  let main_v15 : FVec F S4x8x8x1x1 .f32 := broadcastInDim S4x8x8x1x1 ![] bcast_S_S4x8x8x1x1 main_cst_4
  let main_v16 : IVec S4x8x8x1x1 1 := cmpf .olt main_v14 main_v15
  fn_part1 (F := F) main_arg4 main_arg5 main_arg6 main_arg7 main_v13 main_v16
-- ==== Kernel.lean ====
abbrev S4096x4096 : Shape := ⟨2, ![4096, 4096]⟩
abbrev S4x8x8x512x64 : Shape := ⟨5, ![4, 8, 8, 512, 64]⟩
abbrev S4x8x8x64x512 : Shape := ⟨5, ![4, 8, 8, 64, 512]⟩
abbrev S4x8x8x1x1 : Shape := ⟨5, ![4, 8, 8, 1, 1]⟩
abbrev S8x8x1x1 : Shape := ⟨4, ![8, 8, 1, 1]⟩
abbrev S4096 : Shape := ⟨1, ![4096]⟩
abbrev S4x1x1x512x64 : Shape := ⟨5, ![4, 1, 1, 512, 64]⟩
abbrev S4x1x1x64x512 : Shape := ⟨5, ![4, 1, 1, 64, 512]⟩
abbrev S4x1x1x1x1 : Shape := ⟨5, ![4, 1, 1, 1, 1]⟩
abbrev S1x1x1x1 : Shape := ⟨4, ![1, 1, 1, 1]⟩
abbrev S512x512 : Shape := ⟨2, ![512, 512]⟩
abbrev S1x1x1x512x64 : Shape := ⟨5, ![1, 1, 1, 512, 64]⟩
abbrev S512x64 : Shape := ⟨2, ![512, 64]⟩
abbrev S1x1x1x64x512 : Shape := ⟨5, ![1, 1, 1, 64, 512]⟩
abbrev S64x512 : Shape := ⟨2, ![64, 512]⟩
abbrev S512 : Shape := ⟨1, ![512]⟩
abbrev S512x1 : Shape := ⟨2, ![512, 1]⟩
abbrev S1x512 : Shape := ⟨2, ![1, 512]⟩
abbrev S1x1x1x1x1 : Shape := ⟨5, ![1, 1, 1, 1, 1]⟩
abbrev S1x1 : Shape := ⟨2, ![1, 1]⟩
abbrev S1024x512 : Shape := ⟨2, ![1024, 512]⟩
abbrev S1024 : Shape := ⟨1, ![1024]⟩
abbrev S1024x1024 : Shape := ⟨2, ![1024, 1024]⟩
abbrev S512x1024 : Shape := ⟨2, ![512, 1024]⟩
abbrev S1x1024 : Shape := ⟨2, ![1, 1024]⟩

abbrev nBuf : Space → Nat
  | .hbm => 10
  | .vmem => 23
  | .smem => 0
  | _ => 0

abbrev bufTy : (tb : Table) → Fin (tcTables nBuf tb) → BufTy
  | .hbm, ⟨0, _⟩ => ⟨S4096x4096, .f32⟩
  | .hbm, ⟨1, _⟩ => ⟨S4x8x8x512x64, .f32⟩
  | .hbm, ⟨2, _⟩ => ⟨S4x8x8x64x512, .f32⟩
  | .hbm, ⟨3, _⟩ => ⟨S4x8x8x1x1, .f32⟩
  | .hbm, ⟨4, _⟩ => ⟨S4x8x8x1x1, .f32⟩
  | .hbm, ⟨5, _⟩ => ⟨S4x8x8x1x1, .f32⟩
  | .hbm, ⟨6, _⟩ => ⟨S8x8x1x1, .f32⟩
  | .hbm, ⟨7, _⟩ => ⟨S4096, .f32⟩
  | .hbm, ⟨8, _⟩ => ⟨S4096x4096, .f32⟩
  | .hbm, ⟨9, _⟩ => ⟨S4096x4096, .f32⟩
  | .local _ .vmem, ⟨0, _⟩ => ⟨S4x1x1x512x64, .f32⟩
  | .local _ .vmem, ⟨1, _⟩ => ⟨S4x1x1x512x64, .f32⟩
  | .local _ .vmem, ⟨2, _⟩ => ⟨S4x1x1x64x512, .f32⟩
  | .local _ .vmem, ⟨3, _⟩ => ⟨S4x1x1x64x512, .f32⟩
  | .local _ .vmem, ⟨4, _⟩ => ⟨S4x1x1x1x1, .f32⟩
  | .local _ .vmem, ⟨5, _⟩ => ⟨S4x1x1x1x1, .f32⟩
  | .local _ .vmem, ⟨6, _⟩ => ⟨S4x1x1x1x1, .f32⟩
  | .local _ .vmem, ⟨7, _⟩ => ⟨S4x1x1x1x1, .f32⟩
  | .local _ .vmem, ⟨8, _⟩ => ⟨S4x1x1x1x1, .f32⟩
  | .local _ .vmem, ⟨9, _⟩ => ⟨S4x1x1x1x1, .f32⟩
  | .local _ .vmem, ⟨10, _⟩ => ⟨S1x1x1x1, .f32⟩
  | .local _ .vmem, ⟨11, _⟩ => ⟨S1x1x1x1, .f32⟩
  | .local _ .vmem, ⟨12, _⟩ => ⟨S512x512, .f32⟩
  | .local _ .vmem, ⟨13, _⟩ => ⟨S512x512, .f32⟩
  | .local _ .vmem, ⟨14, _⟩ => ⟨S1024x512, .f32⟩
  | .local _ .vmem, ⟨15, _⟩ => ⟨S1024x512, .f32⟩
  | .local _ .vmem, ⟨16, _⟩ => ⟨S1024x512, .f32⟩
  | .local _ .vmem, ⟨17, _⟩ => ⟨S1024x512, .f32⟩
  | .local _ .vmem, ⟨18, _⟩ => ⟨S1024, .f32⟩
  | .local _ .vmem, ⟨19, _⟩ => ⟨S1024, .f32⟩
  | .local _ .vmem, ⟨20, _⟩ => ⟨S1024x1024, .f32⟩
  | .local _ .vmem, ⟨21, _⟩ => ⟨S1024x1024, .f32⟩
  | .local _ .vmem, ⟨22, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21

abbrev nD : Nat := 1
abbrev τ : Topo := Topo.v7x

variable {F : FTy → Type} [FloatOps F]

abbrev grid0 : Pipeline.Grid := ⟨2, ![8, 8], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, arg1.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, arg1.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, arg1.toNat, c0_i32_0.toNat, c0_i32_1.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, arg1.toNat, c0_i32_0.toNat, c0_i32_1.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, arg1.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4x1x1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x1x1x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x1x1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x1x1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x1x1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨3, ![4, 4, 8], ![false, false, false]⟩

def k1_cond2 (i : grid1.Coords) : BitVec 1 :=
  let arg2 : BitVec 32 := BitVec.ofNat 32 (i 2).val
  let c7_i32 : BitVec 32 := 7#32
  let v15 : BitVec 1 := Scalar.cmpi .eq arg2 c7_i32
  let v16 : BitVec 32 := Scalar.extui v15
  let c0_i32_8 : BitVec 32 := 0#32
  let v17 : BitVec 1 := Scalar.cmpi .ne v16 c0_i32_8
  v17

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  inb_S4x1x1x512x64_S1x1x1x512x64_0_0_0_0_0 : ∀ a, (![0, 0, 0, 0, 0] : Fin 5 → Nat) a + S1x1x1x512x64.size a ≤ S4x1x1x512x64.size a
  h_S1x1x1x512x64 : 0 < S1x1x1x512x64.numel
  shapeCasts_S1x1x1x512x64_S512x64 : S1x1x1x512x64.ShapeCasts S512x64
  natLt_1_32 : 1 < 32
  bitsLt_bf16_f32 : FTy.bits .bf16 < FTy.bits .f32
  inb_S4x1x1x64x512_S1x1x1x64x512_0_0_0_0_0 : ∀ a, (![0, 0, 0, 0, 0] : Fin 5 → Nat) a + S1x1x1x64x512.size a ≤ S4x1x1x64x512.size a
  h_S1x1x1x64x512 : 0 < S1x1x1x64x512.numel
  shapeCasts_S1x1x1x64x512_S64x512 : S1x1x1x64x512.ShapeCasts S64x512
  reduces_S512x64_S512 : S512x64.Reduces [1] S512
  shapeCasts_S512_S512x1 : S512.ShapeCasts S512x1
  reduces_S64x512_S512 : S64x512.Reduces [0] S512
  shapeCasts_S512_S1x512 : S512.ShapeCasts S1x512
  inb_S4x1x1x1x1_S1x1x1x1x1_0_0_0_0_0 : ∀ a, (![0, 0, 0, 0, 0] : Fin 5 → Nat) a + S1x1x1x1x1.size a ≤ S4x1x1x1x1.size a
  h_S1x1x1x1x1 : 0 < S1x1x1x1x1.numel
  shapeCasts_S1x1x1x1x1_S1x1 : S1x1x1x1x1.ShapeCasts S1x1
  broadcasts_S1x1_S512x512 : S1x1.Broadcasts S512x512
  broadcasts_S1x1_S512x1 : S1x1.Broadcasts S512x1
  broadcasts_S512x1_S512x512 : S512x1.Broadcasts S512x512
  broadcasts_S1x1_S1x512 : S1x1.Broadcasts S1x512
  broadcasts_S1x512_S512x512 : S1x512.Broadcasts S512x512
  inb_S4x1x1x512x64_S1x1x1x512x64_1_0_0_0_0 : ∀ a, (![1, 0, 0, 0, 0] : Fin 5 → Nat) a + S1x1x1x512x64.size a ≤ S4x1x1x512x64.size a
  inb_S4x1x1x64x512_S1x1x1x64x512_1_0_0_0_0 : ∀ a, (![1, 0, 0, 0, 0] : Fin 5 → Nat) a + S1x1x1x64x512.size a ≤ S4x1x1x64x512.size a
  inb_S4x1x1x1x1_S1x1x1x1x1_1_0_0_0_0 : ∀ a, (![1, 0, 0, 0, 0] : Fin 5 → Nat) a + S1x1x1x1x1.size a ≤ S4x1x1x1x1.size a
  inb_S4x1x1x512x64_S1x1x1x512x64_2_0_0_0_0 : ∀ a, (![2, 0, 0, 0, 0] : Fin 5 → Nat) a + S1x1x1x512x64.size a ≤ S4x1x1x512x64.size a
  inb_S4x1x1x64x512_S1x1x1x64x512_2_0_0_0_0 : ∀ a, (![2, 0, 0, 0, 0] : Fin 5 → Nat) a + S1x1x1x64x512.size a ≤ S4x1x1x64x512.size a
  inb_S4x1x1x1x1_S1x1x1x1x1_2_0_0_0_0 : ∀ a, (![2, 0, 0, 0, 0] : Fin 5 → Nat) a + S1x1x1x1x1.size a ≤ S4x1x1x1x1.size a
  inb_S4x1x1x512x64_S1x1x1x512x64_3_0_0_0_0 : ∀ a, (![3, 0, 0, 0, 0] : Fin 5 → Nat) a + S1x1x1x512x64.size a ≤ S4x1x1x512x64.size a
  inb_S4x1x1x64x512_S1x1x1x64x512_3_0_0_0_0 : ∀ a, (![3, 0, 0, 0, 0] : Fin 5 → Nat) a + S1x1x1x64x512.size a ≤ S4x1x1x64x512.size a
  inb_S4x1x1x1x1_S1x1x1x1x1_3_0_0_0_0 : ∀ a, (![3, 0, 0, 0, 0] : Fin 5 → Nat) a + S1x1x1x1x1.size a ≤ S4x1x1x1x1.size a
  inb_S1x1x1x1_S1x1x1x1_0_0_0_0 : ∀ a, (![0, 0, 0, 0] : Fin 4 → Nat) a + S1x1x1x1.size a ≤ S1x1x1x1.size a
  h_S1x1x1x1 : 0 < S1x1x1x1.numel
  shapeCasts_S1x1x1x1_S1x1 : S1x1x1x1.ShapeCasts S1x1
  inb_S512x512_S512x512_0_0 : ∀ a, (![0, 0] : Fin 2 → Nat) a + S512x512.size a ≤ S512x512.size a
  h_S512x512 : 0 < S512x512.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  transposes_S1024x512_p1_0_S512x1024 : S1024x512.Transposes [1, 0] S512x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  dot_S512x64_S64x512_S512x512_1_0_0_1_n_n_wf : DotDims.WF S512x64 S64x512 S512x512 [1] [0] [0] [1] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x1x1x512x64.size a ≤ S4x8x8x512x64.size a
  hwx0_0 : ∀ i : grid0.Coords, EltTy.bits .f32 = 32 ∨ (Rect.block (s := S4x8x8x512x64) S4x1x1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x1x1x64x512.size a ≤ S4x8x8x64x512.size a
  hwx0_1 : ∀ i : grid0.Coords, EltTy.bits .f32 = 32 ∨ (Rect.block (s := S4x8x8x64x512) S4x1x1x64x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x1x1x1x1.size a ≤ S4x8x8x1x1.size a
  hwx0_2 : ∀ i : grid0.Coords, EltTy.bits .f32 = 32 ∨ (Rect.block (s := S4x8x8x1x1) S4x1x1x1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x1x1x1x1.size a ≤ S4x8x8x1x1.size a
  hwx0_3 : ∀ i : grid0.Coords, EltTy.bits .f32 = 32 ∨ (Rect.block (s := S4x8x8x1x1) S4x1x1x1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x1x1x1x1.size a ≤ S4x8x8x1x1.size a
  hwx0_4 : ∀ i : grid0.Coords, EltTy.bits .f32 = 32 ∨ (Rect.block (s := S4x8x8x1x1) S4x1x1x1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1x1.size a ≤ S8x8x1x1.size a
  hwx0_5 : ∀ i : grid0.Coords, EltTy.bits .f32 = 32 ∨ (Rect.block (s := S8x8x1x1) S1x1x1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S4096x4096.size a
  hwx0_6 : ∀ i : grid0.Coords, EltTy.bits .f32 = 32 ∨ (Rect.block (s := S4096x4096) S512x512.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S4096x4096.size a
  hwx1_0 : ∀ i : grid1.Coords, EltTy.bits .f32 = 32 ∨ (Rect.block (s := S4096x4096) S1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S4096x4096.size a
  hwx1_1 : ∀ i : grid1.Coords, EltTy.bits .f32 = 32 ∨ (Rect.block (s := S4096x4096) S1024x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024.size a ≤ S4096.size a
  hwx1_2 : ∀ i : grid1.Coords, EltTy.bits .f32 = 32 ∨ (Rect.block (s := S4096) S1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S4096x4096.size a
  hwx1_3 : ∀ i : grid1.Coords, EltTy.bits .f32 = 32 ∨ (Rect.block (s := S4096x4096) S1024x1024.size (cc1_transform_3 i) (hinb1_3 i)).WholeWords (EltTy.packing .f32)

variable [Facts₀]

def dot_S512x64_S64x512_S512x512_1_0_0_1_n_n : DotDims S512x64 S64x512 S512x512 where
  lhsContracting := [1]
  rhsContracting := [0]
  lhsNonContracting := [0]
  rhsNonContracting := [1]
  lhsBatch := []
  rhsBatch := []
  wf := dot_S512x64_S64x512_S512x512_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg1) S4x1x1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4x1x1x64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S4x1x1x1x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S4x1x1x1x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S4x1x1x1x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S1x1x1x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0) S512x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4x8x8x512x64 : Shape := ⟨5, ![4, 8, 8, 512, 64]⟩
abbrev S4x8x8x64x512 : Shape := ⟨5, ![4, 8, 8, 64, 512]⟩
abbrev S4x8x8x1x1 : Shape := ⟨5, ![4, 8, 8, 1, 1]⟩
abbrev S8x8x1x1 : Shape := ⟨4, ![8, 8, 1, 1]⟩
abbrev S4096 : Shape := ⟨1, ![4096]⟩
abbrev S_ : Shape := ⟨0, ![]⟩
abbrev S4x8x8x512x512 : Shape := ⟨5, ![4, 8, 8, 512, 512]⟩
abbrev S4x8x8x512 : Shape := ⟨4, ![4, 8, 8, 512]⟩
abbrev S4x8x8x512x1 : Shape := ⟨5, ![4, 8, 8, 512, 1]⟩
abbrev S4x8x8x1x512 : Shape := ⟨5, ![4, 8, 8, 1, 512]⟩
abbrev S8x8x512x512 : Shape := ⟨4, ![8, 8, 512, 512]⟩
abbrev S8x512x8x512 : Shape := ⟨4, ![8, 512, 8, 512]⟩
abbrev S1x4096 : Shape := ⟨2, ![1, 4096]⟩

abbrev nBuf : Space → Nat
  | .hbm => 44
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4x8x8x512x64, .f32⟩
  | .hbm, ⟨2, _⟩ => ⟨S4x8x8x64x512, .f32⟩
  | .hbm, ⟨3, _⟩ => ⟨S4x8x8x1x1, .f32⟩
  | .hbm, ⟨4, _⟩ => ⟨S4x8x8x1x1, .f32⟩
  | .hbm, ⟨5, _⟩ => ⟨S4x8x8x1x1, .f32⟩
  | .hbm, ⟨6, _⟩ => ⟨S8x8x1x1, .f32⟩
  | .hbm, ⟨7, _⟩ => ⟨S4096, .f32⟩
  | .hbm, ⟨8, _⟩ => ⟨S_, .f32⟩
  | .hbm, ⟨9, _⟩ => ⟨S4x8x8x512x64, .f32⟩
  | .hbm, ⟨10, _⟩ => ⟨S4x8x8x512x64, .i1⟩
  | .hbm, ⟨11, _⟩ => ⟨S4x8x8x512x64, .f32⟩
  | .hbm, ⟨12, _⟩ => ⟨S_, .f32⟩
  | .hbm, ⟨13, _⟩ => ⟨S4x8x8x64x512, .f32⟩
  | .hbm, ⟨14, _⟩ => ⟨S4x8x8x64x512, .i1⟩
  | .hbm, ⟨15, _⟩ => ⟨S4x8x8x64x512, .f32⟩
  | .hbm, ⟨16, _⟩ => ⟨S4x8x8x512x512, .f32⟩
  | .hbm, ⟨17, _⟩ => ⟨S_, .f32⟩
  | .hbm, ⟨18, _⟩ => ⟨S4x8x8x512, .f32⟩
  | .hbm, ⟨19, _⟩ => ⟨S4x8x8x512x1, .f32⟩
  | .hbm, ⟨20, _⟩ => ⟨S_, .f32⟩
  | .hbm, ⟨21, _⟩ => ⟨S4x8x8x512, .f32⟩
  | .hbm, ⟨22, _⟩ => ⟨S4x8x8x1x512, .f32⟩
  | .hbm, ⟨23, _⟩ => ⟨S4x8x8x512x512, .f32⟩
  | .hbm, ⟨24, _⟩ => ⟨S4x8x8x512x512, .f32⟩
  | .hbm, ⟨25, _⟩ => ⟨S4x8x8x512x1, .f32⟩
  | .hbm, ⟨26, _⟩ => ⟨S4x8x8x512x1, .f32⟩
  | .hbm, ⟨27, _⟩ => ⟨S4x8x8x512x512, .f32⟩
  | .hbm, ⟨28, _⟩ => ⟨S4x8x8x512x512, .f32⟩
  | .hbm, ⟨29, _⟩ => ⟨S4x8x8x1x512, .f32⟩
  | .hbm, ⟨30, _⟩ => ⟨S4x8x8x1x512, .f32⟩
  | .hbm, ⟨31, _⟩ => ⟨S4x8x8x512x512, .f32⟩
  | .hbm, ⟨32, _⟩ => ⟨S4x8x8x512x512, .f32⟩
  | .hbm, ⟨33, _⟩ => ⟨S_, .f32⟩
  | .hbm, ⟨34, _⟩ => ⟨S8x8x512x512, .f32⟩
  | .hbm, ⟨35, _⟩ => ⟨S8x8x512x512, .f32⟩
  | .hbm, ⟨36, _⟩ => ⟨S8x8x512x512, .f32⟩
  | .hbm, ⟨37, _⟩ => ⟨S8x512x8x512, .f32⟩
  | .hbm, ⟨38, _⟩ => ⟨S4096x4096, .f32⟩
  | .hbm, ⟨39, _⟩ => ⟨S4096x4096, .f32⟩
  | .hbm, ⟨40, _⟩ => ⟨S4096x4096, .f32⟩
  | .hbm, ⟨41, _⟩ => ⟨S1x4096, .f32⟩
  | .hbm, ⟨42, _⟩ => ⟨S4096x4096, .f32⟩
  | .hbm, ⟨43, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]

class Facts₀ : Prop where
  bcast_S_S4x8x8x512x64 : S_.BroadcastsInDim S4x8x8x512x64 (![] : Fin 0 → Fin S4x8x8x512x64.rank)
  bcast_S_S4x8x8x64x512 : S_.BroadcastsInDim S4x8x8x64x512 (![] : Fin 0 → Fin S4x8x8x64x512.rank)
  reducesTo_S4x8x8x512x64_S4x8x8x512_d4 : S4x8x8x512x64.ReducesTo [4] S4x8x8x512
  h_S_ : 0 < S_.numel
  bcast_S4x8x8x512_S4x8x8x512x1_0_1_2_3 : S4x8x8x512.BroadcastsInDim S4x8x8x512x1 (![0, 1, 2, 3] : Fin 4 → Fin S4x8x8x512x1.rank)
  reducesTo_S4x8x8x64x512_S4x8x8x512_d3 : S4x8x8x64x512.ReducesTo [3] S4x8x8x512
  bcast_S4x8x8x512_S4x8x8x1x512_0_1_2_4 : S4x8x8x512.BroadcastsInDim S4x8x8x1x512 (![0, 1, 2, 4] : Fin 4 → Fin S4x8x8x1x512.rank)
  bcast_S4x8x8x1x1_S4x8x8x512x512_0_1_2_3_4 : S4x8x8x1x1.BroadcastsInDim S4x8x8x512x512 (![0, 1, 2, 3, 4] : Fin 5 → Fin S4x8x8x512x512.rank)
  bcast_S4x8x8x1x1_S4x8x8x512x1_0_1_2_3_4 : S4x8x8x1x1.BroadcastsInDim S4x8x8x512x1 (![0, 1, 2, 3, 4] : Fin 5 → Fin S4x8x8x512x1.rank)
  bcast_S4x8x8x512x1_S4x8x8x512x512_0_1_2_3_4 : S4x8x8x512x1.BroadcastsInDim S4x8x8x512x512 (![0, 1, 2, 3, 4] : Fin 5 → Fin S4x8x8x512x512.rank)
  bcast_S4x8x8x1x1_S4x8x8x1x512_0_1_2_3_4 : S4x8x8x1x1.BroadcastsInDim S4x8x8x1x512 (![0, 1, 2, 3, 4] : Fin 5 → Fin S4x8x8x1x512.rank)
  bcast_S4x8x8x1x512_S4x8x8x512x512_0_1_2_3_4 : S4x8x8x1x512.BroadcastsInDim S4x8x8x512x512 (![0, 1, 2, 3, 4] : Fin 5 → Fin S4x8x8x512x512.rank)
  reducesTo_S4x8x8x512x512_S8x8x512x512_d0 : S4x8x8x512x512.ReducesTo [0] S8x8x512x512
  bcast_S8x8x1x1_S8x8x512x512_0_1_2_3 : S8x8x1x1.BroadcastsInDim S8x8x512x512 (![0, 1, 2, 3] : Fin 4 → Fin S8x8x512x512.rank)
  transposes_S8x8x512x512_S8x512x8x512_0_2_1_3 : S8x8x512x512.Transposes [0, 2, 1, 3] S8x512x8x512
  shapeCasts_S8x512x8x512_S4096x4096 : S8x512x8x512.ShapeCasts S4096x4096
  transposes_S4096x4096_S4096x4096_1_0 : S4096x4096.Transposes [1, 0] S4096x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  dot_S4x8x8x512x64_S4x8x8x64x512_S4x8x8x512x512_4_3_3_4_012_012_wf : DotDims.WF S4x8x8x512x64 S4x8x8x64x512 S4x8x8x512x512 [4] [3] [3] [4] [0, 1, 2] [0, 1, 2]
  dot_S4096x4096_S4096x4096_S4096x4096_1_0_0_1_n_n_wf : DotDims.WF S4096x4096 S4096x4096 S4096x4096 [1] [0] [0] [1] [] []

variable [Facts₀]

def dot_S4x8x8x512x64_S4x8x8x64x512_S4x8x8x512x512_4_3_3_4_012_012 : DotDims S4x8x8x512x64 S4x8x8x64x512 S4x8x8x512x512 where
  lhsContracting := [4]
  rhsContracting := [3]
  lhsNonContracting := [3]
  rhsNonContracting := [4]
  lhsBatch := [0, 1, 2]
  rhsBatch := [0, 1, 2]
  wf := dot_S4x8x8x512x64_S4x8x8x64x512_S4x8x8x512x512_4_3_3_4_012_012_wf
def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.K.Pay0.lean ====
/-
  The weight kernel's store, as one pure term of the six staged blocks.

  The body reads bit plane k of the staged Y block (4 planes of 512 x 64), of the staged Z block (4 planes of 64 x 512) and
  of the three staged coefficient blocks (4 scalars each), and the one staged offset.  Starting from the zero tile it adds,
  plane after plane, a_k * (Y_k Z_k) + b_k * rowsum(Y_k) + c_k * colsum(Z_k) with Y_k, Z_k thresholded at one half, then
  adds the offset d; that sum is the one value it stores, over the whole 512 x 512 output block.
-/
import proofs.«109794_j25589415149863_1_alg».proof.Proof.Gen.Kernel.Skeleton
import Idealize.ShloMosaic.Lib.Pipeline.FrameBody

noncomputable section

namespace Cert.Kernel.Fr

open Idealize.ShloMosaic Idealize.ShloMosaic.TcCoe Idealize.SL.Sem
open Cert.Kernel Cert.Kernel.Gen

variable {F : FTy → Type} [FloatOps F]

/-- Bit plane k of the staged Y block. -/
abbrev rY0 : Rect S4x1x1x512x64 := Rect.unit (s := S4x1x1x512x64) ![0, 0, 0, 0, 0] S1x1x1x512x64.size inb_S4x1x1x512x64_S1x1x1x512x64_0_0_0_0_0
abbrev rY1 : Rect S4x1x1x512x64 := Rect.unit (s := S4x1x1x512x64) ![1, 0, 0, 0, 0] S1x1x1x512x64.size inb_S4x1x1x512x64_S1x1x1x512x64_1_0_0_0_0
abbrev rY2 : Rect S4x1x1x512x64 := Rect.unit (s := S4x1x1x512x64) ![2, 0, 0, 0, 0] S1x1x1x512x64.size inb_S4x1x1x512x64_S1x1x1x512x64_2_0_0_0_0
abbrev rY3 : Rect S4x1x1x512x64 := Rect.unit (s := S4x1x1x512x64) ![3, 0, 0, 0, 0] S1x1x1x512x64.size inb_S4x1x1x512x64_S1x1x1x512x64_3_0_0_0_0
/-- Bit plane k of the staged Z block. -/
abbrev rZ0 : Rect S4x1x1x64x512 := Rect.unit (s := S4x1x1x64x512) ![0, 0, 0, 0, 0] S1x1x1x64x512.size inb_S4x1x1x64x512_S1x1x1x64x512_0_0_0_0_0
abbrev rZ1 : Rect S4x1x1x64x512 := Rect.unit (s := S4x1x1x64x512) ![1, 0, 0, 0, 0] S1x1x1x64x512.size inb_S4x1x1x64x512_S1x1x1x64x512_1_0_0_0_0
abbrev rZ2 : Rect S4x1x1x64x512 := Rect.unit (s := S4x1x1x64x512) ![2, 0, 0, 0, 0] S1x1x1x64x512.size inb_S4x1x1x64x512_S1x1x1x64x512_2_0_0_0_0
abbrev rZ3 : Rect S4x1x1x64x512 := Rect.unit (s := S4x1x1x64x512) ![3, 0, 0, 0, 0] S1x1x1x64x512.size inb_S4x1x1x64x512_S1x1x1x64x512_3_0_0_0_0
/-- Bit plane k of a staged coefficient block. -/
abbrev rA0 : Rect S4x1x1x1x1 := Rect.unit (s := S4x1x1x1x1) ![0, 0, 0, 0, 0] S1x1x1x1x1.size inb_S4x1x1x1x1_S1x1x1x1x1_0_0_0_0_0
abbrev rA1 : Rect S4x1x1x1x1 := Rect.unit (s := S4x1x1x1x1) ![1, 0, 0, 0, 0] S1x1x1x1x1.size inb_S4x1x1x1x1_S1x1x1x1x1_1_0_0_0_0
abbrev rA2 : Rect S4x1x1x1x1 := Rect.unit (s := S4x1x1x1x1) ![2, 0, 0, 0, 0] S1x1x1x1x1.size inb_S4x1x1x1x1_S1x1x1x1x1_2_0_0_0_0
abbrev rA3 : Rect S4x1x1x1x1 := Rect.unit (s := S4x1x1x1x1) ![3, 0, 0, 0, 0] S1x1x1x1x1.size inb_S4x1x1x1x1_S1x1x1x1x1_3_0_0_0_0
/-- The staged offset, whole. -/
abbrev rD : Rect S1x1x1x1 := Rect.unit (s := S1x1x1x1) ![0, 0, 0, 0] S1x1x1x1.size inb_S1x1x1x1_S1x1x1x1_0_0_0_0
/-- The output block, whole. -/
abbrev rW : Rect S512x512 := Rect.unit (s := S512x512) ![0, 0] S512x512.size inb_S512x512_S512x512_0_0

/-- The running sum after plane 0. -/
def acc1 (x0 : Vec F S4x1x1x512x64 .f32) (x1 : Vec F S4x1x1x64x512 .f32) (x2 x3 x4 : Vec F S4x1x1x1x1 .f32) : FVec F S512x512 .f32 :=
  k0_pay10 (k0_pay2 (F := F)) (k0_pay5 (View.ld x0 rY0) (View.ld x1 rZ0)) (k0_pay6 (View.ld x0 rY0)) (k0_pay7 (View.ld x1 rZ0))
    (k0_pay8 (View.ld x2 rA0)) (k0_pay9 (View.ld x3 rA0)) (View.ld x4 rA0)

/-- after plane 1, -/
def acc2 (x0 : Vec F S4x1x1x512x64 .f32) (x1 : Vec F S4x1x1x64x512 .f32) (x2 x3 x4 : Vec F S4x1x1x1x1 .f32) : FVec F S512x512 .f32 :=
  k0_pay17 (acc1 x0 x1 x2 x3 x4) (k0_pay13 (View.ld x0 rY1) (View.ld x1 rZ1)) (k0_pay14 (View.ld x0 rY1)) (k0_pay15 (View.ld x1 rZ1))
    (k0_pay16 (View.ld x2 rA1)) (View.ld x3 rA1) (View.ld x4 rA1)

/-- after plane 2, -/
def acc3 (x0 : Vec F S4x1x1x512x64 .f32) (x1 : Vec F S4x1x1x64x512 .f32) (x2 x3 x4 : Vec F S4x1x1x1x1 .f32) : FVec F S512x512 .f32 :=
  k0_pay23 (acc2 x0 x1 x2 x3 x4) (k0_pay20 (View.ld x0 rY2) (View.ld x1 rZ2)) (k0_pay21 (View.ld x0 rY2)) (k0_pay22 (View.ld x1 rZ2))
    (View.ld x2 rA2) (View.ld x3 rA2) (View.ld x4 rA2)

/-- and the stored value: plane 3 added, then the offset. -/
def wpay (x0 : Vec F S4x1x1x512x64 .f32) (x1 : Vec F S4x1x1x64x512 .f32) (x2 x3 x4 : Vec F S4x1x1x1x1 .f32) (x5 : Vec F S1x1x1x1 .f32) : FVec F S512x512 .f32 :=
  k0_pay1 (acc3 x0 x1 x2 x3 x4) (k0_pay25 (View.ld x1 rZ3)) (k0_pay26 (View.ld x0 rY3) (View.ld x1 rZ3)) (k0_pay27 (View.ld x0 rY3))
    (View.ld x2 rA3) (View.ld x3 rA3) (View.ld x4 rA3) (View.ld x5 rD)

/-- What the body leaves in the output window's staging buffer: its one store, over the whole block. -/
def out0_6 (x0 : Vec F S4x1x1x512x64 .f32) (x1 : Vec F S4x1x1x64x512 .f32) (x2 x3 x4 : Vec F S4x1x1x1x1 .f32) (x5 : Vec F S1x1x1x1 .f32) : Vec F S512x512 .f32 :=
  View.canon [⟨rW, wpay x0 x1 x2 x3 x4 x5⟩]

end Cert.Kernel.Fr

end
-- ==== Proof.K.Reg0.lean ====
/-
  Region 0, the weight kernel, at the buffer contents V found when the region is entered.

  Each of the seven windows' blocks at a grid point is read off its array; the six input windows are fetched at every
  point, so the staging buffer the body reads holds exactly that block.  The body loads whole rectangles of the six
  staged inputs and stores one value over the whole output block; hence the output's staging buffer after the body is
  that one value, a pure function of the six input blocks.
-/
import proofs.«109794_j25589415149863_1_alg».proof.Proof.K.Pay0
import proofs.«109794_j25589415149863_1_alg».proof.Proof.Gen.Kernel.Launch
import proofs.«109794_j25589415149863_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-! ## The windows' blocks -/

/-- Window w's block at point t, read off its array at the entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0: whatever proof data has the entry contents as its array and leaves the block in place after the
    body, the staging buffer the body reads at a point holds the window's block there (the window is fetched at every point). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1: whatever proof data has the entry contents as its array and leaves the block in place after the
    body, the staging buffer the body reads at a point holds the window's block there (the window is fetched at every point). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2: whatever proof data has the entry contents as its array and leaves the block in place after the
    body, the staging buffer the body reads at a point holds the window's block there (the window is fetched at every point). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3: whatever proof data has the entry contents as its array and leaves the block in place after the
    body, the staging buffer the body reads at a point holds the window's block there (the window is fetched at every point). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4: whatever proof data has the entry contents as its array and leaves the block in place after the
    body, the staging buffer the body reads at a point holds the window's block there (the window is fetched at every point). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5: whatever proof data has the entry contents as its array and leaves the block in place after the
    body, the staging buffer the body reads at a point holds the window's block there (the window is fetched at every point). -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The one store covers the output block -/

/-- The stored rectangle is the whole block, so every index lies in it. -/
theorem cover0_6 (p0 : Vec F S512x512 .f32) (y : S512x512.Idx) :
    ∃ pc ∈ ([⟨rW, p0⟩] : List (View.Piece (Elt F) S512x512 .f32)), y ∈ pc.1.set :=
  View.cover_of_tiled [⟨rW, p0⟩] S512x512.size (by rfl) y

/-! ## The body's triple -/

set_option maxHeartbeats 1000000 in
/-- The body on whole staging memrefs: the six inputs at contents x0 .. x5 and the output at anything run to the
    continuation with the inputs unchanged and the output at the one stored value over the whole block. -/
theorem sound_kernel0 (c : Dev nD) (E : Set ℕ) (i : grid0.Coords) (arg2 : Memref sig .tc .vmem S4x1x1x512x64 .f32) (harg2 : arg2.IsWhole) (arg3 : Memref sig .tc .vmem S4x1x1x64x512 .f32) (harg3 : arg3.IsWhole) (arg4 : Memref sig .tc .vmem S4x1x1x1x1 .f32) (harg4 : arg4.IsWhole) (arg5 : Memref sig .tc .vmem S4x1x1x1x1 .f32) (harg5 : arg5.IsWhole) (arg6 : Memref sig .tc .vmem S4x1x1x1x1 .f32) (harg6 : arg6.IsWhole) (arg7 : Memref sig .tc .vmem S1x1x1x1 .f32) (harg7 : arg7.IsWhole) (arg8 : Memref sig .tc .vmem S512x512 .f32) (harg8 : arg8.IsWhole)
    (x0 : Vec F S4x1x1x512x64 .f32) (x1 : Vec F S4x1x1x64x512 .f32) (x2 x3 x4 : Vec F S4x1x1x1x1 .f32) (x5 : Vec F S1x1x1x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (out0_6 x0 x1 x2 x3 x4 x5)) -∗ K ⟨⟩))
      ⊢ wp frame (wpE (defs₀ (F := F)) Variants.none c none) E (cc0__w_kernel i arg2 harg2 arg3 harg3 arg4 harg4 arg5 harg5 arg6 harg6 arg7 harg7 arg8 harg8) K := by
  simp only [cc0__w_kernel_eq_skeleton]; unfold cc0__w_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The pipeline's proof data -/

/-- The proof data of the weight pipeline on a core: the arrays at the entry contents; after the body at a point each
    input's buffer still at its block and the output's at the stored value of the six input blocks; the invariant
    that of a body touching nothing else; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]

/-- Each input's staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' staging buffers hold their blocks, so the body's triple applies; the invariant
    and what the core owes pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _
    (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Fr

end
-- ==== Proof.K.Reg1Runs.lean ====
/-
  The matrix-product kernel at one grid point, as separation-logic triples.

  The grid is 4 x 4 x 8 and the last coordinate k walks the contraction axis.  The body keeps a 1024 x 1024 accumulator in a
  scratch buffer that survives from one point to the next: it is zeroed when k = 0, the product of the two staged 1024 x 512
  blocks is added to it at every point, and when k = 7 the accumulator plus the staged bias row is stored into the output block.
  So a point is in one of three cases: k = 0 (zero, add), 0 < k < 7 (add), k = 7 (add, store out); k = 0 and k = 7 together
  meet no point.  Here: the two conditions in closed form over the linear point index, where the output window is idle, the
  staging memrefs of a point, and for each case the body's triple on any whole memrefs together with the pieces its stores
  leave in the output block and in the accumulator.
-/
import proofs.«109794_j25589415149863_1_alg».proof.Proof.Gen.Kernel.Launch
import proofs.«109794_j25589415149863_1_alg».proof.Proof.Gen.Kernel.Skeleton
import proofs.«109794_j25589415149863_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of 1024 x 1024 extents recurses once per coordinate of the long axes
set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two conditions -/

/-- The first conditional's guard (k = 0), as the body computes it from the grid coordinates. -/
abbrev cond1_0 (i : grid1.Coords) : Prop := (Scalar.cmpi .ne (Scalar.extui (Scalar.cmpi .eq (BitVec.ofNat 32 (i 2).val) 0#32)) 0#32) = 1#1
/-- It holds exactly at the points whose linear index is 0 mod 8 (k is the fastest coordinate): decided over the 128 points. -/
theorem hcond1_0 : ∀ t : Fin cfg1.N, cond1_0 (grid1.coords t) ↔ t.val % 8 = 0 :=
  (by decide +kernel : ∀ t : Fin grid1.N, cond1_0 (grid1.coords t) ↔ t.val % 8 = 0)

/-- The second conditional's guard (k = 7). -/
abbrev cond1_1 (i : grid1.Coords) : Prop := k1_cond2 i = 1#1
/-- It holds exactly at the points whose linear index is 7 mod 8. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

/-- The three input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where k = 0 the output window is idle (nothing is stored into it) and is not written back. -/
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
/-- The same where 0 < k < 7. -/
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
/-- Where k = 7 the output window is live: the body stores into it. -/
theorem liveAt1_3_C : ∀ t : Fin cfg1.N, ¬cond1_0 (grid1.coords t) → cond1_1 (grid1.coords t) → cfg1.idle 3 (grid1.coords t) = false := by decide +kernel

/-! ## The memrefs the body is called with -/

/-- One staging buffer of the output window, through which its contents are stated (reading back pieces that cover the
    block does not depend on the choice). -/
abbrev VO1_3 : View sig .tc .vmem S1024x1024 .f32 := (Memref.whole cc1_stg3_0 : Memref sig .tc .vmem S1024x1024 .f32).view
/-- Each window's current staging memref at point `t`, and its wholeness. -/
abbrev ms1_0 (t : Fin cfg1.N) : Memref sig .tc .vmem S1024x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
/-- The accumulator: a whole scoped buffer of the kernel's own, passed beside the windows, -/
abbrev scM1_0 : Memref sig .tc .vmem S1024x1024 .f32 := Memref.whole cc1_scratch0
/-- and as a view, through which what it holds is stated. -/
abbrev VS1_0 : View sig .tc .vmem S1024x1024 .f32 := scM1_0.view

/-! ## The body, case by case -/

-- (the run's proof term is large: the definition's epilogue walks it past the default budget)
set_option maxHeartbeats 1000000 in
/-- CASE k = 0.  On whole memrefs — the three inputs at `x0`, `x1`, `x2`, the output block at `xi3`, the accumulator at
    anything — the body runs to a continuation that gets the inputs and the output block back as they were and the
    accumulator with the pieces `LS0` written (the zero tile, then zero plus the product).  No piece goes to the output
    block.  The pieces are the witness the symbolic run finds. -/
noncomputable def kernelRun1_A (c : Dev nD) (i : grid1.Coords) (arg3 : Memref sig .tc .vmem S1024x512 .f32) (harg3 : arg3.IsWhole) (arg4 : Memref sig .tc .vmem S1024x512 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x512 .f32) (x1 : Vec F S1024x512 .f32) (x2 : Vec F S1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__mm_kernel i arg3 harg3 arg4 harg4 arg5 harg5 arg6 harg6 arg7 harg7) K } := by
  refine ⟨[], ?_, fun xi3 E K => ?run⟩
  case run =>
    simp only [cc1__mm_kernel_eq_skeleton]; unfold cc1__mm_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- CASE 0 < k < 7.  As before, but the accumulator is entered at `xs0`, what the point before left: its one piece is
    `xs0` plus the product. -/
noncomputable def kernelRun1_B (c : Dev nD) (i : grid1.Coords) (arg3 : Memref sig .tc .vmem S1024x512 .f32) (harg3 : arg3.IsWhole) (arg4 : Memref sig .tc .vmem S1024x512 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x512 .f32) (x1 : Vec F S1024x512 .f32) (x2 : Vec F S1024 .f32) (xs0 : Vec F S1024x1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__mm_kernel i arg3 harg3 arg4 harg4 arg5 harg5 arg6 harg6 arg7 harg7) K } := by
  refine ⟨[], ?_, fun xi3 E K => ?run⟩
  case run =>
    simp only [cc1__mm_kernel_eq_skeleton]; unfold cc1__mm_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- CASE k = 7.  The accumulator is entered at `xs0`, the output block at anything; the body leaves the accumulator with
    its piece `xs0` plus the product, and the output block with its pieces `L3`: that sum plus the bias row, over the whole
    block. -/
noncomputable def kernelRun1_C (c : Dev nD) (i : grid1.Coords) (arg3 : Memref sig .tc .vmem S1024x512 .f32) (harg3 : arg3.IsWhole) (arg4 : Memref sig .tc .vmem S1024x512 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x512 .f32) (x1 : Vec F S1024x512 .f32) (x2 : Vec F S1024 .f32) (xs0 : Vec F S1024x1024 .f32) :
    Σ' (L3 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__mm_kernel i arg3 harg3 arg4 harg4 arg5 harg5 arg6 harg6 arg7 harg7) K } := by
  refine ⟨?_, ?_, fun E K => ?run⟩
  case run =>
    simp only [cc1__mm_kernel_eq_skeleton]; unfold cc1__mm_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Fr

end
-- ==== Proof.K.Reg1.lean ====
/-
  The matrix-product region: what its output block and its accumulator hold after each grid point, the pipeline's proof
  data built from that, and the proof that the body meets it at every point.

  The 128 points are walked in order; the point t has k = t mod 8.  After the point t the accumulator holds: at k = 0 the
  zero tile plus the product of the point's two staged blocks; at k > 0 what the point before left plus this point's product.
  The output block is stored at k = 7 only (accumulator plus bias row) and is idle elsewhere.  The region's invariant between
  points names the accumulator's contents and carries every other scoped buffer of the core unopened.
-/
import proofs.«109794_j25589415149863_1_alg».proof.Proof.K.Reg1Runs

-- membership in a rectangle of 1024 x 1024 extents recurses once per coordinate of the long axes
set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (an unfetched point
    has the block index of the point before), for any proof data whose array is the region-entry contents and whose body
    leaves the block in place.  The bias window, fetched only where k = 0, is covered by the same law. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The region's invariant, split -/

/-- Every scoped buffer of the core that is neither a staging buffer of this region nor its accumulator (the staging buffers
    of the weight-building region), each at some contents: carried through the region as one proposition, never opened. -/
abbrev otherScoped (c : Dev nD) : sProp 𝕄 :=
  Pipeline.scopedRestBut (Ix := Unit) (Name := ℕ) (U := UR sig nD τ) (Lvl := ℕ) (Val := Elt F) spec1 c [cc1_scratch0]

/-- What the region is entered with: the accumulator at some contents, the other scoped buffers, the generator register. -/
theorem PhiA1_eq (c : Dev nD) :
    (Pipeline.ΦA spec1 c : sProp 𝕄)
      = iprop(iprop((∃ d, owns (c : Thread nD τ) scM1_0 fullShare d) ∗ otherScoped (F := F) c) ∗ (∃ r, prngReg c r)) := by
  unfold Pipeline.ΦA
  rw [Pipeline.scopedRest_split_of_list spec1 c [cc1_scratch0] (by decide) (by decide)]
  simp only [bigSepL_singleton, scM1_0, owns_whole]; try rfl

/-! ## What each case leaves -/

/-- Where k = 0 nothing is stored into the output block: no pieces.  A placeholder nothing consults (the window is
    neither written back there nor read at the next point). -/
def out1_A_3 (c : Dev nD) (i : grid1.Coords) (arg3 : Memref sig .tc .vmem S1024x512 .f32) (harg3 : arg3.IsWhole) (arg4 : Memref sig .tc .vmem S1024x512 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x512 .f32) (x1 : Vec F S1024x512 .f32) (x2 : Vec F S1024 .f32) : Vec F S1024x1024 .f32 :=
  VO1_3.read (Elt F) (VO1_3.writes (Elt F) VO1_3.junk (kernelRun1_A c i arg3 harg3 arg4 harg4 arg5 harg5 arg6 harg6 arg7 harg7 hc0 hc1 x0 x1 x2).1)

/-- Where k = 0 the accumulator's pieces (the zero tile, then zero plus the product, each the whole tile) cover it. -/
theorem scover1_A_0 (c : Dev nD) (i : grid1.Coords) (arg3 : Memref sig .tc .vmem S1024x512 .f32) (harg3 : arg3.IsWhole) (arg4 : Memref sig .tc .vmem S1024x512 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x512 .f32) (x1 : Vec F S1024x512 .f32) (x2 : Vec F S1024 .f32) (y : S1024x1024.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S1024x1024.size (by sl_kernel_rfl) y

/-- What the point leaves in the accumulator where k = 0: its pieces read back. -/
def sout1_A_0 (c : Dev nD) (i : grid1.Coords) (arg3 : Memref sig .tc .vmem S1024x512 .f32) (harg3 : arg3.IsWhole) (arg4 : Memref sig .tc .vmem S1024x512 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x512 .f32) (x1 : Vec F S1024x512 .f32) (x2 : Vec F S1024 .f32) : Vec F S1024x1024 .f32 :=
  VS1_0.read (Elt F) (VS1_0.writes (Elt F) VS1_0.junk (kernelRun1_A c i arg3 harg3 arg4 harg4 arg5 harg5 arg6 harg6 arg7 harg7 hc0 hc1 x0 x1 x2).2.1)

/-- Where 0 < k < 7 nothing is stored into the output block either. -/
def out1_B_3 (c : Dev nD) (i : grid1.Coords) (arg3 : Memref sig .tc .vmem S1024x512 .f32) (harg3 : arg3.IsWhole) (arg4 : Memref sig .tc .vmem S1024x512 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x512 .f32) (x1 : Vec F S1024x512 .f32) (x2 : Vec F S1024 .f32) (xs0 : Vec F S1024x1024 .f32) : Vec F S1024x1024 .f32 :=
  VO1_3.read (Elt F) (VO1_3.writes (Elt F) VO1_3.junk (kernelRun1_B c i arg3 harg3 arg4 harg4 arg5 harg5 arg6 harg6 arg7 harg7 hc0 hc1 x0 x1 x2 xs0).1)

/-- The accumulator's one piece (what it held plus the product, the whole tile) covers it. -/
theorem scover1_B_0 (c : Dev nD) (i : grid1.Coords) (arg3 : Memref sig .tc .vmem S1024x512 .f32) (harg3 : arg3.IsWhole) (arg4 : Memref sig .tc .vmem S1024x512 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x512 .f32) (x1 : Vec F S1024x512 .f32) (x2 : Vec F S1024 .f32) (xs0 : Vec F S1024x1024 .f32) (y : S1024x1024.Idx) :
    ∃ pc ∈ (kernelRun1_B c i arg3 harg3 arg4 harg4 arg5 harg5 arg6 harg6 arg7 harg7 hc0 hc1 x0 x1 x2 xs0).2.1, y ∈ pc.1.set :=
  View.cover_of_tiledL (kernelRun1_B c i arg3 harg3 arg4 harg4 arg5 harg5 arg6 harg6 arg7 harg7 hc0 hc1 x0 x1 x2 xs0).2.1 S1024x1024.size (by sl_kernel_rfl) y

def sout1_B_0 (c : Dev nD) (i : grid1.Coords) (arg3 : Memref sig .tc .vmem S1024x512 .f32) (harg3 : arg3.IsWhole) (arg4 : Memref sig .tc .vmem S1024x512 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x512 .f32) (x1 : Vec F S1024x512 .f32) (x2 : Vec F S1024 .f32) (xs0 : Vec F S1024x1024 .f32) : Vec F S1024x1024 .f32 :=
  VS1_0.read (Elt F) (VS1_0.writes (Elt F) VS1_0.junk (kernelRun1_B c i arg3 harg3 arg4 harg4 arg5 harg5 arg6 harg6 arg7 harg7 hc0 hc1 x0 x1 x2 xs0).2.1)

/-- Where k = 7 the one store into the output block is of the whole block. -/
theorem cover1_C_3 (c : Dev nD) (i : grid1.Coords) (arg3 : Memref sig .tc .vmem S1024x512 .f32) (harg3 : arg3.IsWhole) (arg4 : Memref sig .tc .vmem S1024x512 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x512 .f32) (x1 : Vec F S1024x512 .f32) (x2 : Vec F S1024 .f32) (xs0 : Vec F S1024x1024 .f32) (y : S1024x1024.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S1024x1024.size (by sl_kernel_rfl) y

/-- What the point leaves in the output block where k = 7: accumulator plus bias row. -/
def out1_C_3 (c : Dev nD) (i : grid1.Coords) (arg3 : Memref sig .tc .vmem S1024x512 .f32) (harg3 : arg3.IsWhole) (arg4 : Memref sig .tc .vmem S1024x512 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x512 .f32) (x1 : Vec F S1024x512 .f32) (x2 : Vec F S1024 .f32) (xs0 : Vec F S1024x1024 .f32) : Vec F S1024x1024 .f32 :=
  VO1_3.read (Elt F) (VO1_3.writes (Elt F) VO1_3.junk (kernelRun1_C c i arg3 harg3 arg4 harg4 arg5 harg5 arg6 harg6 arg7 harg7 hc0 hc1 x0 x1 x2 xs0).1)

theorem scover1_C_0 (c : Dev nD) (i : grid1.Coords) (arg3 : Memref sig .tc .vmem S1024x512 .f32) (harg3 : arg3.IsWhole) (arg4 : Memref sig .tc .vmem S1024x512 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x512 .f32) (x1 : Vec F S1024x512 .f32) (x2 : Vec F S1024 .f32) (xs0 : Vec F S1024x1024 .f32) (y : S1024x1024.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S1024x1024.size (by sl_kernel_rfl) y

def sout1_C_0 (c : Dev nD) (i : grid1.Coords) (arg3 : Memref sig .tc .vmem S1024x512 .f32) (harg3 : arg3.IsWhole) (arg4 : Memref sig .tc .vmem S1024x512 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x512 .f32) (x1 : Vec F S1024x512 .f32) (x2 : Vec F S1024 .f32) (xs0 : Vec F S1024x1024 .f32) : Vec F S1024x1024 .f32 :=
  VS1_0.read (Elt F) (VS1_0.writes (Elt F) VS1_0.junk (kernelRun1_C c i arg3 harg3 arg4 harg4 arg5 harg5 arg6 harg6 arg7 harg7 hc0 hc1 x0 x1 x2 xs0).2.1)

/-! ## Point by point -/

/-- THE ACCUMULATION.  What the output block's staging buffer (first component) and the accumulator (second) hold after the
    body at position `n`: the case that `n mod 8` selects, run at the point's memrefs and input blocks, with the accumulator
    entered at what position `n - 1` left in it.  k = 0 and k = 7 together meet no point. -/
def outsAt1 (c : Dev nD) : (n : ℕ) → n < cfg1.N → Vec F S1024x1024 .f32 × Vec F S1024x1024 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 8 = 0 then
      if h1 : (n + 1) % 8 = 7 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 8 = 7 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- At a point with k = 0. -/
theorem outsAt1_A (c : Dev nD) (t : Fin cfg1.N) (h0 : t.val % 8 = 0) (h1 : ¬t.val % 8 = 7) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- At a point with 0 < k < 7: over what the point before left. -/
theorem outsAt1_B (c : Dev nD) (t : Fin cfg1.N) (h0 : ¬t.val % 8 = 0) (h1 : ¬t.val % 8 = 7) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point with k = 7: over what the point before left. -/
theorem outsAt1_C (c : Dev nD) (t : Fin cfg1.N) (h0 : ¬t.val % 8 = 0) (h1 : t.val % 8 = 7) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point what the region is entered with; afterwards the
    accumulator at what the point before left in it, the other scoped buffers unopened, the generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ otherScoped (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2) ∗ otherScoped (F := F) c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ otherScoped (F := F) c) ∗ (∃ r, prngReg c r)) := by
  cases n with
  | zero => exact absurd rfl hz
  | succ n => rfl

/-! ## The pipeline's proof data -/

/-- The arrays as the region finds them; after the body at point `t` each input's buffer at its block and the output's at
    `outsAt1`'s first component; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`: the invariant, what is owed, and each window's current staging buffer at
    what the pipeline left in it, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point.  The three input buffers hold their blocks; `t mod 8` says which case the point is in, so that
    case's triple applies.  The invariant hands the body the accumulator — at anything before the first point, afterwards
    at what the point before left — and takes it back at this point's contents, its pieces covering it; the other scoped
    buffers and the generator register pass through untouched; nothing is owed throughout.  The output block is handed back
    as found where it is idle, and at its covering store where k = 7. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 8 = 0
  · by_cases h1 : t.val % 8 = 7
    · exfalso; omega
    · rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0; (try dsimp only)
      by_cases hz : t.val = 0
      ·
        rw [PhiS1_castSucc V c t, PhiS1_zero V c _ _ hz, PhiA1_eq]
        iintro ⟨⟨⟨HS0, Hr⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover1_A_0 c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
      ·
        rw [PhiS1_castSucc V c t, PhiS1_pos V c _ _ hz]
        iintro ⟨⟨⟨HS0, Hr⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover1_A_0 c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
  · by_cases h1 : t.val % 8 = 7
    · rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0; (try dsimp only)
      have hz : t.val ≠ 0 := by omega
      rw [PhiS1_castSucc V c t, PhiS1_pos V c _ _ hz]
      iintro ⟨⟨⟨HS0, Hr⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_C_0 c _ _ _ _ _ _ _ _ _ _ _ _ _ _ _ _ _)
          iexact Hr
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    · rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0; (try dsimp only)
      have hz : t.val ≠ 0 := by omega
      rw [PhiS1_castSucc V c t, PhiS1_pos V c _ _ hz]
      iintro ⟨⟨⟨HS0, Hr⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_B_0 c _ _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the entry form back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hr⟩, Hg⟩
  isplitl [HS0 Hr]
  · isplitl [HS0]
    · iexists _; iexact HS0
    iexact Hr
  iexact Hg

/-- The same after the last point. -/
theorem hout1 (c : Dev nD) : (dat1 V c).Φ (Fin.last cfg1.N) ⊢ Pipeline.ΦA spec1 c :=
  Phi_out1 V c _ (by rw [Fin.val_last]; have : cfg1.N = 128 := N_1; omega)

end Cert.Kernel.Fr

end
-- ==== Proof.K.Run.lean ====
/-
  The run of @main: two kernel regions in a row, no host operation between them.

  Region 0 fills the weight matrix main_v0 tile by tile; region 1 reads it back through its second window and fills the
  result main_v1.  The unscoped buffers' contents are followed through the program: at launch the memory's; after
  region 0 its seven arrays at what its write-backs leave (the six inputs as entered, main_v0 at the tiles written), every
  other buffer as entered; after region 1 likewise over its four arrays.  Region 0's invariant is the scoped rest and the
  generator register, untouched; region 1's carries the scratch accumulator from point to point, starts from the scoped rest
  at anything and ends by forgetting what the accumulator holds.  Every weakly fair execution ends, nothing faults, and the
  final memory holds each unscoped buffer at the last contents; each argument array reads back to the launch memory.
-/
import proofs.«109794_j25589415149863_1_alg».proof.Proof.K.Reg0
import proofs.«109794_j25589415149863_1_alg».proof.Proof.K.Reg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the three boundaries -/

/-- Core `c`'s buffers at launch. -/
abbrev W0 : Dev nD → Valuation τ sig (Elt F) := fun c b => (s₀ m ρ).mem ((c : Dev nD), b)
/-- The same read at the TensorCore's references: what region 0 is entered from. -/
abbrev E0 : (c : Dev nD) → (b : Ref sig .tc) → Buf (Elt F) ((c : Thread nD τ).loc b) := fun c b => W0 m ρ c b
/-- After region 0: its arrays at what the pipeline leaves, every other buffer as entered. -/
def W1 (c : Dev nD) : Valuation τ sig (Elt F) :=
  Pipeline.withArrays spec0 c (W0 m ρ c) fun w => (dat0 (E0 m ρ) c).arrAt w cfg0.N
theorem W1_arr (c : Dev nD) (w : Fin cfg0.W) :
    W1 m ρ c (Proc.devRef .tc (Pipeline.arrRef spec0 w)) = (dat0 (E0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references: region 0's exit, region 1's entry. -/
abbrev E1 : (c : Dev nD) → (b : Ref sig .tc) → Buf (Elt F) ((c : Thread nD τ).loc b) := fun c b => W1 m ρ c b
theorem hF0 (c : Dev nD) (w : Fin cfg0.W) : (dat0 (E0 m ρ) c).arrAt w cfg0.N = E1 m ρ c (Pipeline.arrRef spec0 w) :=
  (W1_arr m ρ c w).symm
theorem hrest0 (c : Dev nD) : ∀ b, b ∉ Finset.univ.image (Pipeline.arrRef spec0) → E1 m ρ c b = E0 m ρ c b :=
  fun b hb => W1_of_ne m ρ c b fun w e => hb (Finset.mem_image.mpr ⟨w, Finset.mem_univ _, e⟩)

/-- After region 1: its arrays at what the pipeline leaves, every other buffer as it entered. -/
def W2 (c : Dev nD) : Valuation τ sig (Elt F) :=
  Pipeline.withArrays spec1 c (W1 m ρ c) fun w => (dat1 (E1 m ρ) c).arrAt w cfg1.N
theorem W2_arr (c : Dev nD) (w : Fin cfg1.W) :
    W2 m ρ c (Proc.devRef .tc (Pipeline.arrRef spec1 w)) = (dat1 (E1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev E2 : (c : Dev nD) → (b : Ref sig .tc) → Buf (Elt F) ((c : Thread nD τ).loc b) := fun c b => W2 m ρ c b
theorem hF1 (c : Dev nD) (w : Fin cfg1.W) : (dat1 (E1 m ρ) c).arrAt w cfg1.N = E2 m ρ c (Pipeline.arrRef spec1 w) :=
  (W2_arr m ρ c w).symm
theorem hrest1 (c : Dev nD) : ∀ b, b ∉ Finset.univ.image (Pipeline.arrRef spec1) → E2 m ρ c b = E1 m ρ c b :=
  fun b hb => W2_of_ne m ρ c b fun w e => hb (Finset.mem_image.mpr ⟨w, Finset.mem_univ _, e⟩)

/-! ## What the last contents hold -/

/-- The weight matrix after region 0 is what its write-backs leave in its output window's array. -/
theorem W1_main_v0 (c : Dev nD) : W1 m ρ c (Proc.devRef .tc main_v0) = (dat0 (E0 m ρ) c).arrAt 6 cfg0.N := W1_arr m ρ c 6
/-- The result after region 1 is what its write-backs leave in its output window's array. -/
theorem W2_main_v1 (c : Dev nD) : W2 m ρ c (Proc.devRef .tc main_v1) = (dat1 (E1 m ρ) c).arrAt 3 cfg1.N := W2_arr m ρ c 3

/-- An input window's array of region 0 leaves the region as it entered. -/
theorem W1_in (c : Dev nD) (w : Fin cfg0.W) (hw : (cfg0.win w).isOut = false) :
    W1 m ρ c (Proc.devRef .tc (Pipeline.arrRef spec0 w)) = W0 m ρ c (Proc.devRef .tc (Pipeline.arrRef spec0 w)) :=
  (W1_arr m ρ c w).trans (((dat0 (E0 m ρ) c).arrAt_in w hw _).trans (A_eq0 (E0 m ρ) c w))
/-- An input window's array of region 1 leaves the region as it entered. -/
theorem W2_in (c : Dev nD) (w : Fin cfg1.W) (hw : (cfg1.win w).isOut = false) :
    W2 m ρ c (Proc.devRef .tc (Pipeline.arrRef spec1 w)) = W1 m ρ c (Proc.devRef .tc (Pipeline.arrRef spec1 w)) :=
  (W2_arr m ρ c w).trans (((dat1 (E1 m ρ) c).arrAt_in w hw _).trans (A_eq1 (E1 m ρ) c w))

/-- X is no array of region 0 and an input of region 1. -/
theorem W2_main_arg0 (c : Dev nD) : W2 m ρ c (Proc.devRef .tc main_arg0) = m ((c : Thread nD τ).loc main_arg0) :=
  (W2_in m ρ c 0 rfl).trans (W1_of_ne m ρ c main_arg0 (by decide))
/-- The bias is no array of region 0 and an input of region 1. -/
theorem W2_main_arg7 (c : Dev nD) : W2 m ρ c (Proc.devRef .tc main_arg7) = m ((c : Thread nD τ).loc main_arg7) :=
  (W2_in m ρ c 2 rfl).trans (W1_of_ne m ρ c main_arg7 (by decide))
/-- The code books, the coefficients and the offsets are inputs of region 0 and no array of region 1. -/
theorem W2_main_arg1 (c : Dev nD) : W2 m ρ c (Proc.devRef .tc main_arg1) = m ((c : Thread nD τ).loc main_arg1) :=
  (W2_of_ne m ρ c main_arg1 (by decide)).trans (W1_in m ρ c 0 rfl)
theorem W2_main_arg2 (c : Dev nD) : W2 m ρ c (Proc.devRef .tc main_arg2) = m ((c : Thread nD τ).loc main_arg2) :=
  (W2_of_ne m ρ c main_arg2 (by decide)).trans (W1_in m ρ c 1 rfl)
theorem W2_main_arg3 (c : Dev nD) : W2 m ρ c (Proc.devRef .tc main_arg3) = m ((c : Thread nD τ).loc main_arg3) :=
  (W2_of_ne m ρ c main_arg3 (by decide)).trans (W1_in m ρ c 2 rfl)
theorem W2_main_arg4 (c : Dev nD) : W2 m ρ c (Proc.devRef .tc main_arg4) = m ((c : Thread nD τ).loc main_arg4) :=
  (W2_of_ne m ρ c main_arg4 (by decide)).trans (W1_in m ρ c 3 rfl)
theorem W2_main_arg5 (c : Dev nD) : W2 m ρ c (Proc.devRef .tc main_arg5) = m ((c : Thread nD τ).loc main_arg5) :=
  (W2_of_ne m ρ c main_arg5 (by decide)).trans (W1_in m ρ c 4 rfl)
theorem W2_main_arg6 (c : Dev nD) : W2 m ρ c (Proc.devRef .tc main_arg6) = m ((c : Thread nD τ).loc main_arg6) :=
  (W2_of_ne m ρ c main_arg6 (by decide)).trans (W1_in m ρ c 5 rfl)

/-- Region 1 finds X and the bias as launched, -/
theorem E1_main_arg0 (c : Dev nD) : E1 m ρ c main_arg0 = m ((c : Thread nD τ).loc main_arg0) := W1_of_ne m ρ c main_arg0 (by decide)
theorem E1_main_arg7 (c : Dev nD) : E1 m ρ c main_arg7 = m ((c : Thread nD τ).loc main_arg7) := W1_of_ne m ρ c main_arg7 (by decide)
/-- and the weight matrix as region 0 left it. -/
theorem E1_main_v0 (c : Dev nD) : E1 m ρ c main_v0 = (dat0 (E0 m ρ) c).arrAt 6 cfg0.N := W1_main_v0 m ρ c

/-! ## The proof data family and the thread state -/

/-- No pipeline has a prefetched table. -/
abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (E0 m ρ) c
  | ⟨1, _⟩ => fun c => dat1 (E1 m ρ) c
abbrev 𝒱₀ : Variants := Variants.none
/-- No core owes another anything. -/
abbrev L : GSem nD τ sig → Finset Unit := fun _ => ∅
abbrev lv : GSem nD τ sig → Unit → ℕ := fun _ _ => 0
/-- Beside the buffers: the generator register at some state, and the core's dues, none. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W2 m ρ c) ∗ ∃ r, prngReg c r)

/-! ## The regions as segments -/

set_option backward.isDefEq.respectTransparency.types false in
/-- Region 0: entered from every unscoped buffer at the launch contents, left at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E0 m ρ c) (E1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at `W1`, left at `W2`. Its invariant starts from the scoped rest at
    anything and ends by forgetting what the carried accumulator holds. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : ∀ (P : sProp 𝕄), iprop((∃ r, prngReg c r) ∗ P ∗ Pipeline.scopedRest spec1 c) ⊢ (Pipeline.ΦA spec1 c : sProp 𝕄) := fun P => by
      unfold Pipeline.ΦA
      iintro ⟨Hp, -, Hr⟩
      isplitl [Hr]; · iexact Hr
      iexact Hp
    exact (h _).trans (hin1 (E1 m ρ) c)
  hout c := by
    have h : (Pipeline.ΦA spec1 c : sProp 𝕄) ⊢ iprop((∃ r, prngReg c r) ∗ BI.emp ∗ Pipeline.scopedRest spec1 c) := by
      unfold Pipeline.ΦA
      iintro ⟨Hr, Hp⟩
      isplitl [Hp]; · iexact Hp
      isplitr; · iempintro
      iexact Hr
    rw [Pipeline.ownSems0_none]
    exact (hout1 (E1 m ρ) c).trans h
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E1 m ρ c) (E2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's two segments. -/
abbrev segs : List (Pipeline.Seg (pcfgs (F := F)) adm (pdats m ρ) () defs₀ 𝒱₀ L lv) :=
  [ .region (reg0 m ρ), .region (reg1 m ρ) ]
/-- @main is the run of the segments. -/
theorem main_run (c : Dev nD) : main (F := F) c = Pipeline.Seg.run (segs m ρ) := (main_chain c).trans (by chain_rfl)

set_option backward.isDefEq.respectTransparency.types false in
/-- THE RUN: from any memory with zero counters every weakly fair execution of @main on the TensorCores terminates, nothing
    faulting, and the final memory holds every unscoped buffer at the last contents `W2`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W2_main_arg0 m ρ c),
     (h c _ (mem_uc main_arg1 (by decide))).trans (W2_main_arg1 m ρ c),
     (h c _ (mem_uc main_arg2 (by decide))).trans (W2_main_arg2 m ρ c),
     (h c _ (mem_uc main_arg3 (by decide))).trans (W2_main_arg3 m ρ c),
     (h c _ (mem_uc main_arg4 (by decide))).trans (W2_main_arg4 m ρ c),
     (h c _ (mem_uc main_arg5 (by decide))).trans (W2_main_arg5 m ρ c),
     (h c _ (mem_uc main_arg6 (by decide))).trans (W2_main_arg6 m ρ c),
     (h c _ (mem_uc main_arg7 (by decide))).trans (W2_main_arg7 m ρ c)⟩) (run_all m ρ)

end Cert.Kernel.Fr

end
-- ==== Proof.KI.Pay0.lean ====
/-
  The weight kernel's store, as one pure term of the six staged blocks.

  The body reads bit plane k of the staged Y block (4 planes of 512 x 64), of the staged Z block (4 planes of 64 x 512) and
  of the three staged coefficient blocks (4 scalars each), and the one staged offset.  Starting from the zero tile it adds,
  plane after plane, a_k * (Y_k Z_k) + b_k * rowsum(Y_k) + c_k * colsum(Z_k) with Y_k, Z_k thresholded at one half, then
  adds the offset d; that sum is the one value it stores, over the whole 512 x 512 output block.
-/
import proofs.«109794_j25589415149863_1_alg».proof.Proof.Gen.KernelIdeal.Skeleton
import Idealize.ShloMosaic.Lib.Pipeline.FrameBody

noncomputable section

namespace Cert.KernelIdeal.Fr

open Idealize.ShloMosaic Idealize.ShloMosaic.TcCoe Idealize.SL.Sem
open Cert.KernelIdeal Cert.KernelIdeal.Gen

variable {F : FTy → Type} [FloatOps F]

/-- Bit plane k of the staged Y block. -/
abbrev rY0 : Rect S4x1x1x512x64 := Rect.unit (s := S4x1x1x512x64) ![0, 0, 0, 0, 0] S1x1x1x512x64.size inb_S4x1x1x512x64_S1x1x1x512x64_0_0_0_0_0
abbrev rY1 : Rect S4x1x1x512x64 := Rect.unit (s := S4x1x1x512x64) ![1, 0, 0, 0, 0] S1x1x1x512x64.size inb_S4x1x1x512x64_S1x1x1x512x64_1_0_0_0_0
abbrev rY2 : Rect S4x1x1x512x64 := Rect.unit (s := S4x1x1x512x64) ![2, 0, 0, 0, 0] S1x1x1x512x64.size inb_S4x1x1x512x64_S1x1x1x512x64_2_0_0_0_0
abbrev rY3 : Rect S4x1x1x512x64 := Rect.unit (s := S4x1x1x512x64) ![3, 0, 0, 0, 0] S1x1x1x512x64.size inb_S4x1x1x512x64_S1x1x1x512x64_3_0_0_0_0
/-- Bit plane k of the staged Z block. -/
abbrev rZ0 : Rect S4x1x1x64x512 := Rect.unit (s := S4x1x1x64x512) ![0, 0, 0, 0, 0] S1x1x1x64x512.size inb_S4x1x1x64x512_S1x1x1x64x512_0_0_0_0_0
abbrev rZ1 : Rect S4x1x1x64x512 := Rect.unit (s := S4x1x1x64x512) ![1, 0, 0, 0, 0] S1x1x1x64x512.size inb_S4x1x1x64x512_S1x1x1x64x512_1_0_0_0_0
abbrev rZ2 : Rect S4x1x1x64x512 := Rect.unit (s := S4x1x1x64x512) ![2, 0, 0, 0, 0] S1x1x1x64x512.size inb_S4x1x1x64x512_S1x1x1x64x512_2_0_0_0_0
abbrev rZ3 : Rect S4x1x1x64x512 := Rect.unit (s := S4x1x1x64x512) ![3, 0, 0, 0, 0] S1x1x1x64x512.size inb_S4x1x1x64x512_S1x1x1x64x512_3_0_0_0_0
/-- Bit plane k of a staged coefficient block. -/
abbrev rA0 : Rect S4x1x1x1x1 := Rect.unit (s := S4x1x1x1x1) ![0, 0, 0, 0, 0] S1x1x1x1x1.size inb_S4x1x1x1x1_S1x1x1x1x1_0_0_0_0_0
abbrev rA1 : Rect S4x1x1x1x1 := Rect.unit (s := S4x1x1x1x1) ![1, 0, 0, 0, 0] S1x1x1x1x1.size inb_S4x1x1x1x1_S1x1x1x1x1_1_0_0_0_0
abbrev rA2 : Rect S4x1x1x1x1 := Rect.unit (s := S4x1x1x1x1) ![2, 0, 0, 0, 0] S1x1x1x1x1.size inb_S4x1x1x1x1_S1x1x1x1x1_2_0_0_0_0
abbrev rA3 : Rect S4x1x1x1x1 := Rect.unit (s := S4x1x1x1x1) ![3, 0, 0, 0, 0] S1x1x1x1x1.size inb_S4x1x1x1x1_S1x1x1x1x1_3_0_0_0_0
/-- The staged offset, whole. -/
abbrev rD : Rect S1x1x1x1 := Rect.unit (s := S1x1x1x1) ![0, 0, 0, 0] S1x1x1x1.size inb_S1x1x1x1_S1x1x1x1_0_0_0_0
/-- The output block, whole. -/
abbrev rW : Rect S512x512 := Rect.unit (s := S512x512) ![0, 0] S512x512.size inb_S512x512_S512x512_0_0

/-- The running sum after plane 0. -/
def acc1 (x0 : Vec F S4x1x1x512x64 .f32) (x1 : Vec F S4x1x1x64x512 .f32) (x2 x3 x4 : Vec F S4x1x1x1x1 .f32) : FVec F S512x512 .f32 :=
  k0_pay10 (k0_pay2 (F := F)) (k0_pay5 (View.ld x0 rY0) (View.ld x1 rZ0)) (k0_pay6 (View.ld x0 rY0)) (k0_pay7 (View.ld x1 rZ0))
    (k0_pay8 (View.ld x2 rA0)) (k0_pay9 (View.ld x3 rA0)) (View.ld x4 rA0)

/-- after plane 1, -/
def acc2 (x0 : Vec F S4x1x1x512x64 .f32) (x1 : Vec F S4x1x1x64x512 .f32) (x2 x3 x4 : Vec F S4x1x1x1x1 .f32) : FVec F S512x512 .f32 :=
  k0_pay17 (acc1 x0 x1 x2 x3 x4) (k0_pay13 (View.ld x0 rY1) (View.ld x1 rZ1)) (k0_pay14 (View.ld x0 rY1)) (k0_pay15 (View.ld x1 rZ1))
    (k0_pay16 (View.ld x2 rA1)) (View.ld x3 rA1) (View.ld x4 rA1)

/-- after plane 2, -/
def acc3 (x0 : Vec F S4x1x1x512x64 .f32) (x1 : Vec F S4x1x1x64x512 .f32) (x2 x3 x4 : Vec F S4x1x1x1x1 .f32) : FVec F S512x512 .f32 :=
  k0_pay23 (acc2 x0 x1 x2 x3 x4) (k0_pay20 (View.ld x0 rY2) (View.ld x1 rZ2)) (k0_pay21 (View.ld x0 rY2)) (k0_pay22 (View.ld x1 rZ2))
    (View.ld x2 rA2) (View.ld x3 rA2) (View.ld x4 rA2)

/-- and the stored value: plane 3 added, then the offset. -/
def wpay (x0 : Vec F S4x1x1x512x64 .f32) (x1 : Vec F S4x1x1x64x512 .f32) (x2 x3 x4 : Vec F S4x1x1x1x1 .f32) (x5 : Vec F S1x1x1x1 .f32) : FVec F S512x512 .f32 :=
  k0_pay1 (acc3 x0 x1 x2 x3 x4) (k0_pay25 (View.ld x1 rZ3)) (k0_pay26 (View.ld x0 rY3) (View.ld x1 rZ3)) (k0_pay27 (View.ld x0 rY3))
    (View.ld x2 rA3) (View.ld x3 rA3) (View.ld x4 rA3) (View.ld x5 rD)

/-- What the body leaves in the output window's staging buffer: its one store, over the whole block. -/
def out0_6 (x0 : Vec F S4x1x1x512x64 .f32) (x1 : Vec F S4x1x1x64x512 .f32) (x2 x3 x4 : Vec F S4x1x1x1x1 .f32) (x5 : Vec F S1x1x1x1 .f32) : Vec F S512x512 .f32 :=
  View.canon [⟨rW, wpay x0 x1 x2 x3 x4 x5⟩]

end Cert.KernelIdeal.Fr

end
-- ==== Proof.KI.Reg0.lean ====
/-
  Region 0, the weight kernel, at the buffer contents V found when the region is entered.

  Each of the seven windows' blocks at a grid point is read off its array; the six input windows are fetched at every
  point, so the staging buffer the body reads holds exactly that block.  The body loads whole rectangles of the six
  staged inputs and stores one value over the whole output block; hence the output's staging buffer after the body is
  that one value, a pure function of the six input blocks.
-/
import proofs.«109794_j25589415149863_1_alg».proof.Proof.KI.Pay0
import proofs.«109794_j25589415149863_1_alg».proof.Proof.Gen.KernelIdeal.Launch
import proofs.«109794_j25589415149863_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-! ## The windows' blocks -/

/-- Window w's block at point t, read off its array at the entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0: whatever proof data has the entry contents as its array and leaves the block in place after the
    body, the staging buffer the body reads at a point holds the window's block there (the window is fetched at every point). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1: whatever proof data has the entry contents as its array and leaves the block in place after the
    body, the staging buffer the body reads at a point holds the window's block there (the window is fetched at every point). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2: whatever proof data has the entry contents as its array and leaves the block in place after the
    body, the staging buffer the body reads at a point holds the window's block there (the window is fetched at every point). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3: whatever proof data has the entry contents as its array and leaves the block in place after the
    body, the staging buffer the body reads at a point holds the window's block there (the window is fetched at every point). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4: whatever proof data has the entry contents as its array and leaves the block in place after the
    body, the staging buffer the body reads at a point holds the window's block there (the window is fetched at every point). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5: whatever proof data has the entry contents as its array and leaves the block in place after the
    body, the staging buffer the body reads at a point holds the window's block there (the window is fetched at every point). -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The one store covers the output block -/

/-- The stored rectangle is the whole block, so every index lies in it. -/
theorem cover0_6 (p0 : Vec F S512x512 .f32) (y : S512x512.Idx) :
    ∃ pc ∈ ([⟨rW, p0⟩] : List (View.Piece (Elt F) S512x512 .f32)), y ∈ pc.1.set :=
  View.cover_of_tiled [⟨rW, p0⟩] S512x512.size (by rfl) y

/-! ## The body's triple -/

set_option maxHeartbeats 1000000 in
/-- The body on whole staging memrefs: the six inputs at contents x0 .. x5 and the output at anything run to the
    continuation with the inputs unchanged and the output at the one stored value over the whole block. -/
theorem sound_kernel0 (c : Dev nD) (E : Set ℕ) (i : grid0.Coords) (arg2 : Memref sig .tc .vmem S4x1x1x512x64 .f32) (harg2 : arg2.IsWhole) (arg3 : Memref sig .tc .vmem S4x1x1x64x512 .f32) (harg3 : arg3.IsWhole) (arg4 : Memref sig .tc .vmem S4x1x1x1x1 .f32) (harg4 : arg4.IsWhole) (arg5 : Memref sig .tc .vmem S4x1x1x1x1 .f32) (harg5 : arg5.IsWhole) (arg6 : Memref sig .tc .vmem S4x1x1x1x1 .f32) (harg6 : arg6.IsWhole) (arg7 : Memref sig .tc .vmem S1x1x1x1 .f32) (harg7 : arg7.IsWhole) (arg8 : Memref sig .tc .vmem S512x512 .f32) (harg8 : arg8.IsWhole)
    (x0 : Vec F S4x1x1x512x64 .f32) (x1 : Vec F S4x1x1x64x512 .f32) (x2 x3 x4 : Vec F S4x1x1x1x1 .f32) (x5 : Vec F S1x1x1x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (out0_6 x0 x1 x2 x3 x4 x5)) -∗ K ⟨⟩))
      ⊢ wp frame (wpE (defs₀ (F := F)) Variants.none c none) E (cc0__w_kernel i arg2 harg2 arg3 harg3 arg4 harg4 arg5 harg5 arg6 harg6 arg7 harg7 arg8 harg8) K := by
  simp only [cc0__w_kernel_eq_skeleton]; unfold cc0__w_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The pipeline's proof data -/

/-- The proof data of the weight pipeline on a core: the arrays at the entry contents; after the body at a point each
    input's buffer still at its block and the output's at the stored value of the six input blocks; the invariant
    that of a body touching nothing else; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]

/-- Each input's staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' staging buffers hold their blocks, so the body's triple applies; the invariant
    and what the core owes pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _
    (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Fr

end
-- ==== Proof.KI.Reg1Runs.lean ====
/-
  The matrix-product kernel at one grid point, as separation-logic triples.

  The grid is 4 x 4 x 8 and the last coordinate k walks the contraction axis.  The body keeps a 1024 x 1024 accumulator in a
  scratch buffer that survives from one point to the next: it is zeroed when k = 0, the product of the two staged 1024 x 512
  blocks is added to it at every point, and when k = 7 the accumulator plus the staged bias row is stored into the output block.
  So a point is in one of three cases: k = 0 (zero, add), 0 < k < 7 (add), k = 7 (add, store out); k = 0 and k = 7 together
  meet no point.  Here: the two conditions in closed form over the linear point index, where the output window is idle, the
  staging memrefs of a point, and for each case the body's triple on any whole memrefs together with the pieces its stores
  leave in the output block and in the accumulator.
-/
import proofs.«109794_j25589415149863_1_alg».proof.Proof.Gen.KernelIdeal.Launch
import proofs.«109794_j25589415149863_1_alg».proof.Proof.Gen.KernelIdeal.Skeleton
import proofs.«109794_j25589415149863_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of 1024 x 1024 extents recurses once per coordinate of the long axes
set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two conditions -/

/-- The first conditional's guard (k = 0), as the body computes it from the grid coordinates. -/
abbrev cond1_0 (i : grid1.Coords) : Prop := (Scalar.cmpi .ne (Scalar.extui (Scalar.cmpi .eq (BitVec.ofNat 32 (i 2).val) 0#32)) 0#32) = 1#1
/-- It holds exactly at the points whose linear index is 0 mod 8 (k is the fastest coordinate): decided over the 128 points. -/
theorem hcond1_0 : ∀ t : Fin cfg1.N, cond1_0 (grid1.coords t) ↔ t.val % 8 = 0 :=
  (by decide +kernel : ∀ t : Fin grid1.N, cond1_0 (grid1.coords t) ↔ t.val % 8 = 0)

/-- The second conditional's guard (k = 7). -/
abbrev cond1_1 (i : grid1.Coords) : Prop := k1_cond2 i = 1#1
/-- It holds exactly at the points whose linear index is 7 mod 8. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

/-- The three input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where k = 0 the output window is idle (nothing is stored into it) and is not written back. -/
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
/-- The same where 0 < k < 7. -/
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
/-- Where k = 7 the output window is live: the body stores into it. -/
theorem liveAt1_3_C : ∀ t : Fin cfg1.N, ¬cond1_0 (grid1.coords t) → cond1_1 (grid1.coords t) → cfg1.idle 3 (grid1.coords t) = false := by decide +kernel

/-! ## The memrefs the body is called with -/

/-- One staging buffer of the output window, through which its contents are stated (reading back pieces that cover the
    block does not depend on the choice). -/
abbrev VO1_3 : View sig .tc .vmem S1024x1024 .f32 := (Memref.whole cc1_stg3_0 : Memref sig .tc .vmem S1024x1024 .f32).view
/-- Each window's current staging memref at point `t`, and its wholeness. -/
abbrev ms1_0 (t : Fin cfg1.N) : Memref sig .tc .vmem S1024x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
/-- The accumulator: a whole scoped buffer of the kernel's own, passed beside the windows, -/
abbrev scM1_0 : Memref sig .tc .vmem S1024x1024 .f32 := Memref.whole cc1_scratch0
/-- and as a view, through which what it holds is stated. -/
abbrev VS1_0 : View sig .tc .vmem S1024x1024 .f32 := scM1_0.view

/-! ## The body, case by case -/

-- (the run's proof term is large: the definition's epilogue walks it past the default budget)
set_option maxHeartbeats 1000000 in
/-- CASE k = 0.  On whole memrefs — the three inputs at `x0`, `x1`, `x2`, the output block at `xi3`, the accumulator at
    anything — the body runs to a continuation that gets the inputs and the output block back as they were and the
    accumulator with the pieces `LS0` written (the zero tile, then zero plus the product).  No piece goes to the output
    block.  The pieces are the witness the symbolic run finds. -/
noncomputable def kernelRun1_A (c : Dev nD) (i : grid1.Coords) (arg3 : Memref sig .tc .vmem S1024x512 .f32) (harg3 : arg3.IsWhole) (arg4 : Memref sig .tc .vmem S1024x512 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x512 .f32) (x1 : Vec F S1024x512 .f32) (x2 : Vec F S1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__mm_kernel i arg3 harg3 arg4 harg4 arg5 harg5 arg6 harg6 arg7 harg7) K } := by
  refine ⟨[], ?_, fun xi3 E K => ?run⟩
  case run =>
    simp only [cc1__mm_kernel_eq_skeleton]; unfold cc1__mm_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- CASE 0 < k < 7.  As before, but the accumulator is entered at `xs0`, what the point before left: its one piece is
    `xs0` plus the product. -/
noncomputable def kernelRun1_B (c : Dev nD) (i : grid1.Coords) (arg3 : Memref sig .tc .vmem S1024x512 .f32) (harg3 : arg3.IsWhole) (arg4 : Memref sig .tc .vmem S1024x512 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x512 .f32) (x1 : Vec F S1024x512 .f32) (x2 : Vec F S1024 .f32) (xs0 : Vec F S1024x1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__mm_kernel i arg3 harg3 arg4 harg4 arg5 harg5 arg6 harg6 arg7 harg7) K } := by
  refine ⟨[], ?_, fun xi3 E K => ?run⟩
  case run =>
    simp only [cc1__mm_kernel_eq_skeleton]; unfold cc1__mm_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- CASE k = 7.  The accumulator is entered at `xs0`, the output block at anything; the body leaves the accumulator with
    its piece `xs0` plus the product, and the output block with its pieces `L3`: that sum plus the bias row, over the whole
    block. -/
noncomputable def kernelRun1_C (c : Dev nD) (i : grid1.Coords) (arg3 : Memref sig .tc .vmem S1024x512 .f32) (harg3 : arg3.IsWhole) (arg4 : Memref sig .tc .vmem S1024x512 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x512 .f32) (x1 : Vec F S1024x512 .f32) (x2 : Vec F S1024 .f32) (xs0 : Vec F S1024x1024 .f32) :
    Σ' (L3 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__mm_kernel i arg3 harg3 arg4 harg4 arg5 harg5 arg6 harg6 arg7 harg7) K } := by
  refine ⟨?_, ?_, fun E K => ?run⟩
  case run =>
    simp only [cc1__mm_kernel_eq_skeleton]; unfold cc1__mm_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Fr

end
-- ==== Proof.KI.Reg1.lean ====
/-
  The matrix-product region: what its output block and its accumulator hold after each grid point, the pipeline's proof
  data built from that, and the proof that the body meets it at every point.

  The 128 points are walked in order; the point t has k = t mod 8.  After the point t the accumulator holds: at k = 0 the
  zero tile plus the product of the point's two staged blocks; at k > 0 what the point before left plus this point's product.
  The output block is stored at k = 7 only (accumulator plus bias row) and is idle elsewhere.  The region's invariant between
  points names the accumulator's contents and carries every other scoped buffer of the core unopened.
-/
import proofs.«109794_j25589415149863_1_alg».proof.Proof.KI.Reg1Runs

-- membership in a rectangle of 1024 x 1024 extents recurses once per coordinate of the long axes
set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (an unfetched point
    has the block index of the point before), for any proof data whose array is the region-entry contents and whose body
    leaves the block in place.  The bias window, fetched only where k = 0, is covered by the same law. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The region's invariant, split -/

/-- Every scoped buffer of the core that is neither a staging buffer of this region nor its accumulator (the staging buffers
    of the weight-building region), each at some contents: carried through the region as one proposition, never opened. -/
abbrev otherScoped (c : Dev nD) : sProp 𝕄 :=
  Pipeline.scopedRestBut (Ix := Unit) (Name := ℕ) (U := UR sig nD τ) (Lvl := ℕ) (Val := Elt F) spec1 c [cc1_scratch0]

/-- What the region is entered with: the accumulator at some contents, the other scoped buffers, the generator register. -/
theorem PhiA1_eq (c : Dev nD) :
    (Pipeline.ΦA spec1 c : sProp 𝕄)
      = iprop(iprop((∃ d, owns (c : Thread nD τ) scM1_0 fullShare d) ∗ otherScoped (F := F) c) ∗ (∃ r, prngReg c r)) := by
  unfold Pipeline.ΦA
  rw [Pipeline.scopedRest_split_of_list spec1 c [cc1_scratch0] (by decide) (by decide)]
  simp only [bigSepL_singleton, scM1_0, owns_whole]; try rfl

/-! ## What each case leaves -/

/-- Where k = 0 nothing is stored into the output block: no pieces.  A placeholder nothing consults (the window is
    neither written back there nor read at the next point). -/
def out1_A_3 (c : Dev nD) (i : grid1.Coords) (arg3 : Memref sig .tc .vmem S1024x512 .f32) (harg3 : arg3.IsWhole) (arg4 : Memref sig .tc .vmem S1024x512 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x512 .f32) (x1 : Vec F S1024x512 .f32) (x2 : Vec F S1024 .f32) : Vec F S1024x1024 .f32 :=
  VO1_3.read (Elt F) (VO1_3.writes (Elt F) VO1_3.junk (kernelRun1_A c i arg3 harg3 arg4 harg4 arg5 harg5 arg6 harg6 arg7 harg7 hc0 hc1 x0 x1 x2).1)

/-- Where k = 0 the accumulator's pieces (the zero tile, then zero plus the product, each the whole tile) cover it. -/
theorem scover1_A_0 (c : Dev nD) (i : grid1.Coords) (arg3 : Memref sig .tc .vmem S1024x512 .f32) (harg3 : arg3.IsWhole) (arg4 : Memref sig .tc .vmem S1024x512 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x512 .f32) (x1 : Vec F S1024x512 .f32) (x2 : Vec F S1024 .f32) (y : S1024x1024.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S1024x1024.size (by sl_kernel_rfl) y

/-- What the point leaves in the accumulator where k = 0: its pieces read back. -/
def sout1_A_0 (c : Dev nD) (i : grid1.Coords) (arg3 : Memref sig .tc .vmem S1024x512 .f32) (harg3 : arg3.IsWhole) (arg4 : Memref sig .tc .vmem S1024x512 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x512 .f32) (x1 : Vec F S1024x512 .f32) (x2 : Vec F S1024 .f32) : Vec F S1024x1024 .f32 :=
  VS1_0.read (Elt F) (VS1_0.writes (Elt F) VS1_0.junk (kernelRun1_A c i arg3 harg3 arg4 harg4 arg5 harg5 arg6 harg6 arg7 harg7 hc0 hc1 x0 x1 x2).2.1)

/-- Where 0 < k < 7 nothing is stored into the output block either. -/
def out1_B_3 (c : Dev nD) (i : grid1.Coords) (arg3 : Memref sig .tc .vmem S1024x512 .f32) (harg3 : arg3.IsWhole) (arg4 : Memref sig .tc .vmem S1024x512 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x512 .f32) (x1 : Vec F S1024x512 .f32) (x2 : Vec F S1024 .f32) (xs0 : Vec F S1024x1024 .f32) : Vec F S1024x1024 .f32 :=
  VO1_3.read (Elt F) (VO1_3.writes (Elt F) VO1_3.junk (kernelRun1_B c i arg3 harg3 arg4 harg4 arg5 harg5 arg6 harg6 arg7 harg7 hc0 hc1 x0 x1 x2 xs0).1)

/-- The accumulator's one piece (what it held plus the product, the whole tile) covers it. -/
theorem scover1_B_0 (c : Dev nD) (i : grid1.Coords) (arg3 : Memref sig .tc .vmem S1024x512 .f32) (harg3 : arg3.IsWhole) (arg4 : Memref sig .tc .vmem S1024x512 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x512 .f32) (x1 : Vec F S1024x512 .f32) (x2 : Vec F S1024 .f32) (xs0 : Vec F S1024x1024 .f32) (y : S1024x1024.Idx) :
    ∃ pc ∈ (kernelRun1_B c i arg3 harg3 arg4 harg4 arg5 harg5 arg6 harg6 arg7 harg7 hc0 hc1 x0 x1 x2 xs0).2.1, y ∈ pc.1.set :=
  View.cover_of_tiledL (kernelRun1_B c i arg3 harg3 arg4 harg4 arg5 harg5 arg6 harg6 arg7 harg7 hc0 hc1 x0 x1 x2 xs0).2.1 S1024x1024.size (by sl_kernel_rfl) y

def sout1_B_0 (c : Dev nD) (i : grid1.Coords) (arg3 : Memref sig .tc .vmem S1024x512 .f32) (harg3 : arg3.IsWhole) (arg4 : Memref sig .tc .vmem S1024x512 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x512 .f32) (x1 : Vec F S1024x512 .f32) (x2 : Vec F S1024 .f32) (xs0 : Vec F S1024x1024 .f32) : Vec F S1024x1024 .f32 :=
  VS1_0.read (Elt F) (VS1_0.writes (Elt F) VS1_0.junk (kernelRun1_B c i arg3 harg3 arg4 harg4 arg5 harg5 arg6 harg6 arg7 harg7 hc0 hc1 x0 x1 x2 xs0).2.1)

/-- Where k = 7 the one store into the output block is of the whole block. -/
theorem cover1_C_3 (c : Dev nD) (i : grid1.Coords) (arg3 : Memref sig .tc .vmem S1024x512 .f32) (harg3 : arg3.IsWhole) (arg4 : Memref sig .tc .vmem S1024x512 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x512 .f32) (x1 : Vec F S1024x512 .f32) (x2 : Vec F S1024 .f32) (xs0 : Vec F S1024x1024 .f32) (y : S1024x1024.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S1024x1024.size (by sl_kernel_rfl) y

/-- What the point leaves in the output block where k = 7: accumulator plus bias row. -/
def out1_C_3 (c : Dev nD) (i : grid1.Coords) (arg3 : Memref sig .tc .vmem S1024x512 .f32) (harg3 : arg3.IsWhole) (arg4 : Memref sig .tc .vmem S1024x512 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x512 .f32) (x1 : Vec F S1024x512 .f32) (x2 : Vec F S1024 .f32) (xs0 : Vec F S1024x1024 .f32) : Vec F S1024x1024 .f32 :=
  VO1_3.read (Elt F) (VO1_3.writes (Elt F) VO1_3.junk (kernelRun1_C c i arg3 harg3 arg4 harg4 arg5 harg5 arg6 harg6 arg7 harg7 hc0 hc1 x0 x1 x2 xs0).1)

theorem scover1_C_0 (c : Dev nD) (i : grid1.Coords) (arg3 : Memref sig .tc .vmem S1024x512 .f32) (harg3 : arg3.IsWhole) (arg4 : Memref sig .tc .vmem S1024x512 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x512 .f32) (x1 : Vec F S1024x512 .f32) (x2 : Vec F S1024 .f32) (xs0 : Vec F S1024x1024 .f32) (y : S1024x1024.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S1024x1024.size (by sl_kernel_rfl) y

def sout1_C_0 (c : Dev nD) (i : grid1.Coords) (arg3 : Memref sig .tc .vmem S1024x512 .f32) (harg3 : arg3.IsWhole) (arg4 : Memref sig .tc .vmem S1024x512 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x512 .f32) (x1 : Vec F S1024x512 .f32) (x2 : Vec F S1024 .f32) (xs0 : Vec F S1024x1024 .f32) : Vec F S1024x1024 .f32 :=
  VS1_0.read (Elt F) (VS1_0.writes (Elt F) VS1_0.junk (kernelRun1_C c i arg3 harg3 arg4 harg4 arg5 harg5 arg6 harg6 arg7 harg7 hc0 hc1 x0 x1 x2 xs0).2.1)

/-! ## Point by point -/

/-- THE ACCUMULATION.  What the output block's staging buffer (first component) and the accumulator (second) hold after the
    body at position `n`: the case that `n mod 8` selects, run at the point's memrefs and input blocks, with the accumulator
    entered at what position `n - 1` left in it.  k = 0 and k = 7 together meet no point. -/
def outsAt1 (c : Dev nD) : (n : ℕ) → n < cfg1.N → Vec F S1024x1024 .f32 × Vec F S1024x1024 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 8 = 0 then
      if h1 : (n + 1) % 8 = 7 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 8 = 7 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- At a point with k = 0. -/
theorem outsAt1_A (c : Dev nD) (t : Fin cfg1.N) (h0 : t.val % 8 = 0) (h1 : ¬t.val % 8 = 7) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- At a point with 0 < k < 7: over what the point before left. -/
theorem outsAt1_B (c : Dev nD) (t : Fin cfg1.N) (h0 : ¬t.val % 8 = 0) (h1 : ¬t.val % 8 = 7) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point with k = 7: over what the point before left. -/
theorem outsAt1_C (c : Dev nD) (t : Fin cfg1.N) (h0 : ¬t.val % 8 = 0) (h1 : t.val % 8 = 7) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point what the region is entered with; afterwards the
    accumulator at what the point before left in it, the other scoped buffers unopened, the generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ otherScoped (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2) ∗ otherScoped (F := F) c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ otherScoped (F := F) c) ∗ (∃ r, prngReg c r)) := by
  cases n with
  | zero => exact absurd rfl hz
  | succ n => rfl

/-! ## The pipeline's proof data -/

/-- The arrays as the region finds them; after the body at point `t` each input's buffer at its block and the output's at
    `outsAt1`'s first component; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`: the invariant, what is owed, and each window's current staging buffer at
    what the pipeline left in it, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point.  The three input buffers hold their blocks; `t mod 8` says which case the point is in, so that
    case's triple applies.  The invariant hands the body the accumulator — at anything before the first point, afterwards
    at what the point before left — and takes it back at this point's contents, its pieces covering it; the other scoped
    buffers and the generator register pass through untouched; nothing is owed throughout.  The output block is handed back
    as found where it is idle, and at its covering store where k = 7. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 8 = 0
  · by_cases h1 : t.val % 8 = 7
    · exfalso; omega
    · rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0; (try dsimp only)
      by_cases hz : t.val = 0
      ·
        rw [PhiS1_castSucc V c t, PhiS1_zero V c _ _ hz, PhiA1_eq]
        iintro ⟨⟨⟨HS0, Hr⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover1_A_0 c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
      ·
        rw [PhiS1_castSucc V c t, PhiS1_pos V c _ _ hz]
        iintro ⟨⟨⟨HS0, Hr⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover1_A_0 c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
  · by_cases h1 : t.val % 8 = 7
    · rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0; (try dsimp only)
      have hz : t.val ≠ 0 := by omega
      rw [PhiS1_castSucc V c t, PhiS1_pos V c _ _ hz]
      iintro ⟨⟨⟨HS0, Hr⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_C_0 c _ _ _ _ _ _ _ _ _ _ _ _ _ _ _ _ _)
          iexact Hr
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    · rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0; (try dsimp only)
      have hz : t.val ≠ 0 := by omega
      rw [PhiS1_castSucc V c t, PhiS1_pos V c _ _ hz]
      iintro ⟨⟨⟨HS0, Hr⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_B_0 c _ _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the entry form back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hr⟩, Hg⟩
  isplitl [HS0 Hr]
  · isplitl [HS0]
    · iexists _; iexact HS0
    iexact Hr
  iexact Hg

/-- The same after the last point. -/
theorem hout1 (c : Dev nD) : (dat1 V c).Φ (Fin.last cfg1.N) ⊢ Pipeline.ΦA spec1 c :=
  Phi_out1 V c _ (by rw [Fin.val_last]; have : cfg1.N = 128 := N_1; omega)

end Cert.KernelIdeal.Fr

end
-- ==== Proof.KI.Run.lean ====
/-
  The run of @main: two kernel regions in a row, no host operation between them.

  Region 0 fills the weight matrix main_v0 tile by tile; region 1 reads it back through its second window and fills the
  result main_v1.  The unscoped buffers' contents are followed through the program: at launch the memory's; after
  region 0 its seven arrays at what its write-backs leave (the six inputs as entered, main_v0 at the tiles written), every
  other buffer as entered; after region 1 likewise over its four arrays.  Region 0's invariant is the scoped rest and the
  generator register, untouched; region 1's carries the scratch accumulator from point to point, starts from the scoped rest
  at anything and ends by forgetting what the accumulator holds.  Every weakly fair execution ends, nothing faults, and the
  final memory holds each unscoped buffer at the last contents; each argument array reads back to the launch memory.
-/
import proofs.«109794_j25589415149863_1_alg».proof.Proof.KI.Reg0
import proofs.«109794_j25589415149863_1_alg».proof.Proof.KI.Reg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the three boundaries -/

/-- Core `c`'s buffers at launch. -/
abbrev W0 : Dev nD → Valuation τ sig (Elt F) := fun c b => (s₀ m ρ).mem ((c : Dev nD), b)
/-- The same read at the TensorCore's references: what region 0 is entered from. -/
abbrev E0 : (c : Dev nD) → (b : Ref sig .tc) → Buf (Elt F) ((c : Thread nD τ).loc b) := fun c b => W0 m ρ c b
/-- After region 0: its arrays at what the pipeline leaves, every other buffer as entered. -/
def W1 (c : Dev nD) : Valuation τ sig (Elt F) :=
  Pipeline.withArrays spec0 c (W0 m ρ c) fun w => (dat0 (E0 m ρ) c).arrAt w cfg0.N
theorem W1_arr (c : Dev nD) (w : Fin cfg0.W) :
    W1 m ρ c (Proc.devRef .tc (Pipeline.arrRef spec0 w)) = (dat0 (E0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references: region 0's exit, region 1's entry. -/
abbrev E1 : (c : Dev nD) → (b : Ref sig .tc) → Buf (Elt F) ((c : Thread nD τ).loc b) := fun c b => W1 m ρ c b
theorem hF0 (c : Dev nD) (w : Fin cfg0.W) : (dat0 (E0 m ρ) c).arrAt w cfg0.N = E1 m ρ c (Pipeline.arrRef spec0 w) :=
  (W1_arr m ρ c w).symm
theorem hrest0 (c : Dev nD) : ∀ b, b ∉ Finset.univ.image (Pipeline.arrRef spec0) → E1 m ρ c b = E0 m ρ c b :=
  fun b hb => W1_of_ne m ρ c b fun w e => hb (Finset.mem_image.mpr ⟨w, Finset.mem_univ _, e⟩)

/-- After region 1: its arrays at what the pipeline leaves, every other buffer as it entered. -/
def W2 (c : Dev nD) : Valuation τ sig (Elt F) :=
  Pipeline.withArrays spec1 c (W1 m ρ c) fun w => (dat1 (E1 m ρ) c).arrAt w cfg1.N
theorem W2_arr (c : Dev nD) (w : Fin cfg1.W) :
    W2 m ρ c (Proc.devRef .tc (Pipeline.arrRef spec1 w)) = (dat1 (E1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev E2 : (c : Dev nD) → (b : Ref sig .tc) → Buf (Elt F) ((c : Thread nD τ).loc b) := fun c b => W2 m ρ c b
theorem hF1 (c : Dev nD) (w : Fin cfg1.W) : (dat1 (E1 m ρ) c).arrAt w cfg1.N = E2 m ρ c (Pipeline.arrRef spec1 w) :=
  (W2_arr m ρ c w).symm
theorem hrest1 (c : Dev nD) : ∀ b, b ∉ Finset.univ.image (Pipeline.arrRef spec1) → E2 m ρ c b = E1 m ρ c b :=
  fun b hb => W2_of_ne m ρ c b fun w e => hb (Finset.mem_image.mpr ⟨w, Finset.mem_univ _, e⟩)

/-! ## What the last contents hold -/

/-- The weight matrix after region 0 is what its write-backs leave in its output window's array. -/
theorem W1_main_v0 (c : Dev nD) : W1 m ρ c (Proc.devRef .tc main_v0) = (dat0 (E0 m ρ) c).arrAt 6 cfg0.N := W1_arr m ρ c 6
/-- The result after region 1 is what its write-backs leave in its output window's array. -/
theorem W2_main_v1 (c : Dev nD) : W2 m ρ c (Proc.devRef .tc main_v1) = (dat1 (E1 m ρ) c).arrAt 3 cfg1.N := W2_arr m ρ c 3

/-- An input window's array of region 0 leaves the region as it entered. -/
theorem W1_in (c : Dev nD) (w : Fin cfg0.W) (hw : (cfg0.win w).isOut = false) :
    W1 m ρ c (Proc.devRef .tc (Pipeline.arrRef spec0 w)) = W0 m ρ c (Proc.devRef .tc (Pipeline.arrRef spec0 w)) :=
  (W1_arr m ρ c w).trans (((dat0 (E0 m ρ) c).arrAt_in w hw _).trans (A_eq0 (E0 m ρ) c w))
/-- An input window's array of region 1 leaves the region as it entered. -/
theorem W2_in (c : Dev nD) (w : Fin cfg1.W) (hw : (cfg1.win w).isOut = false) :
    W2 m ρ c (Proc.devRef .tc (Pipeline.arrRef spec1 w)) = W1 m ρ c (Proc.devRef .tc (Pipeline.arrRef spec1 w)) :=
  (W2_arr m ρ c w).trans (((dat1 (E1 m ρ) c).arrAt_in w hw _).trans (A_eq1 (E1 m ρ) c w))

/-- X is no array of region 0 and an input of region 1. -/
theorem W2_main_arg0 (c : Dev nD) : W2 m ρ c (Proc.devRef .tc main_arg0) = m ((c : Thread nD τ).loc main_arg0) :=
  (W2_in m ρ c 0 rfl).trans (W1_of_ne m ρ c main_arg0 (by decide))
/-- The bias is no array of region 0 and an input of region 1. -/
theorem W2_main_arg7 (c : Dev nD) : W2 m ρ c (Proc.devRef .tc main_arg7) = m ((c : Thread nD τ).loc main_arg7) :=
  (W2_in m ρ c 2 rfl).trans (W1_of_ne m ρ c main_arg7 (by decide))
/-- The code books, the coefficients and the offsets are inputs of region 0 and no array of region 1. -/
theorem W2_main_arg1 (c : Dev nD) : W2 m ρ c (Proc.devRef .tc main_arg1) = m ((c : Thread nD τ).loc main_arg1) :=
  (W2_of_ne m ρ c main_arg1 (by decide)).trans (W1_in m ρ c 0 rfl)
theorem W2_main_arg2 (c : Dev nD) : W2 m ρ c (Proc.devRef .tc main_arg2) = m ((c : Thread nD τ).loc main_arg2) :=
  (W2_of_ne m ρ c main_arg2 (by decide)).trans (W1_in m ρ c 1 rfl)
theorem W2_main_arg3 (c : Dev nD) : W2 m ρ c (Proc.devRef .tc main_arg3) = m ((c : Thread nD τ).loc main_arg3) :=
  (W2_of_ne m ρ c main_arg3 (by decide)).trans (W1_in m ρ c 2 rfl)
theorem W2_main_arg4 (c : Dev nD) : W2 m ρ c (Proc.devRef .tc main_arg4) = m ((c : Thread nD τ).loc main_arg4) :=
  (W2_of_ne m ρ c main_arg4 (by decide)).trans (W1_in m ρ c 3 rfl)
theorem W2_main_arg5 (c : Dev nD) : W2 m ρ c (Proc.devRef .tc main_arg5) = m ((c : Thread nD τ).loc main_arg5) :=
  (W2_of_ne m ρ c main_arg5 (by decide)).trans (W1_in m ρ c 4 rfl)
theorem W2_main_arg6 (c : Dev nD) : W2 m ρ c (Proc.devRef .tc main_arg6) = m ((c : Thread nD τ).loc main_arg6) :=
  (W2_of_ne m ρ c main_arg6 (by decide)).trans (W1_in m ρ c 5 rfl)

/-- Region 1 finds X and the bias as launched, -/
theorem E1_main_arg0 (c : Dev nD) : E1 m ρ c main_arg0 = m ((c : Thread nD τ).loc main_arg0) := W1_of_ne m ρ c main_arg0 (by decide)
theorem E1_main_arg7 (c : Dev nD) : E1 m ρ c main_arg7 = m ((c : Thread nD τ).loc main_arg7) := W1_of_ne m ρ c main_arg7 (by decide)
/-- and the weight matrix as region 0 left it. -/
theorem E1_main_v0 (c : Dev nD) : E1 m ρ c main_v0 = (dat0 (E0 m ρ) c).arrAt 6 cfg0.N := W1_main_v0 m ρ c

/-! ## The proof data family and the thread state -/

/-- No pipeline has a prefetched table. -/
abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (E0 m ρ) c
  | ⟨1, _⟩ => fun c => dat1 (E1 m ρ) c
abbrev 𝒱₀ : Variants := Variants.none
/-- No core owes another anything. -/
abbrev L : GSem nD τ sig → Finset Unit := fun _ => ∅
abbrev lv : GSem nD τ sig → Unit → ℕ := fun _ _ => 0
/-- Beside the buffers: the generator register at some state, and the core's dues, none. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W2 m ρ c) ∗ ∃ r, prngReg c r)

/-! ## The regions as segments -/

set_option backward.isDefEq.respectTransparency.types false in
/-- Region 0: entered from every unscoped buffer at the launch contents, left at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E0 m ρ c) (E1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at `W1`, left at `W2`. Its invariant starts from the scoped rest at
    anything and ends by forgetting what the carried accumulator holds. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : ∀ (P : sProp 𝕄), iprop((∃ r, prngReg c r) ∗ P ∗ Pipeline.scopedRest spec1 c) ⊢ (Pipeline.ΦA spec1 c : sProp 𝕄) := fun P => by
      unfold Pipeline.ΦA
      iintro ⟨Hp, -, Hr⟩
      isplitl [Hr]; · iexact Hr
      iexact Hp
    exact (h _).trans (hin1 (E1 m ρ) c)
  hout c := by
    have h : (Pipeline.ΦA spec1 c : sProp 𝕄) ⊢ iprop((∃ r, prngReg c r) ∗ BI.emp ∗ Pipeline.scopedRest spec1 c) := by
      unfold Pipeline.ΦA
      iintro ⟨Hr, Hp⟩
      isplitl [Hp]; · iexact Hp
      isplitr; · iempintro
      iexact Hr
    rw [Pipeline.ownSems0_none]
    exact (hout1 (E1 m ρ) c).trans h
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E1 m ρ c) (E2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's two segments. -/
abbrev segs : List (Pipeline.Seg (pcfgs (F := F)) adm (pdats m ρ) () defs₀ 𝒱₀ L lv) :=
  [ .region (reg0 m ρ), .region (reg1 m ρ) ]
/-- @main is the run of the segments. -/
theorem main_run (c : Dev nD) : main (F := F) c = Pipeline.Seg.run (segs m ρ) := (main_chain c).trans (by chain_rfl)

set_option backward.isDefEq.respectTransparency.types false in
/-- THE RUN: from any memory with zero counters every weakly fair execution of @main on the TensorCores terminates, nothing
    faulting, and the final memory holds every unscoped buffer at the last contents `W2`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W2_main_arg0 m ρ c),
     (h c _ (mem_uc main_arg1 (by decide))).trans (W2_main_arg1 m ρ c),
     (h c _ (mem_uc main_arg2 (by decide))).trans (W2_main_arg2 m ρ c),
     (h c _ (mem_uc main_arg3 (by decide))).trans (W2_main_arg3 m ρ c),
     (h c _ (mem_uc main_arg4 (by decide))).trans (W2_main_arg4 m ρ c),
     (h c _ (mem_uc main_arg5 (by decide))).trans (W2_main_arg5 m ρ c),
     (h c _ (mem_uc main_arg6 (by decide))).trans (W2_main_arg6 m ρ c),
     (h c _ (mem_uc main_arg7 (by decide))).trans (W2_main_arg7 m ρ c)⟩) (run_all m ρ)

end Cert.KernelIdeal.Fr

end
-- ==== Proof.Spec.lean ====
/-
  What both programs compute, as functions of the argument arrays, index by index, on the extended reals.

  A code word is a float thresholded at one half: `bin x` is 1 when x > 1/2 and 0 otherwise (the comparison's one bit
  read as a number).  For each of the 4 bit planes and each of the 8 x 8 tiles (rw, cw) the weight tile at (y, z) is
      a * (sum over i < 64 of bin Y[y,i] * bin Z[i,z]) + b * (sum over i of bin Y[y,i]) + c * (sum over i of bin Z[i,z]),
  the planes are added up and the tile's offset d is added; tile (rw, cw) is rows rw*512 .. rw*512+511 and columns
  cw*512 .. cw*512+511 of the 4096 x 4096 weight matrix W.  The result is X * W^T + bias:
      out[p, q] = (sum over k < 4096 of X[p,k] * W[q,k]) + bias[q].
-/
import Idealize.ShloMosaic.PureOps.Ideal
import Idealize.ShloMosaic.Lib.ValueIdx

noncomputable section

namespace Cert.Spec

open Idealize.ShloMosaic Idealize.ShloMosaic.ValueIdx

abbrev T4096x4096 : Shape := ⟨2, ![4096, 4096]⟩
abbrev T4096 : Shape := ⟨1, ![4096]⟩
abbrev TY : Shape := ⟨5, ![4, 8, 8, 512, 64]⟩
abbrev TZ : Shape := ⟨5, ![4, 8, 8, 64, 512]⟩
abbrev TA : Shape := ⟨5, ![4, 8, 8, 1, 1]⟩
abbrev TD : Shape := ⟨4, ![8, 8, 1, 1]⟩

/-- One half, as the f32 word both programs compare against. -/
def half : EReal := (Ideal.ofBits .f32 0x3F000000#32 : Ideal .f32)

/-- The one-bit outcome of `x > 1/2`. -/
def gtHalf (x : EReal) : BitVec 1 := FloatOps.cmpf (F := Ideal) (φ := .f32) .ogt (x : Ideal .f32) (half : Ideal .f32)

/-- A thresholded code word: 1 if `x > 1/2`, else 0. -/
def bin (x : EReal) : EReal := (((gtHalf x).toNat : ℝ) : EReal)

/-- The weight tile (rw, cw) at (y, z). -/
def wTile (Y : TY.Idx → EReal) (Z : TZ.Idx → EReal) (a b c : TA.Idx → EReal) (d : TD.Idx → EReal)
    (rw cw : Fin 8) (y z : Fin 512) : EReal :=
  (∑ bit : Fin 4,
      ((a (ix5 bit rw cw (0 : Fin 1) (0 : Fin 1)) * (∑ i : Fin 64, bin (Y (ix5 bit rw cw y i)) * bin (Z (ix5 bit rw cw i z)))
        + b (ix5 bit rw cw (0 : Fin 1) (0 : Fin 1)) * (∑ i : Fin 64, bin (Y (ix5 bit rw cw y i))))
        + c (ix5 bit rw cw (0 : Fin 1) (0 : Fin 1)) * (∑ i : Fin 64, bin (Z (ix5 bit rw cw i z)))))
    + d (ix4 rw cw (0 : Fin 1) (0 : Fin 1))

/-- Row or column `n < 4096` of W lies in tile `n / 512`, at offset `n % 512`. -/
def tileOf (n : Fin 4096) : Fin 8 := ⟨n.val / 512, by omega⟩
def offOf (n : Fin 4096) : Fin 512 := ⟨n.val % 512, by omega⟩

/-- The 4096 x 4096 weight matrix. -/
def wAt (Y : TY.Idx → EReal) (Z : TZ.Idx → EReal) (a b c : TA.Idx → EReal) (d : TD.Idx → EReal) (n k : Fin 4096) : EReal :=
  wTile Y Z a b c d (tileOf n) (tileOf k) (offOf n) (offOf k)

def wArr (Y : TY.Idx → EReal) (Z : TZ.Idx → EReal) (a b c : TA.Idx → EReal) (d : TD.Idx → EReal) : T4096x4096.Idx → EReal :=
  fun j => wAt Y Z a b c d (j 0) (j 1)

/-- `X * W^T + bias` at (p, q). -/
def outAt (X W : T4096x4096.Idx → EReal) (bias : T4096.Idx → EReal) (p q : Fin 4096) : EReal :=
  (∑ k : Fin 4096, X (ix2 p k) * W (ix2 q k)) + bias (ix1 q)

def outArr (X W : T4096x4096.Idx → EReal) (bias : T4096.Idx → EReal) : T4096x4096.Idx → EReal :=
  fun j => outAt X W bias (j 0) (j 1)

/-- The whole result as a function of the eight argument arrays. -/
def result (X : T4096x4096.Idx → EReal) (Y : TY.Idx → EReal) (Z : TZ.Idx → EReal) (a b c : TA.Idx → EReal)
    (d : TD.Idx → EReal) (bias : T4096.Idx → EReal) : T4096x4096.Idx → EReal :=
  outArr X (wArr Y Z a b c d) bias

theorem wArr_ix2 (Y : TY.Idx → EReal) (Z : TZ.Idx → EReal) (a b c : TA.Idx → EReal) (d : TD.Idx → EReal) (n k : Fin 4096) :
    wArr Y Z a b c d (ix2 n k) = wAt Y Z a b c d n k := rfl

theorem outArr_ix2 (X W : T4096x4096.Idx → EReal) (bias : T4096.Idx → EReal) (p q : Fin 4096) :
    outArr X W bias (ix2 p q) = outAt X W bias p q := rfl

/-- The two integer-to-float conversions of a one-bit comparison agree: the bit read unsigned, and the bit widened
    to 32 bits and read signed, are the same number. -/
theorem toInt_setWidth_eq_toNat (b : BitVec 1) : ((b.setWidth 32).toInt : ℝ) = (b.toNat : ℝ) := by
  have h : b = 0#1 ∨ b = 1#1 := by
    have := b.isLt
    rcases Nat.lt_or_ge b.toNat 1 with h | h
    · left; apply BitVec.eq_of_toNat_eq; simp; omega
    · right; apply BitVec.eq_of_toNat_eq; simp; omega
  rcases h with rfl | rfl <;> simp

end Cert.Spec

end
-- ==== Proof.KI.Val0Pay.lean ====
/-
  The weight kernel's stored value, entry by entry, on the extended reals.

  Each loaded plane is thresholded at one half: the comparison's one bit, widened and read as a signed integer, is the
  code word `bin` of the entry.  For bit plane k the body forms the matrix product of the two thresholded planes (a sum over
  the 64 inner positions of products of code words), the row sums of the first and the column sums of the second (sums
  over the same 64 positions), scales the three by the plane's coefficients a_k, b_k, c_k, spreads the column of row sums
  along rows and the row of column sums down columns, and adds all three to the running sum, which starts at zero.  After
  the four planes it adds the offset.  Read at (p, q) that is
      (sum over the 4 planes of (a_k * (sum_i bin Y_k[p,i] * bin Z_k[i,q]) + b_k * (sum_i bin Y_k[p,i])) + c_k * (sum_i bin Z_k[i,q])) + d,
  the block-level weight `wBlk`: the four planes' running sum is the sum over `Fin 4` written out, up to associativity
  of addition and 0 + x = x.
-/
import proofs.«109794_j25589415149863_1_alg».proof.Proof.KI.Pay0
import proofs.«109794_j25589415149863_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Cert.KernelIdeal Cert.KernelIdeal.Gen Cert.KernelIdeal.Fr Cert.Spec Idealize.ShloMosaic Idealize.ShloMosaic.ValueIdx

/-! ## The block-level weight -/

/-- One bit plane's contribution at (p, q): a * (sum of products of code words) + b * (row count) + c * (column count). -/
def planeTerm (x0 : Vec Ideal S4x1x1x512x64 .f32) (x1 : Vec Ideal S4x1x1x64x512 .f32) (x2 x3 x4 : Vec Ideal S4x1x1x1x1 .f32)
    (bit : Fin 4) (p q : Fin 512) : EReal :=
  (x2 (ix5 bit (0 : Fin 1) (0 : Fin 1) (0 : Fin 1) (0 : Fin 1)) * (∑ i : Fin 64, bin (x0 (ix5 bit (0 : Fin 1) (0 : Fin 1) p i)) * bin (x1 (ix5 bit (0 : Fin 1) (0 : Fin 1) i q)))
      + x3 (ix5 bit (0 : Fin 1) (0 : Fin 1) (0 : Fin 1) (0 : Fin 1)) * (∑ i : Fin 64, bin (x0 (ix5 bit (0 : Fin 1) (0 : Fin 1) p i))))
    + x4 (ix5 bit (0 : Fin 1) (0 : Fin 1) (0 : Fin 1) (0 : Fin 1)) * (∑ i : Fin 64, bin (x1 (ix5 bit (0 : Fin 1) (0 : Fin 1) i q)))

/-- the block-level weight: what the six staged blocks determine at (p, q) of the 512 x 512 tile -/
def wBlk (x0 : Vec Ideal S4x1x1x512x64 .f32) (x1 : Vec Ideal S4x1x1x64x512 .f32) (x2 x3 x4 : Vec Ideal S4x1x1x1x1 .f32) (x5 : Vec Ideal S1x1x1x1 .f32) (p q : Fin 512) : EReal :=
  (∑ bit : Fin 4, ((x2 (ix5 bit (0 : Fin 1) (0 : Fin 1) (0 : Fin 1) (0 : Fin 1)) * (∑ i : Fin 64, bin (x0 (ix5 bit (0 : Fin 1) (0 : Fin 1) p i)) * bin (x1 (ix5 bit (0 : Fin 1) (0 : Fin 1) i q)))
      + x3 (ix5 bit 0 0 0 0) * (∑ i : Fin 64, bin (x0 (ix5 bit 0 0 p i)))) + x4 (ix5 bit 0 0 0 0) * (∑ i : Fin 64, bin (x1 (ix5 bit 0 0 i q))))) + x5 (ix4 (0 : Fin 1) (0 : Fin 1) (0 : Fin 1) (0 : Fin 1))

theorem wBlk_eq_planes (x0 : Vec Ideal S4x1x1x512x64 .f32) (x1 : Vec Ideal S4x1x1x64x512 .f32) (x2 x3 x4 : Vec Ideal S4x1x1x1x1 .f32) (x5 : Vec Ideal S1x1x1x1 .f32) (p q : Fin 512) :
    wBlk x0 x1 x2 x3 x4 x5 p q
      = (((planeTerm x0 x1 x2 x3 x4 0 p q + planeTerm x0 x1 x2 x3 x4 1 p q) + planeTerm x0 x1 x2 x3 x4 2 p q) + planeTerm x0 x1 x2 x3 x4 3 p q)
        + x5 (ix4 (0 : Fin 1) (0 : Fin 1) (0 : Fin 1) (0 : Fin 1)) := by
  unfold wBlk
  rw [Fin.sum_univ_four]
  rfl

/-! ## A code word: the comparison against one half, read as a number -/

/-- The one bit of `x > 1/2`, widened to 32 bits and read as a signed integer, is the code word of `x`. -/
theorem sitofp_gt_half (x : EReal) :
    (FloatOps.sitofp (F := Ideal) .f32
      ((FloatOps.cmpf (F := Ideal) (φ := .f32) .ogt (x : Ideal .f32) (Scalar.ofBits (F := Ideal) .f32 0x3F000000#32)).setWidth 32) : Ideal .f32)
      = bin x := by
  show (((BitVec.setWidth 32 (gtHalf x)).toInt : ℝ) : EReal) = _
  rw [toInt_setWidth_eq_toNat]
  rfl

/-! ## Layout operations at coordinates -/

section Layout
variable {α : Type}

/-- A `[1, 1, 1, a, b]` plane viewed `[a, b]` reads, at `(i, j)`, the plane at `(0, 0, 0, i, j)`. -/
theorem shapeCast_111ab_ab_apply {a b : ℕ} (x : (⟨5, ![1, 1, 1, a, b]⟩ : Shape).Idx → α)
    (h : (⟨5, ![1, 1, 1, a, b]⟩ : Shape).ShapeCasts ⟨2, ![a, b]⟩) (i : Fin a) (j : Fin b) :
    shapeCast ⟨2, ![a, b]⟩ x h (ix2 i j) = x (ix5 (0 : Fin 1) (0 : Fin 1) (0 : Fin 1) i j) :=
  shapeCast_apply x h _ _ (by
    rw [Shape.rowMajor_val_five, Shape.rowMajor_val_two]
    show ((((0 * 1 + 0) * 1 + 0) * a + i.val) * b + j.val) = i.val * b + j.val
    simp only [Nat.zero_mul, Nat.zero_add, Nat.mul_one, Nat.add_zero])

/-- A vector `[a]` viewed as a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A one-entry `[1, 1, 1, 1, 1]` block viewed `[1, 1]` reads its one entry. -/
theorem shapeCast_11111_11_apply (x : (⟨5, ![1, 1, 1, 1, 1]⟩ : Shape).Idx → α)
    (h : (⟨5, ![1, 1, 1, 1, 1]⟩ : Shape).ShapeCasts ⟨2, ![1, 1]⟩) (u v : Fin 1) :
    shapeCast ⟨2, ![1, 1]⟩ x h (ix2 u v) = x (ix5 (0 : Fin 1) (0 : Fin 1) (0 : Fin 1) (0 : Fin 1) (0 : Fin 1)) :=
  shapeCast_apply x h _ _ (by
    have hu : u.val = 0 := by omega
    have hv : v.val = 0 := by omega
    rw [Shape.rowMajor_val_five, Shape.rowMajor_val_two]
    show ((((0 * 1 + 0) * 1 + 0) * 1 + 0) * 1 + 0) = u.val * 1 + v.val
    rw [hu, hv])

/-- A one-entry `[1, 1, 1, 1]` block viewed `[1, 1]` reads its one entry. -/
theorem shapeCast_1111_11_apply (x : (⟨4, ![1, 1, 1, 1]⟩ : Shape).Idx → α)
    (h : (⟨4, ![1, 1, 1, 1]⟩ : Shape).ShapeCasts ⟨2, ![1, 1]⟩) (u v : Fin 1) :
    shapeCast ⟨2, ![1, 1]⟩ x h (ix2 u v) = x (ix4 (0 : Fin 1) (0 : Fin 1) (0 : Fin 1) (0 : Fin 1)) :=
  shapeCast_apply x h _ _ (by
    have hu : u.val = 0 := by omega
    have hv : v.val = 0 := by omega
    rw [Shape.rowMajor_val_four, Shape.rowMajor_val_two]
    show (((0 * 1 + 0) * 1 + 0) * 1 + 0) = u.val * 1 + v.val
    rw [hu, hv])

/-- One entry `[1, 1]` spread over `[a, b]` reads that entry everywhere. -/
theorem broadcastTo_11_ab_apply {a b : ℕ} (v : (⟨2, ![1, 1]⟩ : Shape).Idx → α) (h : (⟨2, ![1, 1]⟩ : Shape).Broadcasts ⟨2, ![a, b]⟩)
    (p : Fin a) (q : Fin b) : broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ =>
    show 0 = if (1 : ℕ) = 1 then 0 else p.val
    rw [if_pos rfl]
  | ⟨1, _⟩ =>
    show 0 = if (1 : ℕ) = 1 then 0 else q.val
    rw [if_pos rfl]

/-- One column `[a, 1]` spread over `[a, b]` reads, at `(p, q)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else q.val
    rw [if_pos rfl]

end Layout

/-! ## The thresholded planes -/

/-- A loaded `[1, 1, 1, 512, 64]` plane, viewed `[512, 64]` and thresholded at one half. -/
def binY (v : Vec Ideal S1x1x1x512x64 .f32) : FVec Ideal S512x64 .f32 :=
  sitofp .f32 (extui 32 (cmpf .ogt (shapeCast S512x64 v shapeCasts_S1x1x1x512x64_S512x64 : FVec Ideal S512x64 .f32)
    (broadcast S512x64 (Scalar.ofBits (F := Ideal) .f32 0x3F000000#32))) natLt_1_32)

/-- A loaded `[1, 1, 1, 64, 512]` plane, viewed `[64, 512]` and thresholded at one half. -/
def binZ (v : Vec Ideal S1x1x1x64x512 .f32) : FVec Ideal S64x512 .f32 :=
  sitofp .f32 (extui 32 (cmpf .ogt (shapeCast S64x512 v shapeCasts_S1x1x1x64x512_S64x512 : FVec Ideal S64x512 .f32)
    (broadcast S64x512 (Scalar.ofBits (F := Ideal) .f32 0x3F000000#32))) natLt_1_32)

theorem binY_apply (v : Vec Ideal S1x1x1x512x64 .f32) (p : Fin 512) (i : Fin 64) :
    binY v (ix2 p i) = bin (v (ix5 (0 : Fin 1) (0 : Fin 1) (0 : Fin 1) p i)) := by
  unfold binY
  rw [sitofp_apply, extui_apply, cmpf_apply, broadcast_apply]
  refine Eq.trans ?_ (sitofp_gt_half (v (ix5 (0 : Fin 1) (0 : Fin 1) (0 : Fin 1) p i)))
  exact congrArg (fun y : EReal => (FloatOps.sitofp (F := Ideal) .f32
      ((FloatOps.cmpf (F := Ideal) (φ := .f32) .ogt (y : Ideal .f32) (Scalar.ofBits (F := Ideal) .f32 0x3F000000#32)).setWidth 32) : Ideal .f32))
    (shapeCast_111ab_ab_apply v shapeCasts_S1x1x1x512x64_S512x64 p i)

theorem binZ_apply (v : Vec Ideal S1x1x1x64x512 .f32) (i : Fin 64) (q : Fin 512) :
    binZ v (ix2 i q) = bin (v (ix5 (0 : Fin 1) (0 : Fin 1) (0 : Fin 1) i q)) := by
  unfold binZ
  rw [sitofp_apply, extui_apply, cmpf_apply, broadcast_apply]
  refine Eq.trans ?_ (sitofp_gt_half (v (ix5 (0 : Fin 1) (0 : Fin 1) (0 : Fin 1) i q)))
  exact congrArg (fun y : EReal => (FloatOps.sitofp (F := Ideal) .f32
      ((FloatOps.cmpf (F := Ideal) (φ := .f32) .ogt (y : Ideal .f32) (Scalar.ofBits (F := Ideal) .f32 0x3F000000#32)).setWidth 32) : Ideal .f32))
    (shapeCast_111ab_ab_apply v shapeCasts_S1x1x1x64x512_S64x512 i q)

/-! ## The product of two planes -/

theorem lhs_axis0 (j : S512x512.Idx) (k : dot_S512x64_S64x512_S512x512_1_0_0_1_n_n.contr.Idx) :
    (dot_S512x64_S64x512_S512x512_1_0_0_1_n_n.lhsIdx j k 0).val = (j 0).val := by
  unfold DotDims.lhsIdx
  rw [dif_neg (show ¬(0 : Fin S512x64.rank) ∈ dot_S512x64_S64x512_S512x512_1_0_0_1_n_n.lhsBatch by decide), dif_pos (show (0 : Fin S512x64.rank) ∈ dot_S512x64_S64x512_S512x512_1_0_0_1_n_n.lhsNonContracting by decide)]
  rfl
theorem lhs_axis1 (j : S512x512.Idx) (k : dot_S512x64_S64x512_S512x512_1_0_0_1_n_n.contr.Idx) :
    (dot_S512x64_S64x512_S512x512_1_0_0_1_n_n.lhsIdx j k 1).val = (k ⟨0, by decide⟩).val :=
  dot_S512x64_S64x512_S512x512_1_0_0_1_n_n.lhsIdx_val_of_single rfl j k
theorem rhs_axis0 (j : S512x512.Idx) (k : dot_S512x64_S64x512_S512x512_1_0_0_1_n_n.contr.Idx) :
    (dot_S512x64_S64x512_S512x512_1_0_0_1_n_n.rhsIdx j k 0).val = (k ⟨0, by decide⟩).val :=
  dot_S512x64_S64x512_S512x512_1_0_0_1_n_n.rhsIdx_val_of_single rfl j k
theorem rhs_axis1 (j : S512x512.Idx) (k : dot_S512x64_S64x512_S512x512_1_0_0_1_n_n.contr.Idx) :
    (dot_S512x64_S64x512_S512x512_1_0_0_1_n_n.rhsIdx j k 1).val = (j 1).val := by
  unfold DotDims.rhsIdx
  rw [dif_neg (show ¬(1 : Fin S64x512.rank) ∈ dot_S512x64_S64x512_S512x512_1_0_0_1_n_n.rhsBatch by decide), dif_pos (show (1 : Fin S64x512.rank) ∈ dot_S512x64_S64x512_S512x512_1_0_0_1_n_n.rhsNonContracting by decide)]
  rfl

/-- The matrix product of a `[512, 64]` and a `[64, 512]` plane (narrowed to bf16, which keeps every value here), into zero. -/
def prodYZ (A : FVec Ideal S512x64 .f32) (B : FVec Ideal S64x512 .f32) : FVec Ideal S512x512 .f32 :=
  matmul dot_S512x64_S64x512_S512x512_1_0_0_1_n_n none (truncf .bf16 A bitsLt_bf16_f32 : FVec Ideal S512x64 .bf16)
    (truncf .bf16 B bitsLt_bf16_f32 : FVec Ideal S64x512 .bf16) (constant (F := Ideal) S512x512 .f32 0x00000000#32)

theorem prodYZ_apply (A : FVec Ideal S512x64 .f32) (B : FVec Ideal S64x512 .f32) (p q : Fin 512) :
    prodYZ A B (ix2 p q) = ∑ i : Fin 64, A (ix2 p i) * B (ix2 i q) := by
  unfold prodYZ
  simp only [matmul]
  rw [Ideal.matmul_constant_zero_apply, ← Equiv.sum_comp (contrEquiv1 dot_S512x64_S64x512_S512x512_1_0_0_1_n_n 64 rfl rfl).symm]
  refine Finset.sum_congr rfl fun k _ => ?_
  have hk := contrEquiv1_symm_val dot_S512x64_S64x512_S512x512_1_0_0_1_n_n 64 rfl rfl k
  have el : dot_S512x64_S64x512_S512x512_1_0_0_1_n_n.lhsIdx (ix2 p q) ((contrEquiv1 dot_S512x64_S64x512_S512x512_1_0_0_1_n_n 64 rfl rfl).symm k) = ix2 p k := funext fun a => Fin.ext (by
    match a with
    | ⟨0, _⟩ => exact lhs_axis0 _ _
    | ⟨1, _⟩ => exact (lhs_axis1 _ _).trans hk)
  have er : dot_S512x64_S64x512_S512x512_1_0_0_1_n_n.rhsIdx (ix2 p q) ((contrEquiv1 dot_S512x64_S64x512_S512x512_1_0_0_1_n_n 64 rfl rfl).symm k) = ix2 k q := funext fun a => Fin.ext (by
    match a with
    | ⟨0, _⟩ => exact (rhs_axis0 _ _).trans hk
    | ⟨1, _⟩ => exact rhs_axis1 _ _)
  rw [el, er]
  rfl

/-! ## Row sums and column sums -/

/-- The sums along the rows of a `[512, 64]` plane, as a column. -/
def rowSums (A : FVec Ideal S512x64 .f32) : FVec Ideal S512x1 .f32 :=
  shapeCast S512x1 (multiReduction (F := Ideal) .add [1] S512 A 0x00000000#32 reduces_S512x64_S512 (.inl rfl) rfl) shapeCasts_S512_S512x1

/-- The sums down the columns of a `[64, 512]` plane, as a row. -/
def colSums (B : FVec Ideal S64x512 .f32) : FVec Ideal S1x512 .f32 :=
  shapeCast S1x512 (multiReduction (F := Ideal) .add [0] S512 B 0x00000000#32 reduces_S64x512_S512 (.inl rfl) rfl) shapeCasts_S512_S1x512

theorem rowSums_apply (A : FVec Ideal S512x64 .f32) (p : Fin 512) (u : Fin 1) :
    rowSums A (ix2 p u) = ∑ i : Fin 64, A (ix2 p i) := by
  unfold rowSums
  refine (shapeCast_a_a1_apply _ shapeCasts_S512_S512x1 p u).trans ?_
  refine (Ideal.multiReduction_add_single A 0x00000000#32 reduces_S512x64_S512 (.inl rfl) rfl (ix1 p)).trans ?_
  refine Finset.sum_congr rfl fun i _ => congrArg A (funext fun a => Fin.ext ?_)
  match a with
  | ⟨0, _⟩ => rfl
  | ⟨1, _⟩ => rfl

theorem colSums_apply (B : FVec Ideal S64x512 .f32) (u : Fin 1) (q : Fin 512) :
    colSums B (ix2 u q) = ∑ i : Fin 64, B (ix2 i q) := by
  unfold colSums
  refine (shapeCast_a_1a_apply _ shapeCasts_S512_S1x512 u q).trans ?_
  refine (Ideal.multiReduction_add_single B 0x00000000#32 reduces_S64x512_S512 (.inl rfl) rfl (ix1 q)).trans ?_
  refine Finset.sum_congr rfl fun i _ => congrArg B (funext fun a => Fin.ext ?_)
  match a with
  | ⟨0, _⟩ => rfl
  | ⟨1, _⟩ => rfl

/-! ## The coefficients and the offset -/

/-- A one-entry coefficient block as a `[1, 1]` entry. -/
def coef (v : Vec Ideal S1x1x1x1x1 .f32) : FVec Ideal S1x1 .f32 := shapeCast S1x1 v shapeCasts_S1x1x1x1x1_S1x1

theorem coef_apply (v : Vec Ideal S1x1x1x1x1 .f32) (u w : Fin 1) :
    coef v (ix2 u w) = v (ix5 (0 : Fin 1) (0 : Fin 1) (0 : Fin 1) (0 : Fin 1) (0 : Fin 1)) :=
  shapeCast_11111_11_apply v shapeCasts_S1x1x1x1x1_S1x1 u w

/-- The one-entry offset block spread over the tile. -/
def offsetTile (v : Vec Ideal S1x1x1x1 .f32) : FVec Ideal S512x512 .f32 :=
  broadcastTo S512x512 (shapeCast S1x1 v shapeCasts_S1x1x1x1_S1x1 : FVec Ideal S1x1 .f32) broadcasts_S1x1_S512x512

theorem offsetTile_apply (v : Vec Ideal S1x1x1x1 .f32) (p q : Fin 512) :
    offsetTile v (ix2 p q) = v (ix4 (0 : Fin 1) (0 : Fin 1) (0 : Fin 1) (0 : Fin 1)) := by
  unfold offsetTile
  refine (broadcastTo_11_ab_apply _ broadcasts_S1x1_S512x512 p q).trans ?_
  exact shapeCast_1111_11_apply v shapeCasts_S1x1x1x1_S1x1 0 0

/-- The zero tile the running sum starts from. -/
theorem zeroTile_apply (j : S512x512.Idx) : k0_pay2 (F := Ideal) j = (0 : EReal) := Ideal.ofBits_zero_f32

/-! ## One plane added to the running sum -/

theorem add_plane_assoc (s A B C : EReal) : s + A + B + C = s + (A + B + C) := by
  simp only [add_assoc]

/-- The running sum plus a * M + b * R + c * C, with R a column spread along rows and C a row spread down columns. -/
def addPlane (acc M : FVec Ideal S512x512 .f32) (R : FVec Ideal S512x1 .f32) (C : FVec Ideal S1x512 .f32)
    (a b c : FVec Ideal S1x1 .f32) : FVec Ideal S512x512 .f32 :=
  addf (addf (addf acc (mulf (broadcastTo S512x512 a broadcasts_S1x1_S512x512) M))
      (broadcastTo S512x512 (mulf (broadcastTo S512x1 b broadcasts_S1x1_S512x1) R) broadcasts_S512x1_S512x512))
    (broadcastTo S512x512 (mulf (broadcastTo S1x512 c broadcasts_S1x1_S1x512) C) broadcasts_S1x512_S512x512)

theorem addPlane_apply (acc M : FVec Ideal S512x512 .f32) (R : FVec Ideal S512x1 .f32) (C : FVec Ideal S1x512 .f32)
    (a b c : FVec Ideal S1x1 .f32) (p q : Fin 512) :
    addPlane acc M R C a b c (ix2 p q)
      = acc (ix2 p q) + ((a (ix2 (0 : Fin 1) (0 : Fin 1)) * M (ix2 p q) + b (ix2 (0 : Fin 1) (0 : Fin 1)) * R (ix2 p (0 : Fin 1)))
          + c (ix2 (0 : Fin 1) (0 : Fin 1)) * C (ix2 (0 : Fin 1) q)) := by
  have e1 : broadcastTo S512x512 a broadcasts_S1x1_S512x512 (ix2 p q) = a (ix2 (0 : Fin 1) (0 : Fin 1)) :=
    broadcastTo_11_ab_apply a broadcasts_S1x1_S512x512 p q
  have e2 : broadcastTo S512x512 (mulf (broadcastTo S512x1 b broadcasts_S1x1_S512x1) R) broadcasts_S512x1_S512x512 (ix2 p q)
      = b (ix2 (0 : Fin 1) (0 : Fin 1)) * R (ix2 p (0 : Fin 1)) :=
    (broadcastTo_a1_ab_apply _ broadcasts_S512x1_S512x512 p q).trans
      (congrArg (fun y : EReal => y * R (ix2 p (0 : Fin 1))) (broadcastTo_11_ab_apply b broadcasts_S1x1_S512x1 p (0 : Fin 1)))
  have e3 : broadcastTo S512x512 (mulf (broadcastTo S1x512 c broadcasts_S1x1_S1x512) C) broadcasts_S1x512_S512x512 (ix2 p q)
      = c (ix2 (0 : Fin 1) (0 : Fin 1)) * C (ix2 (0 : Fin 1) q) :=
    (broadcastTo_1b_ab_apply _ broadcasts_S1x512_S512x512 p q).trans
      (congrArg (fun y : EReal => y * C (ix2 (0 : Fin 1) q)) (broadcastTo_11_ab_apply c broadcasts_S1x1_S1x512 (0 : Fin 1) q))
  show acc (ix2 p q) + broadcastTo S512x512 a broadcasts_S1x1_S512x512 (ix2 p q) * M (ix2 p q)
      + broadcastTo S512x512 (mulf (broadcastTo S512x1 b broadcasts_S1x1_S512x1) R) broadcasts_S512x1_S512x512 (ix2 p q)
      + broadcastTo S512x512 (mulf (broadcastTo S1x512 c broadcasts_S1x1_S1x512) C) broadcasts_S1x512_S512x512 (ix2 p q) = _
  rw [e1, e2, e3]
  exact add_plane_assoc _ _ _ _

/-- One bit plane, from its two loaded planes and three loaded coefficients, added to the running sum. -/
def plane (acc : FVec Ideal S512x512 .f32) (y : Vec Ideal S1x1x1x512x64 .f32) (z : Vec Ideal S1x1x1x64x512 .f32)
    (a b c : Vec Ideal S1x1x1x1x1 .f32) : FVec Ideal S512x512 .f32 :=
  addPlane acc (prodYZ (binY y) (binZ z)) (rowSums (binY y)) (colSums (binZ z)) (coef a) (coef b) (coef c)

theorem plane_apply (acc : FVec Ideal S512x512 .f32) (y : Vec Ideal S1x1x1x512x64 .f32) (z : Vec Ideal S1x1x1x64x512 .f32)
    (a b c : Vec Ideal S1x1x1x1x1 .f32) (p q : Fin 512) (Yf Zf : Fin 64 → EReal) (a0 b0 c0 : EReal)
    (hy : ∀ i, y (ix5 (0 : Fin 1) (0 : Fin 1) (0 : Fin 1) p i) = Yf i)
    (hz : ∀ i, z (ix5 (0 : Fin 1) (0 : Fin 1) (0 : Fin 1) i q) = Zf i)
    (ha : a (ix5 (0 : Fin 1) (0 : Fin 1) (0 : Fin 1) (0 : Fin 1) (0 : Fin 1)) = a0)
    (hb : b (ix5 (0 : Fin 1) (0 : Fin 1) (0 : Fin 1) (0 : Fin 1) (0 : Fin 1)) = b0)
    (hc : c (ix5 (0 : Fin 1) (0 : Fin 1) (0 : Fin 1) (0 : Fin 1) (0 : Fin 1)) = c0) :
    plane acc y z a b c (ix2 p q)
      = acc (ix2 p q) + ((a0 * (∑ i : Fin 64, bin (Yf i) * bin (Zf i)) + b0 * (∑ i : Fin 64, bin (Yf i))) + c0 * (∑ i : Fin 64, bin (Zf i))) := by
  unfold plane
  rw [addPlane_apply, prodYZ_apply, rowSums_apply, colSums_apply, coef_apply, coef_apply, coef_apply, ha, hb, hc]
  have s1 : (∑ i : Fin 64, binY y (ix2 p i) * binZ z (ix2 i q)) = ∑ i : Fin 64, bin (Yf i) * bin (Zf i) :=
    Finset.sum_congr rfl fun i _ => by rw [binY_apply, binZ_apply, hy i, hz i]
  have s2 : (∑ i : Fin 64, binY y (ix2 p i)) = ∑ i : Fin 64, bin (Yf i) :=
    Finset.sum_congr rfl fun i _ => by rw [binY_apply, hy i]
  have s3 : (∑ i : Fin 64, binZ z (ix2 i q)) = ∑ i : Fin 64, bin (Zf i) :=
    Finset.sum_congr rfl fun i _ => by rw [binZ_apply, hz i]
  rw [s1, s2, s3]

/-! ## Loads through the plane rectangles -/

/-- Plane `k` of a staged `[4, 1, 1, 512, 64]` block at `(0, 0, 0, p, i)` is the block at `(k, 0, 0, p, i)`. -/
theorem ldY (x : Vec Ideal S4x1x1x512x64 .f32) (k : Fin 4)
    (h : ∀ a, (![k.val, 0, 0, 0, 0] : Fin 5 → ℕ) a + S1x1x1x512x64.size a ≤ S4x1x1x512x64.size a) (p : Fin 512) (i : Fin 64) :
    View.ld x (Rect.unit (s := S4x1x1x512x64) ![k.val, 0, 0, 0, 0] S1x1x1x512x64.size h) (ix5 (0 : Fin 1) (0 : Fin 1) (0 : Fin 1) p i)
      = x (ix5 k (0 : Fin 1) (0 : Fin 1) p i) :=
  congrArg x (funext fun a => Fin.ext (by
    match a with
    | ⟨0, _⟩ => show k.val + 1 * 0 = k.val; omega
    | ⟨1, _⟩ => rfl
    | ⟨2, _⟩ => rfl
    | ⟨3, _⟩ => show 0 + 1 * p.val = p.val; omega
    | ⟨4, _⟩ => show 0 + 1 * i.val = i.val; omega))

/-- Plane `k` of a staged `[4, 1, 1, 64, 512]` block at `(0, 0, 0, i, q)` is the block at `(k, 0, 0, i, q)`. -/
theorem ldZ (x : Vec Ideal S4x1x1x64x512 .f32) (k : Fin 4)
    (h : ∀ a, (![k.val, 0, 0, 0, 0] : Fin 5 → ℕ) a + S1x1x1x64x512.size a ≤ S4x1x1x64x512.size a) (i : Fin 64) (q : Fin 512) :
    View.ld x (Rect.unit (s := S4x1x1x64x512) ![k.val, 0, 0, 0, 0] S1x1x1x64x512.size h) (ix5 (0 : Fin 1) (0 : Fin 1) (0 : Fin 1) i q)
      = x (ix5 k (0 : Fin 1) (0 : Fin 1) i q) :=
  congrArg x (funext fun a => Fin.ext (by
    match a with
    | ⟨0, _⟩ => show k.val + 1 * 0 = k.val; omega
    | ⟨1, _⟩ => rfl
    | ⟨2, _⟩ => rfl
    | ⟨3, _⟩ => show 0 + 1 * i.val = i.val; omega
    | ⟨4, _⟩ => show 0 + 1 * q.val = q.val; omega))

/-- Plane `k` of a staged `[4, 1, 1, 1, 1]` coefficient block is its entry `k`. -/
theorem ldA (x : Vec Ideal S4x1x1x1x1 .f32) (k : Fin 4)
    (h : ∀ a, (![k.val, 0, 0, 0, 0] : Fin 5 → ℕ) a + S1x1x1x1x1.size a ≤ S4x1x1x1x1.size a) :
    View.ld x (Rect.unit (s := S4x1x1x1x1) ![k.val, 0, 0, 0, 0] S1x1x1x1x1.size h) (ix5 (0 : Fin 1) (0 : Fin 1) (0 : Fin 1) (0 : Fin 1) (0 : Fin 1))
      = x (ix5 k (0 : Fin 1) (0 : Fin 1) (0 : Fin 1) (0 : Fin 1)) :=
  congrArg x (funext fun a => Fin.ext (by
    match a with
    | ⟨0, _⟩ => show k.val + 1 * 0 = k.val; omega
    | ⟨1, _⟩ => rfl
    | ⟨2, _⟩ => rfl
    | ⟨3, _⟩ => rfl
    | ⟨4, _⟩ => rfl))

/-- The staged offset block, loaded whole, at its one index. -/
theorem ldD (x : Vec Ideal S1x1x1x1 .f32) :
    View.ld x rD (ix4 (0 : Fin 1) (0 : Fin 1) (0 : Fin 1) (0 : Fin 1)) = x (ix4 (0 : Fin 1) (0 : Fin 1) (0 : Fin 1) (0 : Fin 1)) :=
  congrArg x (funext fun a => Fin.ext (by
    match a with
    | ⟨0, _⟩ => rfl
    | ⟨1, _⟩ => rfl
    | ⟨2, _⟩ => rfl
    | ⟨3, _⟩ => rfl))

/-- Bit plane `k`, read through its five rectangles, adds `planeTerm … k` to the running sum. -/
theorem plane_ld_apply (acc : FVec Ideal S512x512 .f32) (x0 : Vec Ideal S4x1x1x512x64 .f32) (x1 : Vec Ideal S4x1x1x64x512 .f32)
    (x2 x3 x4 : Vec Ideal S4x1x1x1x1 .f32) (k : Fin 4)
    (hY : ∀ a, (![k.val, 0, 0, 0, 0] : Fin 5 → ℕ) a + S1x1x1x512x64.size a ≤ S4x1x1x512x64.size a)
    (hZ : ∀ a, (![k.val, 0, 0, 0, 0] : Fin 5 → ℕ) a + S1x1x1x64x512.size a ≤ S4x1x1x64x512.size a)
    (hA : ∀ a, (![k.val, 0, 0, 0, 0] : Fin 5 → ℕ) a + S1x1x1x1x1.size a ≤ S4x1x1x1x1.size a) (p q : Fin 512) :
    plane acc (View.ld x0 (Rect.unit (s := S4x1x1x512x64) ![k.val, 0, 0, 0, 0] S1x1x1x512x64.size hY))
        (View.ld x1 (Rect.unit (s := S4x1x1x64x512) ![k.val, 0, 0, 0, 0] S1x1x1x64x512.size hZ))
        (View.ld x2 (Rect.unit (s := S4x1x1x1x1) ![k.val, 0, 0, 0, 0] S1x1x1x1x1.size hA))
        (View.ld x3 (Rect.unit (s := S4x1x1x1x1) ![k.val, 0, 0, 0, 0] S1x1x1x1x1.size hA))
        (View.ld x4 (Rect.unit (s := S4x1x1x1x1) ![k.val, 0, 0, 0, 0] S1x1x1x1x1.size hA)) (ix2 p q)
      = acc (ix2 p q) + planeTerm x0 x1 x2 x3 x4 k p q :=
  plane_apply acc _ _ _ _ _ p q (fun i => x0 (ix5 k (0 : Fin 1) (0 : Fin 1) p i)) (fun i => x1 (ix5 k (0 : Fin 1) (0 : Fin 1) i q))
    (x2 (ix5 k (0 : Fin 1) (0 : Fin 1) (0 : Fin 1) (0 : Fin 1))) (x3 (ix5 k (0 : Fin 1) (0 : Fin 1) (0 : Fin 1) (0 : Fin 1)))
    (x4 (ix5 k (0 : Fin 1) (0 : Fin 1) (0 : Fin 1) (0 : Fin 1)))
    (fun i => ldY x0 k hY p i) (fun i => ldZ x1 k hZ i q) (ldA x2 k hA) (ldA x3 k hA) (ldA x4 k hA)

/-! ## The four planes and the offset -/

theorem acc1_eq (x0 : Vec Ideal S4x1x1x512x64 .f32) (x1 : Vec Ideal S4x1x1x64x512 .f32) (x2 x3 x4 : Vec Ideal S4x1x1x1x1 .f32) :
    acc1 (F := Ideal) x0 x1 x2 x3 x4
      = plane (k0_pay2 (F := Ideal)) (View.ld x0 rY0) (View.ld x1 rZ0) (View.ld x2 rA0) (View.ld x3 rA0) (View.ld x4 rA0) := rfl

theorem acc2_eq (x0 : Vec Ideal S4x1x1x512x64 .f32) (x1 : Vec Ideal S4x1x1x64x512 .f32) (x2 x3 x4 : Vec Ideal S4x1x1x1x1 .f32) :
    acc2 (F := Ideal) x0 x1 x2 x3 x4
      = plane (acc1 (F := Ideal) x0 x1 x2 x3 x4) (View.ld x0 rY1) (View.ld x1 rZ1) (View.ld x2 rA1) (View.ld x3 rA1) (View.ld x4 rA1) := rfl

theorem acc3_eq (x0 : Vec Ideal S4x1x1x512x64 .f32) (x1 : Vec Ideal S4x1x1x64x512 .f32) (x2 x3 x4 : Vec Ideal S4x1x1x1x1 .f32) :
    acc3 (F := Ideal) x0 x1 x2 x3 x4
      = plane (acc2 (F := Ideal) x0 x1 x2 x3 x4) (View.ld x0 rY2) (View.ld x1 rZ2) (View.ld x2 rA2) (View.ld x3 rA2) (View.ld x4 rA2) := rfl

theorem wpay_eq (x0 : Vec Ideal S4x1x1x512x64 .f32) (x1 : Vec Ideal S4x1x1x64x512 .f32) (x2 x3 x4 : Vec Ideal S4x1x1x1x1 .f32) (x5 : Vec Ideal S1x1x1x1 .f32) :
    wpay (F := Ideal) x0 x1 x2 x3 x4 x5
      = addf (plane (acc3 (F := Ideal) x0 x1 x2 x3 x4) (View.ld x0 rY3) (View.ld x1 rZ3) (View.ld x2 rA3) (View.ld x3 rA3) (View.ld x4 rA3))
          (offsetTile (View.ld x5 rD)) := rfl

theorem acc1_apply (x0 : Vec Ideal S4x1x1x512x64 .f32) (x1 : Vec Ideal S4x1x1x64x512 .f32) (x2 x3 x4 : Vec Ideal S4x1x1x1x1 .f32) (p q : Fin 512) :
    acc1 (F := Ideal) x0 x1 x2 x3 x4 (ix2 p q) = planeTerm x0 x1 x2 x3 x4 0 p q := by
  rw [acc1_eq]
  refine (plane_ld_apply (k0_pay2 (F := Ideal)) x0 x1 x2 x3 x4 0 inb_S4x1x1x512x64_S1x1x1x512x64_0_0_0_0_0
    inb_S4x1x1x64x512_S1x1x1x64x512_0_0_0_0_0 inb_S4x1x1x1x1_S1x1x1x1x1_0_0_0_0_0 p q).trans ?_
  rw [zeroTile_apply, zero_add]

theorem acc2_apply (x0 : Vec Ideal S4x1x1x512x64 .f32) (x1 : Vec Ideal S4x1x1x64x512 .f32) (x2 x3 x4 : Vec Ideal S4x1x1x1x1 .f32) (p q : Fin 512) :
    acc2 (F := Ideal) x0 x1 x2 x3 x4 (ix2 p q) = planeTerm x0 x1 x2 x3 x4 0 p q + planeTerm x0 x1 x2 x3 x4 1 p q := by
  rw [acc2_eq]
  refine (plane_ld_apply (acc1 (F := Ideal) x0 x1 x2 x3 x4) x0 x1 x2 x3 x4 1 inb_S4x1x1x512x64_S1x1x1x512x64_1_0_0_0_0
    inb_S4x1x1x64x512_S1x1x1x64x512_1_0_0_0_0 inb_S4x1x1x1x1_S1x1x1x1x1_1_0_0_0_0 p q).trans ?_
  rw [acc1_apply]

theorem acc3_apply (x0 : Vec Ideal S4x1x1x512x64 .f32) (x1 : Vec Ideal S4x1x1x64x512 .f32) (x2 x3 x4 : Vec Ideal S4x1x1x1x1 .f32) (p q : Fin 512) :
    acc3 (F := Ideal) x0 x1 x2 x3 x4 (ix2 p q)
      = (planeTerm x0 x1 x2 x3 x4 0 p q + planeTerm x0 x1 x2 x3 x4 1 p q) + planeTerm x0 x1 x2 x3 x4 2 p q := by
  rw [acc3_eq]
  refine (plane_ld_apply (acc2 (F := Ideal) x0 x1 x2 x3 x4) x0 x1 x2 x3 x4 2 inb_S4x1x1x512x64_S1x1x1x512x64_2_0_0_0_0
    inb_S4x1x1x64x512_S1x1x1x64x512_2_0_0_0_0 inb_S4x1x1x1x1_S1x1x1x1x1_2_0_0_0_0 p q).trans ?_
  rw [acc2_apply]

/-- The stored value at (p, q) is the block-level weight. -/
theorem wpay_apply (x0 : Vec Ideal S4x1x1x512x64 .f32) (x1 : Vec Ideal S4x1x1x64x512 .f32) (x2 x3 x4 : Vec Ideal S4x1x1x1x1 .f32) (x5 : Vec Ideal S1x1x1x1 .f32) (p q : Fin 512) :
    wpay (F := Ideal) x0 x1 x2 x3 x4 x5 (ix2 p q) = wBlk x0 x1 x2 x3 x4 x5 p q := by
  rw [wpay_eq, addf_apply, wBlk_eq_planes, offsetTile_apply, ldD]
  refine congrArg (fun y : EReal => y + x5 (ix4 (0 : Fin 1) (0 : Fin 1) (0 : Fin 1) (0 : Fin 1))) ?_
  refine (plane_ld_apply (acc3 (F := Ideal) x0 x1 x2 x3 x4) x0 x1 x2 x3 x4 3 inb_S4x1x1x512x64_S1x1x1x512x64_3_0_0_0_0
    inb_S4x1x1x64x512_S1x1x1x64x512_3_0_0_0_0 inb_S4x1x1x1x1_S1x1x1x1x1_3_0_0_0_0 p q).trans ?_
  rw [acc3_apply]

end Cert.KernelIdeal.Val

end
-- ==== Proof.KI.Val0.lean ====
/-
  Region 0's output array, read after the run, is the specification's weight matrix of the six argument arrays.

  Grid point t is tile (t / 8, t % 8).  Each input window's block at t is its array read at that tile (a block's
  coordinate is block index * block size + the coordinate inside the block), so the block-level weight of the six blocks
  at (p, q) is the specification's tile (t / 8, t % 8) at (p, q).  The output window's block at t is rows
  (t / 8) * 512 .. + 511 and columns (t % 8) * 512 .. + 511 of the 4096 x 4096 matrix: row (t / 8) * 512 + p has tile
  t / 8 and offset p, likewise the column, so point t writes block t of the weight matrix.  Row r, column s lie in the
  block of tile (r / 512, s / 512); the 64 blocks cover the matrix, and the array ends holding the weight matrix.
-/
import proofs.«109794_j25589415149863_1_alg».proof.Proof.KI.Val0Pay
import proofs.«109794_j25589415149863_1_alg».proof.Proof.KI.Reg0
import proofs.«109794_j25589415149863_1_alg».proof.Proof.Spec
import Idealize.ShloMosaic.Lib.Pipeline.Value
import Idealize.ShloMosaic.Lib.ValueIdx

noncomputable section

namespace Cert.KernelIdeal.Val

open Cert.KernelIdeal Cert.KernelIdeal.Gen Cert.KernelIdeal.Fr Cert.Spec Idealize.ShloMosaic Idealize.ShloMosaic.ValueIdx
open Idealize.ShloMosaic.TcCoe Idealize.SL.Sem
open Idealize.ShloMosaic.Pipeline (Dat)

namespace R0

/-! ## The grid: point t is tile (t / 8, t % 8) -/

/-- the tile row of grid point t -/
def rwOf (t : Fin cfg0.N) : Fin 8 := ⟨t.val / 8, Nat.div_lt_of_lt_mul (lt_of_lt_of_eq t.isLt N_0)⟩
/-- the tile column of grid point t -/
def cwOf (t : Fin cfg0.N) : Fin 8 := ⟨t.val % 8, Nat.mod_lt _ (by decide)⟩

/-- the seven index maps at every grid point, axis by axis -/
theorem idx_facts : ∀ t : Fin cfg0.N,
    (win0_0.index t (0 : Fin 5) = 0 ∧ win0_0.index t (1 : Fin 5) = t.val / 8 ∧ win0_0.index t (2 : Fin 5) = t.val % 8 ∧ win0_0.index t (3 : Fin 5) = 0 ∧ win0_0.index t (4 : Fin 5) = 0)
    ∧ (win0_1.index t (0 : Fin 5) = 0 ∧ win0_1.index t (1 : Fin 5) = t.val / 8 ∧ win0_1.index t (2 : Fin 5) = t.val % 8 ∧ win0_1.index t (3 : Fin 5) = 0 ∧ win0_1.index t (4 : Fin 5) = 0)
    ∧ (win0_2.index t (0 : Fin 5) = 0 ∧ win0_2.index t (1 : Fin 5) = t.val / 8 ∧ win0_2.index t (2 : Fin 5) = t.val % 8 ∧ win0_2.index t (3 : Fin 5) = 0 ∧ win0_2.index t (4 : Fin 5) = 0)
    ∧ (win0_3.index t (0 : Fin 5) = 0 ∧ win0_3.index t (1 : Fin 5) = t.val / 8 ∧ win0_3.index t (2 : Fin 5) = t.val % 8 ∧ win0_3.index t (3 : Fin 5) = 0 ∧ win0_3.index t (4 : Fin 5) = 0)
    ∧ (win0_4.index t (0 : Fin 5) = 0 ∧ win0_4.index t (1 : Fin 5) = t.val / 8 ∧ win0_4.index t (2 : Fin 5) = t.val % 8 ∧ win0_4.index t (3 : Fin 5) = 0 ∧ win0_4.index t (4 : Fin 5) = 0)
    ∧ (win0_5.index t (0 : Fin 4) = t.val / 8 ∧ win0_5.index t (1 : Fin 4) = t.val % 8 ∧ win0_5.index t (2 : Fin 4) = 0 ∧ win0_5.index t (3 : Fin 4) = 0)
    ∧ (win0_6.index t (0 : Fin 2) = t.val / 8 ∧ win0_6.index t (1 : Fin 2) = t.val % 8) :=
  (by decide +kernel : ∀ t : Fin grid0.N, _)

section Blocks

variable (V : (c : Dev nD) → (b : Ref sig .tc) → Buf (Elt Ideal) ((c : Thread nD τ).loc b))

/-! ## The six arrays and their blocks at a point, under their literal types -/

abbrev arrY (c : Dev nD) : S4x8x8x512x64.Idx → EReal := V c main_arg1
abbrev arrZ (c : Dev nD) : S4x8x8x64x512.Idx → EReal := V c main_arg2
abbrev arrA (c : Dev nD) : S4x8x8x1x1.Idx → EReal := V c main_arg3
abbrev arrB (c : Dev nD) : S4x8x8x1x1.Idx → EReal := V c main_arg4
abbrev arrC (c : Dev nD) : S4x8x8x1x1.Idx → EReal := V c main_arg5
abbrev arrD (c : Dev nD) : S8x8x1x1.Idx → EReal := V c main_arg6
abbrev blkY (c : Dev nD) (t : Fin cfg0.N) : Vec Ideal S4x1x1x512x64 .f32 := iblk0 V c 0 t
abbrev blkZ (c : Dev nD) (t : Fin cfg0.N) : Vec Ideal S4x1x1x64x512 .f32 := iblk0 V c 1 t
abbrev blkA (c : Dev nD) (t : Fin cfg0.N) : Vec Ideal S4x1x1x1x1 .f32 := iblk0 V c 2 t
abbrev blkB (c : Dev nD) (t : Fin cfg0.N) : Vec Ideal S4x1x1x1x1 .f32 := iblk0 V c 3 t
abbrev blkC (c : Dev nD) (t : Fin cfg0.N) : Vec Ideal S4x1x1x1x1 .f32 := iblk0 V c 4 t
abbrev blkD (c : Dev nD) (t : Fin cfg0.N) : Vec Ideal S1x1x1x1 .f32 := iblk0 V c 5 t

/-! ## Each block read where its array holds it: coordinate = block index * block size + offset in the block -/

theorem blkY_apply (c : Dev nD) (t : Fin cfg0.N) (bit : Fin 4) (p : Fin 512) (i : Fin 64) :
    blkY V c t (ix5 bit (0 : Fin 1) (0 : Fin 1) p i) = arrY V c (ix5 bit (rwOf t) (cwOf t) p i) := by
  obtain ⟨⟨e0, e1, e2, e3, e4⟩, -⟩ := idx_facts t
  show arrY V c (((cfg0.win 0).blk t).view.emb (ix5 bit (0 : Fin 1) (0 : Fin 1) p i)) = _
  refine congrArg (arrY V c) (funext fun a => Fin.ext ?_)
  match a with
  | ⟨0, _⟩ => show win0_0.index t (0 : Fin 5) * 4 + 1 * bit.val = bit.val; omega
  | ⟨1, _⟩ => show win0_0.index t (1 : Fin 5) * 1 + 1 * 0 = t.val / 8; omega
  | ⟨2, _⟩ => show win0_0.index t (2 : Fin 5) * 1 + 1 * 0 = t.val % 8; omega
  | ⟨3, _⟩ => show win0_0.index t (3 : Fin 5) * 512 + 1 * p.val = p.val; omega
  | ⟨4, _⟩ => show win0_0.index t (4 : Fin 5) * 64 + 1 * i.val = i.val; omega

theorem blkZ_apply (c : Dev nD) (t : Fin cfg0.N) (bit : Fin 4) (i : Fin 64) (q : Fin 512) :
    blkZ V c t (ix5 bit (0 : Fin 1) (0 : Fin 1) i q) = arrZ V c (ix5 bit (rwOf t) (cwOf t) i q) := by
  obtain ⟨-, ⟨e0, e1, e2, e3, e4⟩, -⟩ := idx_facts t
  show arrZ V c (((cfg0.win 1).blk t).view.emb (ix5 bit (0 : Fin 1) (0 : Fin 1) i q)) = _
  refine congrArg (arrZ V c) (funext fun a => Fin.ext ?_)
  match a with
  | ⟨0, _⟩ => show win0_1.index t (0 : Fin 5) * 4 + 1 * bit.val = bit.val; omega
  | ⟨1, _⟩ => show win0_1.index t (1 : Fin 5) * 1 + 1 * 0 = t.val / 8; omega
  | ⟨2, _⟩ => show win0_1.index t (2 : Fin 5) * 1 + 1 * 0 = t.val % 8; omega
  | ⟨3, _⟩ => show win0_1.index t (3 : Fin 5) * 64 + 1 * i.val = i.val; omega
  | ⟨4, _⟩ => show win0_1.index t (4 : Fin 5) * 512 + 1 * q.val = q.val; omega

theorem blkA_apply (c : Dev nD) (t : Fin cfg0.N) (bit : Fin 4) :
    blkA V c t (ix5 bit (0 : Fin 1) (0 : Fin 1) (0 : Fin 1) (0 : Fin 1)) = arrA V c (ix5 bit (rwOf t) (cwOf t) (0 : Fin 1) (0 : Fin 1)) := by
  obtain ⟨-, -, ⟨e0, e1, e2, e3, e4⟩, -⟩ := idx_facts t
  show arrA V c (((cfg0.win 2).blk t).view.emb (ix5 bit (0 : Fin 1) (0 : Fin 1) (0 : Fin 1) (0 : Fin 1))) = _
  refine congrArg (arrA V c) (funext fun a => Fin.ext ?_)
  match a with
  | ⟨0, _⟩ => show win0_2.index t (0 : Fin 5) * 4 + 1 * bit.val = bit.val; omega
  | ⟨1, _⟩ => show win0_2.index t (1 : Fin 5) * 1 + 1 * 0 = t.val / 8; omega
  | ⟨2, _⟩ => show win0_2.index t (2 : Fin 5) * 1 + 1 * 0 = t.val % 8; omega
  | ⟨3, _⟩ => show win0_2.index t (3 : Fin 5) * 1 + 1 * 0 = 0; omega
  | ⟨4, _⟩ => show win0_2.index t (4 : Fin 5) * 1 + 1 * 0 = 0; omega

theorem blkB_apply (c : Dev nD) (t : Fin cfg0.N) (bit : Fin 4) :
    blkB V c t (ix5 bit (0 : Fin 1) (0 : Fin 1) (0 : Fin 1) (0 : Fin 1)) = arrB V c (ix5 bit (rwOf t) (cwOf t) (0 : Fin 1) (0 : Fin 1)) := by
  obtain ⟨-, -, -, ⟨e0, e1, e2, e3, e4⟩, -⟩ := idx_facts t
  show arrB V c (((cfg0.win 3).blk t).view.emb (ix5 bit (0 : Fin 1) (0 : Fin 1) (0 : Fin 1) (0 : Fin 1))) = _
  refine congrArg (arrB V c) (funext fun a => Fin.ext ?_)
  match a with
  | ⟨0, _⟩ => show win0_3.index t (0 : Fin 5) * 4 + 1 * bit.val = bit.val; omega
  | ⟨1, _⟩ => show win0_3.index t (1 : Fin 5) * 1 + 1 * 0 = t.val / 8; omega
  | ⟨2, _⟩ => show win0_3.index t (2 : Fin 5) * 1 + 1 * 0 = t.val % 8; omega
  | ⟨3, _⟩ => show win0_3.index t (3 : Fin 5) * 1 + 1 * 0 = 0; omega
  | ⟨4, _⟩ => show win0_3.index t (4 : Fin 5) * 1 + 1 * 0 = 0; omega

theorem blkC_apply (c : Dev nD) (t : Fin cfg0.N) (bit : Fin 4) :
    blkC V c t (ix5 bit (0 : Fin 1) (0 : Fin 1) (0 : Fin 1) (0 : Fin 1)) = arrC V c (ix5 bit (rwOf t) (cwOf t) (0 : Fin 1) (0 : Fin 1)) := by
  obtain ⟨-, -, -, -, ⟨e0, e1, e2, e3, e4⟩, -⟩ := idx_facts t
  show arrC V c (((cfg0.win 4).blk t).view.emb (ix5 bit (0 : Fin 1) (0 : Fin 1) (0 : Fin 1) (0 : Fin 1))) = _
  refine congrArg (arrC V c) (funext fun a => Fin.ext ?_)
  match a with
  | ⟨0, _⟩ => show win0_4.index t (0 : Fin 5) * 4 + 1 * bit.val = bit.val; omega
  | ⟨1, _⟩ => show win0_4.index t (1 : Fin 5) * 1 + 1 * 0 = t.val / 8; omega
  | ⟨2, _⟩ => show win0_4.index t (2 : Fin 5) * 1 + 1 * 0 = t.val % 8; omega
  | ⟨3, _⟩ => show win0_4.index t (3 : Fin 5) * 1 + 1 * 0 = 0; omega
  | ⟨4, _⟩ => show win0_4.index t (4 : Fin 5) * 1 + 1 * 0 = 0; omega

theorem blkD_apply (c : Dev nD) (t : Fin cfg0.N) :
    blkD V c t (ix4 (0 : Fin 1) (0 : Fin 1) (0 : Fin 1) (0 : Fin 1)) = arrD V c (ix4 (rwOf t) (cwOf t) (0 : Fin 1) (0 : Fin 1)) := by
  obtain ⟨-, -, -, -, -, ⟨e0, e1, e2, e3⟩, -⟩ := idx_facts t
  show arrD V c (((cfg0.win 5).blk t).view.emb (ix4 (0 : Fin 1) (0 : Fin 1) (0 : Fin 1) (0 : Fin 1))) = _
  refine congrArg (arrD V c) (funext fun a => Fin.ext ?_)
  match a with
  | ⟨0, _⟩ => show win0_5.index t (0 : Fin 4) * 1 + 1 * 0 = t.val / 8; omega
  | ⟨1, _⟩ => show win0_5.index t (1 : Fin 4) * 1 + 1 * 0 = t.val % 8; omega
  | ⟨2, _⟩ => show win0_5.index t (2 : Fin 4) * 1 + 1 * 0 = 0; omega
  | ⟨3, _⟩ => show win0_5.index t (3 : Fin 4) * 1 + 1 * 0 = 0; omega

/-! ## The block-level weight is the tile of the specification -/

/-- blocks that are reads of the arrays at tile (rw, cw) give that tile's weight -/
theorem wBlk_eq_wTile (Y : S4x8x8x512x64.Idx → EReal) (Z : S4x8x8x64x512.Idx → EReal) (a b c' : S4x8x8x1x1.Idx → EReal) (d : S8x8x1x1.Idx → EReal)
    (x0 : Vec Ideal S4x1x1x512x64 .f32) (x1 : Vec Ideal S4x1x1x64x512 .f32) (x2 x3 x4 : Vec Ideal S4x1x1x1x1 .f32) (x5 : Vec Ideal S1x1x1x1 .f32)
    (rw cw : Fin 8)
    (h0 : ∀ (bit : Fin 4) (p : Fin 512) (i : Fin 64), x0 (ix5 bit (0 : Fin 1) (0 : Fin 1) p i) = Y (ix5 bit rw cw p i))
    (h1 : ∀ (bit : Fin 4) (i : Fin 64) (q : Fin 512), x1 (ix5 bit (0 : Fin 1) (0 : Fin 1) i q) = Z (ix5 bit rw cw i q))
    (h2 : ∀ bit : Fin 4, x2 (ix5 bit (0 : Fin 1) (0 : Fin 1) (0 : Fin 1) (0 : Fin 1)) = a (ix5 bit rw cw (0 : Fin 1) (0 : Fin 1)))
    (h3 : ∀ bit : Fin 4, x3 (ix5 bit (0 : Fin 1) (0 : Fin 1) (0 : Fin 1) (0 : Fin 1)) = b (ix5 bit rw cw (0 : Fin 1) (0 : Fin 1)))
    (h4 : ∀ bit : Fin 4, x4 (ix5 bit (0 : Fin 1) (0 : Fin 1) (0 : Fin 1) (0 : Fin 1)) = c' (ix5 bit rw cw (0 : Fin 1) (0 : Fin 1)))
    (h5 : x5 (ix4 (0 : Fin 1) (0 : Fin 1) (0 : Fin 1) (0 : Fin 1)) = d (ix4 rw cw (0 : Fin 1) (0 : Fin 1)))
    (p q : Fin 512) :
    wBlk x0 x1 x2 x3 x4 x5 p q = wTile Y Z a b c' d rw cw p q := by
  unfold wBlk wTile
  rw [h5]
  refine congrArg (· + _) (Finset.sum_congr rfl fun bit _ => ?_)
  rw [h2, h3, h4]
  simp only [h0, h1]

/-! ## What a point writes back -/

theorem hzW : (![0, 0] : Fin 2 → Nat) = fun _ => 0 := funext fun a => by fin_cases a <;> rfl

/-- point t writes block t of the weight matrix -/
theorem flushed_eq (c : Dev nD) (t : Fin cfg0.N) :
    (dat0 (F := Ideal) V c).flushed 6 t
      = ((cfg0.win 6).blk t).view.read (Elt Ideal) (wArr (arrY V c) (arrZ V c) (arrA V c) (arrB V c) (arrC V c) (arrD V c)) := by
  show (cfg0.win 6).cut (grid0.coords t) ((dat0 (F := Ideal) V c).after 6 t) = _
  rw [after0_6]
  unfold out0_6
  rw [View.canon_unit_zero hzW]
  obtain ⟨-, -, -, -, -, -, ⟨e0, e1⟩⟩ := idx_facts t
  funext j
  obtain ⟨p, q, rfl⟩ : ∃ (p q : Fin 512), j = ix2 p q := ⟨j 0, j 1, eq_ix2 j⟩
  show wpay (F := Ideal) (blkY V c t) (blkZ V c t) (blkA V c t) (blkB V c t) (blkC V c t) (blkD V c t) (ix2 p q)
    = wArr (arrY V c) (arrZ V c) (arrA V c) (arrB V c) (arrC V c) (arrD V c) (((cfg0.win 6).blk t).view.emb (ix2 p q))
  refine (wpay_apply (blkY V c t) (blkZ V c t) (blkA V c t) (blkB V c t) (blkC V c t) (blkD V c t) p q).trans ?_
  refine (wBlk_eq_wTile (arrY V c) (arrZ V c) (arrA V c) (arrB V c) (arrC V c) (arrD V c)
    (blkY V c t) (blkZ V c t) (blkA V c t) (blkB V c t) (blkC V c t) (blkD V c t) (rwOf t) (cwOf t)
    (blkY_apply V c t) (blkZ_apply V c t) (blkA_apply V c t) (blkB_apply V c t) (blkC_apply V c t) (blkD_apply V c t) p q).trans ?_
  have hn : (((cfg0.win 6).blk t).view.emb (ix2 p q) (0 : Fin 2)).val = t.val / 8 * 512 + p.val := by
    show win0_6.index t (0 : Fin 2) * 512 + 1 * p.val = _; omega
  have hk : (((cfg0.win 6).blk t).view.emb (ix2 p q) (1 : Fin 2)).val = t.val % 8 * 512 + q.val := by
    show win0_6.index t (1 : Fin 2) * 512 + 1 * q.val = _; omega
  have hp : p.val < 512 := p.isLt
  have hq : q.val < 512 := q.isLt
  show _ = wTile (arrY V c) (arrZ V c) (arrA V c) (arrB V c) (arrC V c) (arrD V c)
    (tileOf (((cfg0.win 6).blk t).view.emb (ix2 p q) (0 : Fin 2))) (tileOf (((cfg0.win 6).blk t).view.emb (ix2 p q) (1 : Fin 2)))
    (offOf (((cfg0.win 6).blk t).view.emb (ix2 p q) (0 : Fin 2))) (offOf (((cfg0.win 6).blk t).view.emb (ix2 p q) (1 : Fin 2)))
  have t0 : tileOf (((cfg0.win 6).blk t).view.emb (ix2 p q) (0 : Fin 2)) = rwOf t := Fin.ext (by show _ / 512 = t.val / 8; rw [hn]; omega)
  have t1 : tileOf (((cfg0.win 6).blk t).view.emb (ix2 p q) (1 : Fin 2)) = cwOf t := Fin.ext (by show _ / 512 = t.val % 8; rw [hk]; omega)
  have o0 : offOf (((cfg0.win 6).blk t).view.emb (ix2 p q) (0 : Fin 2)) = p := Fin.ext (by show _ % 512 = p.val; rw [hn]; omega)
  have o1 : offOf (((cfg0.win 6).blk t).view.emb (ix2 p q) (1 : Fin 2)) = q := Fin.ext (by show _ % 512 = q.val; rw [hk]; omega)
  rw [t0, t1, o0, o1]

/-! ## The blocks cover the matrix -/

/-- an index is in point t's block iff each coordinate is in the block's range on its axis -/
theorem mem_blk (t : Fin cfg0.N) (i : S4096x4096.Idx) :
    i ∈ ((cfg0.win 6).blk t).view.set ↔ ∀ a : Fin 2, win0_6.index t a * S512x512.size a ≤ (i a).val ∧ (i a).val < win0_6.index t a * S512x512.size a + S512x512.size a := by
  show i ∈ ((View.whole main_v0).slice (win0_6.rect t)).set ↔ _
  rw [View.set_slice_whole, Rect.mem_set_unit]
  exact Iff.rfl

/-- every tile is some point's -/
theorem idx_onto : ∀ (r s : Fin 8), ∃ t : Fin cfg0.N, win0_6.index t (0 : Fin 2) = r.val ∧ win0_6.index t (1 : Fin 2) = s.val :=
  (by decide +kernel : ∀ (r s : Fin 8), ∃ t : Fin grid0.N, win0_6.index t (0 : Fin 2) = r.val ∧ win0_6.index t (1 : Fin 2) = s.val)

/-- row r, column s of the matrix lie in the block of tile (r / 512, s / 512) -/
theorem cover (i : S4096x4096.Idx) : ∃ t : Fin cfg0.N, (cfg0.win 6).flush t = true ∧ i ∈ ((cfg0.win 6).blk t).view.set := by
  have hi0 : (i 0).val < 4096 := (i 0).isLt
  have hi1 : (i 1).val < 4096 := (i 1).isLt
  obtain ⟨t, q0, q1⟩ := idx_onto ⟨(i 0).val / 512, by omega⟩ ⟨(i 1).val / 512, by omega⟩
  refine ⟨t, flush0_6 t, ?_⟩
  rw [mem_blk]
  intro a
  match a with
  | ⟨0, _⟩ => show win0_6.index t (0 : Fin 2) * 512 ≤ (i 0).val ∧ (i 0).val < win0_6.index t (0 : Fin 2) * 512 + 512; rw [q0]; show (i 0).val / 512 * 512 ≤ (i 0).val ∧ (i 0).val < (i 0).val / 512 * 512 + 512; omega
  | ⟨1, _⟩ => show win0_6.index t (1 : Fin 2) * 512 ≤ (i 1).val ∧ (i 1).val < win0_6.index t (1 : Fin 2) * 512 + 512; rw [q1]; show (i 1).val / 512 * 512 ≤ (i 1).val ∧ (i 1).val < (i 1).val / 512 * 512 + 512; omega

end Blocks

end R0

/-! ## The array after the run -/

/-- the weight array after region 0 is the specification's weight matrix of the six argument arrays -/
theorem arr0_eq (V : (c : Dev nD) → (b : Ref sig .tc) → Buf (Elt Ideal) ((c : Thread nD τ).loc b)) (c : Dev nD) :
    (dat0 (F := Ideal) V c).arrAt 6 cfg0.N = Cert.Spec.wArr (V c main_arg1) (V c main_arg2) (V c main_arg3) (V c main_arg4) (V c main_arg5) (V c main_arg6) :=
  (dat0 (F := Ideal) V c).arrAt_eq_of_cover 6 (wArr (R0.arrY V c) (R0.arrZ V c) (R0.arrA V c) (R0.arrB V c) (R0.arrC V c) (R0.arrD V c))
    (fun t _ => R0.flushed_eq V c t) R0.cover

end Cert.KernelIdeal.Val

end
-- ==== Proof.KI.Pieces1.lean ====
/-
  What the matrix-product kernel leaves at one grid point, as values of its payloads.

  Every load of the body is of a whole staged block and every store is over a whole tile, so the pieces a point leaves
  in the accumulator and in the output block read back as the payloads themselves: where k = 0 the accumulator ends at
  zero plus the product of the two staged blocks; where k > 0 at what it held plus that product; and where k = 7 the
  output block ends at that sum plus the staged bias row.
-/
import proofs.«109794_j25589415149863_1_alg».proof.Proof.KI.Reg1
import Idealize.ShloMosaic.Lib.Pipeline.Value
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A tile's rectangle starts at the origin, -/
theorem hz1 : (![0, 0] : Fin S1024x1024.rank → Nat) = fun _ => 0 := by
  funext a; fin_cases a <;> rfl
/-- and so does a staged block's, and the bias row's. -/
theorem hz1b : (![0, 0] : Fin S1024x512.rank → Nat) = fun _ => 0 := by
  funext a; fin_cases a <;> rfl
theorem hz1r : (![0] : Fin S1024.rank → Nat) = fun _ => 0 := by
  funext a; fin_cases a; rfl

/-- Where k = 0: the accumulator is zeroed, read back, and the product added. -/
theorem sout1_A_0_eq (c : Dev nD) (i : grid1.Coords) (arg3 : Memref sig .tc .vmem S1024x512 .f32) (harg3 : arg3.IsWhole) (arg4 : Memref sig .tc .vmem S1024x512 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i) (x0 : Vec F S1024x512 .f32) (x1 : Vec F S1024x512 .f32) (x2 : Vec F S1024 .f32) :
    sout1_A_0 c i arg3 harg3 arg4 harg4 arg5 harg5 arg6 harg6 arg7 harg7 hc0 hc1 x0 x1 x2 = k1_pay2 x0 x1 (k1_pay1 (F := F)) := by
  unfold sout1_A_0
  rw [View.read_writes_eq_canon _ _ _ (scover1_A_0 c i arg3 harg3 arg4 harg4 arg5 harg5 arg6 harg6 arg7 harg7 hc0 hc1 x0 x1 x2)]
  unfold kernelRun1_A
  dsimp only
  sl_unfold_words
  rw [View.canon_cons_unit_zero (S := S1024x1024) hz1]
  simp only [View.readAt_eq_ld, harg3.read_unread, harg4.read_unread, harg5.read_unread, harg7.read_unread,
    View.ld_unit_zero (S := S1024x512) hz1b, View.ld_unit_zero (S := S1024x1024) hz1, View.ld_unit_zero (S := S1024) hz1r,
    View.readCov_unit_zero (S := S1024x1024) _ hz1]

/-- Where 0 < k < 7: the product is added to what the accumulator held. -/
theorem sout1_B_0_eq (c : Dev nD) (i : grid1.Coords) (arg3 : Memref sig .tc .vmem S1024x512 .f32) (harg3 : arg3.IsWhole) (arg4 : Memref sig .tc .vmem S1024x512 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i) (x0 : Vec F S1024x512 .f32) (x1 : Vec F S1024x512 .f32) (x2 : Vec F S1024 .f32) (xs0 : Vec F S1024x1024 .f32) :
    sout1_B_0 c i arg3 harg3 arg4 harg4 arg5 harg5 arg6 harg6 arg7 harg7 hc0 hc1 x0 x1 x2 xs0 = k1_pay2 x0 x1 xs0 := by
  unfold sout1_B_0
  rw [View.read_writes_eq_canon _ _ _ (scover1_B_0 c i arg3 harg3 arg4 harg4 arg5 harg5 arg6 harg6 arg7 harg7 hc0 hc1 x0 x1 x2 xs0)]
  unfold kernelRun1_B
  dsimp only
  sl_unfold_words
  rw [View.canon_unit_zero (S := S1024x1024) hz1]
  simp only [View.readAt_eq_ld, harg3.read_unread, harg4.read_unread, harg5.read_unread, harg7.read_unread,
    View.ld_unit_zero (S := S1024x512) hz1b, View.ld_unit_zero (S := S1024x1024) hz1, View.ld_unit_zero (S := S1024) hz1r,
    View.readCov_unit_zero (S := S1024x1024) _ hz1]

/-- Where k = 7: the same for the accumulator, -/
theorem sout1_C_0_eq (c : Dev nD) (i : grid1.Coords) (arg3 : Memref sig .tc .vmem S1024x512 .f32) (harg3 : arg3.IsWhole) (arg4 : Memref sig .tc .vmem S1024x512 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i) (x0 : Vec F S1024x512 .f32) (x1 : Vec F S1024x512 .f32) (x2 : Vec F S1024 .f32) (xs0 : Vec F S1024x1024 .f32) :
    sout1_C_0 c i arg3 harg3 arg4 harg4 arg5 harg5 arg6 harg6 arg7 harg7 hc0 hc1 x0 x1 x2 xs0 = k1_pay2 x0 x1 xs0 := by
  unfold sout1_C_0
  rw [View.read_writes_eq_canon _ _ _ (scover1_C_0 c i arg3 harg3 arg4 harg4 arg5 harg5 arg6 harg6 arg7 harg7 hc0 hc1 x0 x1 x2 xs0)]
  unfold kernelRun1_C
  dsimp only
  sl_unfold_words
  rw [View.canon_unit_zero (S := S1024x1024) hz1]
  simp only [View.readAt_eq_ld, harg3.read_unread, harg4.read_unread, harg5.read_unread, harg7.read_unread,
    View.ld_unit_zero (S := S1024x512) hz1b, View.ld_unit_zero (S := S1024x1024) hz1, View.ld_unit_zero (S := S1024) hz1r,
    View.readCov_unit_zero (S := S1024x1024) _ hz1]

/-- and the output block gets that sum plus the bias row. -/
theorem out1_C_3_eq (c : Dev nD) (i : grid1.Coords) (arg3 : Memref sig .tc .vmem S1024x512 .f32) (harg3 : arg3.IsWhole) (arg4 : Memref sig .tc .vmem S1024x512 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i) (x0 : Vec F S1024x512 .f32) (x1 : Vec F S1024x512 .f32) (x2 : Vec F S1024 .f32) (xs0 : Vec F S1024x1024 .f32) :
    out1_C_3 c i arg3 harg3 arg4 harg4 arg5 harg5 arg6 harg6 arg7 harg7 hc0 hc1 x0 x1 x2 xs0 = k1_pay3 (k1_pay2 x0 x1 xs0) x2 := by
  unfold out1_C_3
  rw [View.read_writes_eq_canon _ _ _ (cover1_C_3 c i arg3 harg3 arg4 harg4 arg5 harg5 arg6 harg6 arg7 harg7 hc0 hc1 x0 x1 x2 xs0)]
  unfold kernelRun1_C
  dsimp only
  sl_unfold_words
  rw [View.canon_unit_zero (S := S1024x1024) hz1]
  simp only [View.readAt_eq_ld, harg3.read_unread, harg4.read_unread, harg5.read_unread, harg7.read_unread,
    View.ld_unit_zero (S := S1024x512) hz1b, View.ld_unit_zero (S := S1024x1024) hz1, View.ld_unit_zero (S := S1024) hz1r,
    View.readCov_unit_zero (S := S1024x1024) _ hz1]

end Cert.KernelIdeal.Fr

end
-- ==== Proof.LibContraction.lean ====
/-
  A contraction over ONE axis, with no batch axis and one free axis on each operand, read by coordinates.

  For dimension numbers `d` whose contracting lists are the singletons `[cl]` and `[cr]`, the contraction's index set
  is in bijection with `Fin n`, `n` the extent of the contracted axis (`contrFin`), so a sum over it is a sum over `Fin n`
  (`sum_contr`). At the contraction position that `i : Fin n` names, the left operand's index has `i` on its contracted
  axis and the result's first coordinate on its free axis; the right operand's has `i` on its contracted axis and the
  result's second coordinate on its free axis. Each of the four facts is stated of the coordinate's VALUE (a natural
  number), so that a proof at literal shapes finishes with `Fin.ext`.
-/
import Idealize.ShloMosaic.PureOps.Ideal.Laws
import Idealize.ShloMosaic.Lib.ValueIdx

noncomputable section

open scoped BigOperators

namespace Cert.Lib.Contraction

open Idealize.ShloMosaic Idealize.ShloMosaic.ValueIdx

variable {sl sr so : Shape} (d : DotDims sl sr so)

/-- One contracted axis: the contraction's shape has rank one. -/
theorem contr_rank {cl : Fin sl.rank} (hc : d.lhsContracting = [cl]) : d.contr.rank = 1 :=
  d.rank_contr.trans (by rw [hc]; rfl)

/-- Its one extent is the contracted axis's. -/
theorem contr_size {cl : Fin sl.rank} (hc : d.lhsContracting = [cl]) (n : Nat) (hn : sl.size cl = n) :
    d.contr.size ⟨0, by rw [contr_rank d hc]; exact Nat.one_pos⟩ = n := by
  have h := d.size_contr 0 (by rw [hc]; exact Nat.one_pos)
  rw [← hn]
  refine h.trans ?_
  simp [hc]

/-- The contraction's positions are the numbers below the contracted extent. -/
def contrFin {cl : Fin sl.rank} (hc : d.lhsContracting = [cl]) (n : Nat) (hn : sl.size cl = n) : d.contr.Idx ≃ Fin n :=
  contrEquiv1 d n (contr_rank d hc) (contr_size d hc n hn)

/-- A sum over the contraction's positions is the sum over those numbers. -/
theorem sum_contr {M : Type*} [AddCommMonoid M] {cl : Fin sl.rank} (hc : d.lhsContracting = [cl]) (n : Nat)
    (hn : sl.size cl = n) (f : d.contr.Idx → M) :
    ∑ k, f k = ∑ i : Fin n, f ((contrFin d hc n hn).symm i) :=
  (Equiv.sum_comp (contrFin d hc n hn).symm f).symm

/-- On its contracted axis the left operand's index is the position. -/
theorem lhs_contracted {cl : Fin sl.rank} (hc : d.lhsContracting = [cl]) (n : Nat) (hn : sl.size cl = n)
    (j : so.Idx) (i : Fin n) : (d.lhsIdx j ((contrFin d hc n hn).symm i) cl).val = i.val :=
  (d.lhsIdx_val_of_single hc j _).trans (contrEquiv1_symm_val d n (contr_rank d hc) (contr_size d hc n hn) i)

/-- On its contracted axis the right operand's index is the position. -/
theorem rhs_contracted {cl : Fin sl.rank} {cr : Fin sr.rank} (hc : d.lhsContracting = [cl]) (hc' : d.rhsContracting = [cr])
    (n : Nat) (hn : sl.size cl = n) (j : so.Idx) (i : Fin n) :
    (d.rhsIdx j ((contrFin d hc n hn).symm i) cr).val = i.val :=
  (d.rhsIdx_val_of_single hc' j _).trans (contrEquiv1_symm_val d n (contr_rank d hc) (contr_size d hc n hn) i)

/-- With no batch axis, the left operand's one free axis reads the result's first coordinate, at every position. -/
theorem lhs_free {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one free axis on the left, the right operand's one free axis reads the result's second
    coordinate, at every position. -/
theorem rhs_free {nl : Fin sl.rank} {nr : Fin sr.rank} (hb : d.lhsBatch = []) (hb' : d.rhsBatch = [])
    (hn : d.lhsNonContracting = [nl]) (hn' : d.rhsNonContracting = [nr]) (j : so.Idx) (k : d.contr.Idx)
    (h1 : 1 < so.rank) : (d.rhsIdx j k nr).val = (j ⟨1, h1⟩).val := by
  have hnb : nr ∉ d.rhsBatch := by rw [hb']; exact List.not_mem_nil
  have hmem : nr ∈ d.rhsNonContracting := by rw [hn']; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn, hn'])

end Cert.Lib.Contraction

end
-- ==== Proof.KI.Val1Pay.lean ====
/-
  The matrix-product region's three stored values, read entry by entry on the extended reals, and the algebra of a sum
  taken block by block.

  The accumulator block starts as the zero block.  At each step along the contracted axis it becomes
      acc[p, q] + (sum over k < 512 of x0[p, k] * x1[q, k]),
  x0 a 1024 x 512 block of the left factor and x1 a 1024 x 512 block of the weight matrix, used transposed; on the
  extended reals the narrowing of both blocks to a shorter float format changes nothing.  After the last step the bias
  row is added to every row: acc[p, q] + b[q].  A sum over 4096 columns is the sum over 8 consecutive blocks of 512, and
  the accumulator holds the running sum over the blocks met so far.
-/
import proofs.«109794_j25589415149863_1_alg».proof.Proof.Gen.KernelIdeal.Skeleton
import proofs.«109794_j25589415149863_1_alg».proof.Proof.Spec
import proofs.«109794_j25589415149863_1_alg».proof.Proof.LibContraction
import Idealize.ShloMosaic.Lib.ValueIdx
import Idealize.ShloMosaic.Lib.ValueLayout
import Idealize.ShloMosaic.Lib.Pipeline.Value
import Idealize.ShloMosaic.PureOps.Ideal.Laws
import Mathlib.Algebra.BigOperators.Fin
import Mathlib.Algebra.BigOperators.Group.Finset.Defs
import Mathlib.Data.Fintype.BigOperators
import Mathlib.Logic.Equiv.Fin.Basic

noncomputable section

open scoped BigOperators

namespace Cert.KernelIdeal.Val

open Cert.KernelIdeal Cert.KernelIdeal.Gen Cert.Spec Idealize.ShloMosaic Idealize.ShloMosaic.ValueIdx
open Cert.Lib.Contraction

/-! ## The zero block -/

/-- The first value stored: zero at every entry (the zero word is the number 0, spread over the block; a cast to the
    same shape moves nothing). -/
theorem k1_pay1_apply (j : S1024x1024.Idx) : (k1_pay1 (F := Ideal)) j = 0 := by
  unfold k1_pay1
  refine (congrFun (shapeCast_self _ _) j).trans ?_
  exact Ideal.ofBits_zero_f32

/-! ## One step of the product

The product contracts axis 1 of the left block with axis 0 of the transposed right block, 512 positions.  At position k
and result entry (p, q) the left block is read at (p, k) and the transposed right block at (k, q). -/

/-- The left operand's index at result entry (p, q) and position k is (p, k): p on its free axis, k on its contracted
    axis. -/
theorem lhs_at (p q : Fin 1024) (k : Fin 512) :
    dot_S1024x512_S512x1024_S1024x1024_1_0_0_1_n_n.lhsIdx (ix2 p q)
        ((contrFin dot_S1024x512_S512x1024_S1024x1024_1_0_0_1_n_n (cl := (1 : Fin 2)) rfl 512 rfl).symm k) = ix2 p k :=
  Shape.idx_ext₂
    (lhs_free dot_S1024x512_S512x1024_S1024x1024_1_0_0_1_n_n (nl := (0 : Fin 2)) rfl rfl (ix2 p q) _ (by decide))
    (lhs_contracted dot_S1024x512_S512x1024_S1024x1024_1_0_0_1_n_n (cl := (1 : Fin 2)) rfl 512 rfl (ix2 p q) k)

/-- The right operand's index there is (k, q): k on its contracted axis, q on its free axis. -/
theorem rhs_at (p q : Fin 1024) (k : Fin 512) :
    dot_S1024x512_S512x1024_S1024x1024_1_0_0_1_n_n.rhsIdx (ix2 p q)
        ((contrFin dot_S1024x512_S512x1024_S1024x1024_1_0_0_1_n_n (cl := (1 : Fin 2)) rfl 512 rfl).symm k) = ix2 k q :=
  Shape.idx_ext₂
    (rhs_contracted dot_S1024x512_S512x1024_S1024x1024_1_0_0_1_n_n (cl := (1 : Fin 2)) (cr := (0 : Fin 2)) rfl rfl 512 rfl
      (ix2 p q) k)
    (rhs_free dot_S1024x512_S512x1024_S1024x1024_1_0_0_1_n_n (nl := (0 : Fin 2)) (nr := (1 : Fin 2)) rfl rfl rfl rfl
      (ix2 p q) _ (by decide))

/-- The value stored at each step: the accumulator's entry plus the inner product of row p of the left block with row q
    of the right block.  The product into a zero block is the bare sum over the contracted positions; that sum is
    re-indexed by the 512 positions; the transposed right block at (k, q) is the right block at (q, k). -/
theorem k1_pay2_apply (x0 x1 : Vec Ideal S1024x512 .f32) (acc : Vec Ideal S1024x1024 .f32) (p q : Fin 1024) :
    k1_pay2 (F := Ideal) x0 x1 acc (ix2 p q) = acc (ix2 p q) + ∑ k : Fin 512, x0 (ix2 p k) * x1 (ix2 q k) := by
  unfold k1_pay2
  refine (congrFun (shapeCast_self _ _) (ix2 p q)).trans ?_
  refine congrArg (acc (ix2 p q) + ·) ?_
  refine (Ideal.matmul_constant_zero_apply dot_S1024x512_S512x1024_S1024x1024_1_0_0_1_n_n none _ _ (ix2 p q)).trans ?_
  refine (sum_contr dot_S1024x512_S512x1024_S1024x1024_1_0_0_1_n_n (cl := (1 : Fin 2)) rfl 512 rfl _).trans ?_
  refine Finset.sum_congr rfl fun k _ => ?_
  rw [lhs_at p q k, rhs_at p q k]
  refine congrArg (x0 (ix2 p k) * ·) ?_
  refine (transpose_ix2_apply _ _ k q).trans ?_
  exact congrFun (shapeCast_self x1 _) (ix2 q k)

/-! ## The bias row -/

/-- The last value stored: the accumulator's entry plus the bias at its column (the bias, viewed as one row, is
    repeated over the 1024 rows). -/
theorem k1_pay3_apply (acc : Vec Ideal S1024x1024 .f32) (b : Vec Ideal S1024 .f32) (p q : Fin 1024) :
    k1_pay3 (F := Ideal) acc b (ix2 p q) = acc (ix2 p q) + b (ix1 q) := by
  unfold k1_pay3
  refine congrArg (acc (ix2 p q) + ·) ?_
  refine (broadcastTo_1b_ab_apply _ _ p q).trans ?_
  exact shapeCast_a_1a_apply b _ (0 : Fin 1) q

/-! ## A sum taken block by block -/

/-- a sum over 4096 columns is the sum over 8 blocks of 512 -/
theorem sum_split8 (f : Fin 4096 → EReal) :
    ∑ k : Fin 4096, f k = ∑ kb : Fin 8, ∑ kk : Fin 512, f ⟨kb.val * 512 + kk.val, by omega⟩ := by
  -- the pairs (block, offset) are in bijection with the columns, the pair (kb, kk) going to column kb * 512 + kk
  rw [← Fintype.sum_prod_type' (fun (kb : Fin 8) (kk : Fin 512) => f ⟨kb.val * 512 + kk.val, by omega⟩)]
  refine (Fintype.sum_equiv (finProdFinEquiv (m := 8) (n := 512)) _ _ fun x => ?_).symm
  refine congrArg f (Fin.ext ?_)
  show x.1.val * 512 + x.2.val = x.2.val + 512 * x.1.val
  omega

/-- the running sum over the first n blocks, as the accumulator holds it: zero, then one block added at a time -/
def partial8 (g : Fin 8 → EReal) : (n : ℕ) → EReal
  | 0 => 0
  | n + 1 => partial8 g n + (if h : n < 8 then g ⟨n, h⟩ else 0)

/-- After all eight blocks the running sum is the whole sum. -/
theorem partial8_eight (g : Fin 8 → EReal) : partial8 g 8 = ∑ kb : Fin 8, g kb := by
  simp [partial8, Fin.sum_univ_eight]

end Cert.KernelIdeal.Val

end
-- ==== Proof.KI.Val1.lean ====
/-
  The value of the matrix-product region on the extended reals.

  The region walks a 4 x 4 x 8 grid; point t = 32 i + 8 j + k stages block (i, k) of the left factor X (1024 rows, 512
  columns), block (j, k) of the weight matrix W (the same extents) and block j of the bias, and carries a 1024 x 1024
  accumulator from point to point.  Entry (p, q) of the accumulator after point t is
      the sum over the blocks kb = 0 .. k of  (sum over kk < 512 of X[i*1024 + p, kb*512 + kk] * W[j*1024 + q, kb*512 + kk]),
  by induction on the point: at k = 0 the accumulator is zeroed and the first block's product added, at every other point
  the point's product is added to what the point before left.  At k = 7 all eight blocks are in, the sum over blocks of
  512 columns is the sum over the 4096 columns, and the output block is that plus the bias: the specification's entry at
  row i*1024 + p, column j*1024 + q.  Only the points with k = 7 write their block back, those sixteen blocks tile the
  4096 x 4096 result, and so the result array ends holding X * W^T + bias.
-/
import proofs.«109794_j25589415149863_1_alg».proof.Proof.KI.Reg1
import proofs.«109794_j25589415149863_1_alg».proof.Proof.KI.Pieces1
import proofs.«109794_j25589415149863_1_alg».proof.Proof.KI.Val1Pay
import proofs.«109794_j25589415149863_1_alg».proof.Proof.Spec
import Idealize.ShloMosaic.Lib.ValueIdx
import Idealize.ShloMosaic.Lib.Pipeline.Value

noncomputable section

open scoped BigOperators

namespace Cert.KernelIdeal.Val

open Cert.KernelIdeal Cert.KernelIdeal.Gen Cert.KernelIdeal.Fr Cert.Spec Idealize.ShloMosaic Idealize.ShloMosaic.ValueIdx Idealize.ShloMosaic.TcCoe
open Idealize.ShloMosaic.Pipeline (Dat)

namespace R1

variable (V : (c : Dev nD) → (b : Ref sig .tc) → Buf (Elt Ideal) ((c : Thread nD τ).loc b))

/-! ## Names for the blocks and the arrays -/

/-- The staged block of the left factor at point t, of the weight matrix, of the bias; -/
abbrev xblk (c : Dev nD) (t : Fin cfg1.N) : Vec Ideal S1024x512 .f32 := iblk1 V c 0 t
abbrev wblk (c : Dev nD) (t : Fin cfg1.N) : Vec Ideal S1024x512 .f32 := iblk1 V c 1 t
abbrev bblk (c : Dev nD) (t : Fin cfg1.N) : Vec Ideal S1024 .f32 := iblk1 V c 2 t
/-- and the three arrays as the region finds them. -/
abbrev xarr (c : Dev nD) : T4096x4096.Idx → EReal := V c main_arg0
abbrev warr (c : Dev nD) : T4096x4096.Idx → EReal := V c main_v0
abbrev barr (c : Dev nD) : T4096.Idx → EReal := V c main_arg7

/-! ## Where a block's entries lie in its array -/

/-- Entry p of the b-th run of 1024 consecutive rows (b < 4 on the grid, so the remainder changes nothing). -/
def rowN (b : ℕ) (p : Fin 1024) : Fin 4096 := ⟨(b * 1024 + p.val) % 4096, Nat.mod_lt _ (by decide)⟩

/-- The block indices at point t = 32 i + 8 j + k: (i, k) for the left factor, (j, k) for the weights, j for the bias,
    (i, j) for the result; and the result's block is whole.  Decided over the 128 points. -/
theorem idx1_0 : ∀ t : Fin cfg1.N, win1_0.index t 0 = t.val / 32 ∧ win1_0.index t 1 = t.val % 8 :=
  (by decide +kernel : ∀ t : Fin grid1.N, win1_0.index t 0 = t.val / 32 ∧ win1_0.index t 1 = t.val % 8)
theorem idx1_1 : ∀ t : Fin cfg1.N, win1_1.index t 0 = t.val / 8 % 4 ∧ win1_1.index t 1 = t.val % 8 :=
  (by decide +kernel : ∀ t : Fin grid1.N, win1_1.index t 0 = t.val / 8 % 4 ∧ win1_1.index t 1 = t.val % 8)
theorem idx1_2 : ∀ t : Fin cfg1.N, win1_2.index t 0 = t.val / 8 % 4 :=
  (by decide +kernel : ∀ t : Fin grid1.N, win1_2.index t 0 = t.val / 8 % 4)
theorem idx1_3 : ∀ t : Fin cfg1.N, win1_3.index t 0 = t.val / 32 ∧ win1_3.index t 1 = t.val / 8 % 4 :=
  (by decide +kernel : ∀ t : Fin grid1.N, win1_3.index t 0 = t.val / 32 ∧ win1_3.index t 1 = t.val / 8 % 4)
theorem xs1_3 : ∀ t : Fin cfg1.N, win1_3.xsize (grid1.coords t) 0 = 1024 ∧ win1_3.xsize (grid1.coords t) 1 = 1024 :=
  (by decide +kernel : ∀ t : Fin grid1.N, win1_3.xsize (grid1.coords t) 0 = 1024 ∧ win1_3.xsize (grid1.coords t) 1 = 1024)

/-- Block (i, k) of the left factor at (p, kk) is the array at row i * 1024 + p, column k * 512 + kk. -/
theorem xblk_apply (c : Dev nD) (t : Fin cfg1.N) (p : Fin 1024) (kk : Fin 512) :
    xblk V c t (ix2 p kk) = xarr V c (ix2 (rowN (t.val / 32) p) ⟨t.val % 8 * 512 + kk.val, by omega⟩) := by
  have hN : cfg1.N = 128 := N_1
  have ht := t.isLt
  unfold xblk iblk1
  rw [View.read_apply]
  show V c main_arg0 _ = V c main_arg0 _
  congr 1
  funext a
  apply Fin.ext
  match a with
  | ⟨0, _⟩ =>
    show win1_0.index t 0 * 1024 + 1 * p.val = (t.val / 32 * 1024 + p.val) % 4096
    rw [(idx1_0 t).1]; omega
  | ⟨1, _⟩ =>
    show win1_0.index t 1 * 512 + 1 * kk.val = t.val % 8 * 512 + kk.val
    rw [(idx1_0 t).2]; omega

/-- Block (j, k) of the weights at (q, kk) is the array at row j * 1024 + q, column k * 512 + kk. -/
theorem wblk_apply (c : Dev nD) (t : Fin cfg1.N) (q : Fin 1024) (kk : Fin 512) :
    wblk V c t (ix2 q kk) = warr V c (ix2 (rowN (t.val / 8 % 4) q) ⟨t.val % 8 * 512 + kk.val, by omega⟩) := by
  have hN : cfg1.N = 128 := N_1
  have ht := t.isLt
  unfold wblk iblk1
  rw [View.read_apply]
  show V c main_v0 _ = V c main_v0 _
  congr 1
  funext a
  apply Fin.ext
  match a with
  | ⟨0, _⟩ =>
    show win1_1.index t 0 * 1024 + 1 * q.val = (t.val / 8 % 4 * 1024 + q.val) % 4096
    rw [(idx1_1 t).1]; omega
  | ⟨1, _⟩ =>
    show win1_1.index t 1 * 512 + 1 * kk.val = t.val % 8 * 512 + kk.val
    rw [(idx1_1 t).2]; omega

/-- Block j of the bias at q is the array at j * 1024 + q. -/
theorem bblk_apply (c : Dev nD) (t : Fin cfg1.N) (q : Fin 1024) :
    bblk V c t (ix1 q) = barr V c (ix1 (rowN (t.val / 8 % 4) q)) := by
  have hN : cfg1.N = 128 := N_1
  have ht := t.isLt
  unfold bblk iblk1
  rw [View.read_apply]
  show V c main_arg7 _ = V c main_arg7 _
  congr 1
  funext a
  apply Fin.ext
  match a with
  | ⟨0, _⟩ =>
    show win1_2.index t 0 * 1024 + 1 * q.val = (t.val / 8 % 4 * 1024 + q.val) % 4096
    rw [idx1_2 t]; omega

/-! ## One point's step, entry by entry -/

/-- At a point with k = 0 the accumulator is left at the product of the two staged blocks (zero plus it). -/
theorem acc_first (c : Dev nD) (t : Fin cfg1.N) (h0 : t.val % 8 = 0) (p q : Fin 1024) :
    (outsAt1 V c t.val t.isLt).2 (ix2 p q) = ∑ kk : Fin 512, xblk V c t (ix2 p kk) * wblk V c t (ix2 q kk) := by
  have h1 : ¬t.val % 8 = 7 := by omega
  rw [outsAt1_A V c t h0 h1]
  dsimp only
  refine (congrFun (sout1_A_0_eq (F := Ideal) c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (xblk V c t) (wblk V c t) (bblk V c t)) (ix2 p q)).trans ?_
  refine (k1_pay2_apply (xblk V c t) (wblk V c t) (k1_pay1 (F := Ideal)) p q).trans ?_
  rw [k1_pay1_apply, zero_add]

/-- At any later point of a run of eight the product is added to what the point before left. -/
theorem acc_next (c : Dev nD) (t : Fin cfg1.N) (h0 : ¬t.val % 8 = 0) (p q : Fin 1024) :
    (outsAt1 V c t.val t.isLt).2 (ix2 p q)
      = (outsAt1 V c (t.val - 1) (Nat.lt_of_le_of_lt (Nat.sub_le _ _) t.isLt)).2 (ix2 p q)
        + ∑ kk : Fin 512, xblk V c t (ix2 p kk) * wblk V c t (ix2 q kk) := by
  by_cases h1 : t.val % 8 = 7
  · rw [outsAt1_C V c t h0 h1]
    dsimp only
    refine (congrFun (sout1_C_0_eq (F := Ideal) c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (xblk V c t) (wblk V c t) (bblk V c t) (outsAt1 V c (t.val - 1) (Nat.lt_of_le_of_lt (Nat.sub_le _ _) t.isLt)).2) (ix2 p q)).trans ?_
    exact k1_pay2_apply (xblk V c t) (wblk V c t) (outsAt1 V c (t.val - 1) (Nat.lt_of_le_of_lt (Nat.sub_le _ _) t.isLt)).2 p q
  · rw [outsAt1_B V c t h0 h1]
    dsimp only
    refine (congrFun (sout1_B_0_eq (F := Ideal) c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (xblk V c t) (wblk V c t) (bblk V c t) (outsAt1 V c (t.val - 1) (Nat.lt_of_le_of_lt (Nat.sub_le _ _) t.isLt)).2) (ix2 p q)).trans ?_
    exact k1_pay2_apply (xblk V c t) (wblk V c t) (outsAt1 V c (t.val - 1) (Nat.lt_of_le_of_lt (Nat.sub_le _ _) t.isLt)).2 p q

/-- At a point with k = 7 the output block is left at the accumulator (as this point leaves it) plus the bias row. -/
theorem out_last (c : Dev nD) (t : Fin cfg1.N) (h1 : t.val % 8 = 7) (p q : Fin 1024) :
    (outsAt1 V c t.val t.isLt).1 (ix2 p q) = (outsAt1 V c t.val t.isLt).2 (ix2 p q) + bblk V c t (ix1 q) := by
  have h0 : ¬t.val % 8 = 0 := by omega
  rw [outsAt1_C V c t h0 h1]
  dsimp only
  refine (congrFun (out1_C_3_eq (F := Ideal) c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (xblk V c t) (wblk V c t) (bblk V c t) (outsAt1 V c (t.val - 1) (Nat.lt_of_le_of_lt (Nat.sub_le _ _) t.isLt)).2) (ix2 p q)).trans ?_
  refine (k1_pay3_apply _ (bblk V c t) p q).trans ?_
  exact congrArg (· + bblk V c t (ix1 q)) (congrFun (sout1_C_0_eq (F := Ideal) c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (xblk V c t) (wblk V c t) (bblk V c t) (outsAt1 V c (t.val - 1) (Nat.lt_of_le_of_lt (Nat.sub_le _ _) t.isLt)).2) (ix2 p q)).symm

/-! ## The running sum -/

/-- Block kb's share of the inner product of row r of X with row s of W: columns kb * 512 .. kb * 512 + 511. -/
def blockDot (X W : T4096x4096.Idx → EReal) (r s : Fin 4096) (kb : Fin 8) : EReal :=
  ∑ kk : Fin 512, X (ix2 r ⟨kb.val * 512 + kk.val, by omega⟩) * W (ix2 s ⟨kb.val * 512 + kk.val, by omega⟩)

/-- One more block: the running sum over k + 1 blocks is that over k blocks plus block k's share. -/
theorem partial8_succ (g : Fin 8 → EReal) (k : ℕ) (hk : k < 8) : partial8 g (k + 1) = partial8 g k + g ⟨k, hk⟩ := by
  show partial8 g k + (if h : k < 8 then g ⟨k, h⟩ else 0) = _
  rw [dif_pos hk]

/-- The product of the two blocks staged at point n is block (n mod 8)'s share. -/
theorem dot_blk (c : Dev nD) (n : ℕ) (h : n < cfg1.N) (hk : n % 8 < 8) (p q : Fin 1024) :
    ∑ kk : Fin 512, xblk V c ⟨n, h⟩ (ix2 p kk) * wblk V c ⟨n, h⟩ (ix2 q kk)
      = blockDot (xarr V c) (warr V c) (rowN (n / 32) p) (rowN (n / 8 % 4) q) ⟨n % 8, hk⟩ := by
  unfold blockDot
  refine Finset.sum_congr rfl fun kk _ => ?_
  rw [xblk_apply V c ⟨n, h⟩ p kk, wblk_apply V c ⟨n, h⟩ q kk]

/-- The invariant: after point n = 32 i + 8 j + k the accumulator at (p, q) is the running sum over blocks 0 .. k of the
    inner product of row i * 1024 + p of X with row j * 1024 + q of W.  By induction on the point. -/
theorem acc_eq (c : Dev nD) : ∀ (n : ℕ) (h : n < cfg1.N) (p q : Fin 1024),
    (outsAt1 V c n h).2 (ix2 p q)
      = partial8 (blockDot (xarr V c) (warr V c) (rowN (n / 32) p) (rowN (n / 8 % 4) q)) (n % 8 + 1) := by
  intro n
  induction n using Nat.strong_induction_on with
  | _ n ih =>
    intro h p q
    have hk : n % 8 < 8 := Nat.mod_lt _ (by decide)
    rw [partial8_succ _ (n % 8) hk]
    by_cases h0 : n % 8 = 0
    · refine (acc_first V c ⟨n, h⟩ h0 p q).trans ?_
      rw [dot_blk V c n h hk p q]
      have e : partial8 (blockDot (xarr V c) (warr V c) (rowN (n / 32) p) (rowN (n / 8 % 4) q)) (n % 8) = 0 := by
        rw [h0]; rfl
      rw [e, zero_add]
    · have hn1 : n - 1 < n := by omega
      refine (acc_next V c ⟨n, h⟩ h0 p q).trans ?_
      refine congrArg₂ (· + ·) ((ih (n - 1) hn1 (Nat.lt_of_le_of_lt (Nat.sub_le _ _) h) p q).trans ?_) (dot_blk V c n h hk p q)
      rw [show (n - 1) / 32 = n / 32 by omega, show (n - 1) / 8 % 4 = n / 8 % 4 by omega, show (n - 1) % 8 + 1 = n % 8 by omega]

/-- So at a point with k = 7 the output block at (p, q) is the specification's entry at row i * 1024 + p, column j * 1024 + q:
    the running sum over all eight blocks is the whole inner product, and the bias is added. -/
theorem out_eq (c : Dev nD) (t : Fin cfg1.N) (h1 : t.val % 8 = 7) (p q : Fin 1024) :
    (outsAt1 V c t.val t.isLt).1 (ix2 p q)
      = outAt (xarr V c) (warr V c) (barr V c) (rowN (t.val / 32) p) (rowN (t.val / 8 % 4) q) := by
  refine (out_last V c t h1 p q).trans ?_
  rw [acc_eq V c t.val t.isLt p q, bblk_apply V c t q, show t.val % 8 + 1 = 8 by omega, partial8_eight]
  unfold outAt
  rw [sum_split8]
  rfl

/-- The same at any index of the block. -/
theorem out_at (c : Dev nD) (t : Fin cfg1.N) (h1 : t.val % 8 = 7) (j : S1024x1024.Idx) :
    (outsAt1 V c t.val t.isLt).1 j
      = outAt (xarr V c) (warr V c) (barr V c) (rowN (t.val / 32) (j 0)) (rowN (t.val / 8 % 4) (j 1)) :=
  (congrArg (outsAt1 V c t.val t.isLt).1 (eq_ix2 j)).trans (out_eq V c t h1 (j 0) (j 1))

/-! ## The flushing points, the cover, the array -/

/-- What a point with k = 7 writes back is its block of the specification's array: entry (p, q) of block (i, j) is the
    array's entry at row i * 1024 + p, column j * 1024 + q. -/
theorem flushed_eq (c : Dev nD) (t : Fin cfg1.N) (hf : (cfg1.win 3).flush t = true) :
    (dat1 V c).flushed 3 t
      = ((cfg1.win 3).blk t).view.read (Elt Ideal) (outArr (xarr V c) (warr V c) (barr V c)) := by
  have h7 : t.val % 8 = 7 := (flush1_3 t).mp hf
  have hN : cfg1.N = 128 := N_1
  have ht := t.isLt
  show (cfg1.win 3).cut (grid1.coords t) ((dat1 V c).after 3 t) = _
  rw [after1_3]
  funext y
  have h0 : (y 0).val < win1_3.xsize (grid1.coords t) 0 := (y 0).isLt
  have h1 : (y 1).val < win1_3.xsize (grid1.coords t) 1 := (y 1).isLt
  rw [(xs1_3 t).1] at h0
  rw [(xs1_3 t).2] at h1
  rw [View.read_apply]
  show (outsAt1 V c t.val t.isLt).1 ((cfg1.win 3).xinj (grid1.coords t) y) = outArr (xarr V c) (warr V c) (barr V c) _
  refine (out_at V c t h7 ((cfg1.win 3).xinj (grid1.coords t) y)).trans ?_
  show outAt _ _ _ _ _ = outAt _ _ _ _ _
  congr 1
  · apply Fin.ext
    show (t.val / 32 * 1024 + (y 0).val) % 4096 = win1_3.index t 0 * 1024 + 1 * (y 0).val
    rw [(idx1_3 t).1]; omega
  · apply Fin.ext
    show (t.val / 8 % 4 * 1024 + (y 1).val) % 4096 = win1_3.index t 1 * 1024 + 1 * (y 1).val
    rw [(idx1_3 t).2]; omega

/-- Row r, column s of the result lies in the block written back at the point (r / 1024, s / 1024, 7). -/
theorem cover (c : Dev nD) (i : ((cfg1.win 3).arr.view.loc (c.tc : Thread nD τ)).2.ty.Idx) :
    ∃ t : Fin cfg1.N, (cfg1.win 3).flush t = true ∧ i ∈ ((cfg1.win 3).blk t).view.set := by
  have hN : cfg1.N = 128 := N_1
  have h0 : (i 0 : ℕ) < 4096 := (i 0).isLt
  have h1 : (i 1 : ℕ) < 4096 := (i 1).isLt
  obtain ⟨t, ht⟩ : ∃ t : Fin cfg1.N, t.val = (i 0 : ℕ) / 1024 * 32 + (i 1 : ℕ) / 1024 * 8 + 7 :=
    ⟨⟨(i 0 : ℕ) / 1024 * 32 + (i 1 : ℕ) / 1024 * 8 + 7, by omega⟩, rfl⟩
  refine ⟨t, (flush1_3 t).mpr (by omega), ?_⟩
  show i ∈ ((View.whole main_v1).slice (win1_3.rect t)).set
  rw [View.set_slice_whole, Rect.mem_set_unit]
  intro a
  match a with
  | ⟨0, _⟩ =>
    show win1_3.index t 0 * 1024 ≤ (i 0 : ℕ) ∧ (i 0 : ℕ) < win1_3.index t 0 * 1024 + win1_3.xsize (grid1.coords t) 0
    rw [(idx1_3 t).1, (xs1_3 t).1]; omega
  | ⟨1, _⟩ =>
    show win1_3.index t 1 * 1024 ≤ (i 1 : ℕ) ∧ (i 1 : ℕ) < win1_3.index t 1 * 1024 + win1_3.xsize (grid1.coords t) 1
    rw [(idx1_3 t).2, (xs1_3 t).2]; omega

end R1

variable (V : (c : Dev nD) → (b : Ref sig .tc) → Buf (Elt Ideal) ((c : Thread nD τ).loc b))

/-- The value of the region: the result array ends holding X * W^T + bias of the arrays the region finds — every block
    written back is its block of that array, and the blocks written back cover the array. -/
theorem arr1_eq (c : Dev nD) :
    (dat1 (F := Ideal) V c).arrAt 3 cfg1.N = Cert.Spec.outArr (V c main_arg0) (V c main_v0) (V c main_arg7) :=
  (dat1 V c).arrAt_eq_of_cover 3 (outArr (R1.xarr V c) (R1.warr V c) (R1.barr V c)) (R1.flushed_eq V c) (R1.cover c)

end Cert.KernelIdeal.Val

end
-- ==== Proof.KI.Value.lean ====
/-
  The idealized kernel's result, named by the specification.

  After the two regions the result array is what region 1's write-backs leave: the specification's X * W^T + bias of what
  region 1 found in its three input arrays.  It found X and the bias as launched (region 0 touches neither) and the weight
  matrix as region 0's write-backs left it, which is the specification's weight matrix of the launched code books,
  coefficients and offsets.
-/
import proofs.«109794_j25589415149863_1_alg».proof.Proof.KI.Run
import proofs.«109794_j25589415149863_1_alg».proof.Proof.KI.Val0
import proofs.«109794_j25589415149863_1_alg».proof.Proof.KI.Val1
import proofs.«109794_j25589415149863_1_alg».proof.Proof.Spec

noncomputable section

namespace Cert.KernelIdeal.Val

open Idealize.ShloMosaic Idealize.ShloMosaic.TcCoe Idealize.SL.Sem
open Cert.KernelIdeal Cert.KernelIdeal.Gen Cert.KernelIdeal.Fr Cert.Spec

variable (m : (ℓ : Loc nD τ sig) → Buf (Elt Ideal) ℓ) (ρ : Dev nD → PrngReg)

/-- The result array's last contents are the specification's function of the launch memory's argument arrays. -/
theorem last_main_v1 (c : Dev nD) :
    W2 (F := Ideal) m ρ c (Proc.devRef .tc main_v1)
      = Cert.Spec.result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  rw [W2_main_v1, arr1_eq (E1 (F := Ideal) m ρ) c, E1_main_arg0, E1_main_arg7, E1_main_v0, arr0_eq (E0 (F := Ideal) m ρ) c]
  rfl

/-- Every weakly fair execution of the idealized kernel terminates with the result array at the specification's function of
    the argument arrays, and the arguments as launched. -/
theorem kernel_run : θ_run (defs (F := Ideal)) (onTc (τ := τ) (main (F := Ideal))) ⟨m, fun _ => 0, ρ⟩ (fun r => ∀ c : Dev nD,
      r.2.mem ((c.tc : Thread nD τ).loc main_v1)
        = Cert.Spec.result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_v1 (by decide))).trans (last_main_v1 m ρ c),
     (h c _ (mem_uc main_arg0 (by decide))).trans (W2_main_arg0 m ρ c),
     (h c _ (mem_uc main_arg1 (by decide))).trans (W2_main_arg1 m ρ c),
     (h c _ (mem_uc main_arg2 (by decide))).trans (W2_main_arg2 m ρ c),
     (h c _ (mem_uc main_arg3 (by decide))).trans (W2_main_arg3 m ρ c),
     (h c _ (mem_uc main_arg4 (by decide))).trans (W2_main_arg4 m ρ c),
     (h c _ (mem_uc main_arg5 (by decide))).trans (W2_main_arg5 m ρ c),
     (h c _ (mem_uc main_arg6 (by decide))).trans (W2_main_arg6 m ρ c),
     (h c _ (mem_uc main_arg7 (by decide))).trans (W2_main_arg7 m ρ c)⟩) (run_all (F := Ideal) m ρ)

end Cert.KernelIdeal.Val

end
-- ==== Proof.RefValue.lean ====
/-
  The reference's result term, read one operation at a time, is the specification's function of the argument arrays.

  The reading goes from the inputs outward.  A code word is the comparison with one half read as a number (bin).  At a
  tile index (bit, rw, cw, y, z) the batched product is the sum over i < 64 of bin Y[y,i] * bin Z[i,z], and the two
  keepdims sums are the row sums of bin Y and the column sums of bin Z, each started from the zero word, which is 0.
  The scalars a, b, c are read at (bit, rw, cw, 0, 0); the four planes are added up from the zero word and the tile's
  offset d, read at (rw, cw, 0, 0), is added: that is wTile.  The transpose (rw, cw, y, z) -> (rw, y, cw, z) followed by
  the reshape to 4096 x 4096 puts tile (n / 512, k / 512) at offsets (n % 512, k % 512) in place (n, k): that is wAt.
  The last transpose and the contraction over k < 4096 give the sum of X[p,k] * W[q,k], and the bias is read at q.
-/
import proofs.«109794_j25589415149863_1_alg».proof.Proof.Gen.ReferenceIdeal.Read
import proofs.«109794_j25589415149863_1_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Idealize.ShloMosaic Idealize.ShloMosaic.ValueIdx Cert.Spec
open Cert.ReferenceIdeal Cert.ReferenceIdeal.Gen Idealize.ShloMosaic.TcCoe Idealize.SL.Sem Idealize.ShloMosaic.StableHlo

/-! ## The thresholded code words -/

theorem codeY (x1 : (⟨S4x8x8x512x64, .f32⟩ : BufTy).Contents (Elt Ideal)) (i : S4x8x8x512x64.Idx) :
    Read.val_main_v2 (F := Ideal) x1 i = bin (x1 i) := by
  rw [Read.val_main_v2_apply, Read.val_main_v1_apply, Read.val_main_v0_apply, Read.val_main_cst_apply]
  rfl

theorem codeZ (x2 : (⟨S4x8x8x64x512, .f32⟩ : BufTy).Contents (Elt Ideal)) (i : S4x8x8x64x512.Idx) :
    Read.val_main_v5 (F := Ideal) x2 i = bin (x2 i) := by
  rw [Read.val_main_v5_apply, Read.val_main_v4_apply, Read.val_main_v3_apply, Read.val_main_cst_0_apply]
  rfl

/-! ## One tile of the weight matrix -/

/-- the batched product of the code words at (bit, rw, cw, y, z) -/
theorem core_apply (x1 : (⟨S4x8x8x512x64, .f32⟩ : BufTy).Contents (Elt Ideal)) (x2 : (⟨S4x8x8x64x512, .f32⟩ : BufTy).Contents (Elt Ideal))
    (bit : Fin 4) (rw cw : Fin 8) (y z : Fin 512) :
    Read.val_main_v6 (F := Ideal) x1 x2 (ix5 bit rw cw y z)
      = ∑ i : Fin 64, bin (x1 (ix5 bit rw cw y i)) * bin (x2 (ix5 bit rw cw i z)) := by
  rw [Read.val_main_v6_apply]
  refine Finset.sum_congr rfl fun k _ => ?_
  have e1 : Read.lidx_main_v6 (ix5 bit rw cw y z) k = ix5 bit rw cw y k :=
    funext fun a => by match a with | ⟨0, _⟩ => rfl | ⟨1, _⟩ => rfl | ⟨2, _⟩ => rfl | ⟨3, _⟩ => rfl | ⟨4, _⟩ => rfl
  have e2 : Read.ridx_main_v6 (ix5 bit rw cw y z) k = ix5 bit rw cw k z :=
    funext fun a => by match a with | ⟨0, _⟩ => rfl | ⟨1, _⟩ => rfl | ⟨2, _⟩ => rfl | ⟨3, _⟩ => rfl | ⟨4, _⟩ => rfl
  rw [e1, e2, codeY, codeZ]

/-- the row sums of Y's code words -/
theorem ysum_apply (x1 : (⟨S4x8x8x512x64, .f32⟩ : BufTy).Contents (Elt Ideal)) (bit : Fin 4) (rw cw : Fin 8) (y : Fin 512) :
    Read.val_main_v7 (F := Ideal) x1 (ix4 bit rw cw y) = ∑ i : Fin 64, bin (x1 (ix5 bit rw cw y i)) := by
  rw [Read.val_main_v7_apply, Read.val_main_cst_1_apply, Ideal.ofBits_def, Ideal.ofBits_zero_f32, zero_add]
  refine Finset.sum_congr rfl fun k _ => ?_
  have e1 : Read.idx_main_v7 (ix4 bit rw cw y) k = ix5 bit rw cw y k :=
    funext fun a => by match a with | ⟨0, _⟩ => rfl | ⟨1, _⟩ => rfl | ⟨2, _⟩ => rfl | ⟨3, _⟩ => rfl | ⟨4, _⟩ => rfl
  rw [e1, codeY]

/-- the column sums of Z's code words -/
theorem zsum_apply (x2 : (⟨S4x8x8x64x512, .f32⟩ : BufTy).Contents (Elt Ideal)) (bit : Fin 4) (rw cw : Fin 8) (z : Fin 512) :
    Read.val_main_v9 (F := Ideal) x2 (ix4 bit rw cw z) = ∑ i : Fin 64, bin (x2 (ix5 bit rw cw i z)) := by
  rw [Read.val_main_v9_apply, Read.val_main_cst_2_apply, Ideal.ofBits_def, Ideal.ofBits_zero_f32, zero_add]
  refine Finset.sum_congr rfl fun k _ => ?_
  have e1 : Read.idx_main_v9 (ix4 bit rw cw z) k = ix5 bit rw cw k z :=
    funext fun a => by match a with | ⟨0, _⟩ => rfl | ⟨1, _⟩ => rfl | ⟨2, _⟩ => rfl | ⟨3, _⟩ => rfl | ⟨4, _⟩ => rfl
  rw [e1, codeZ]

/-- one bit plane of a tile at (y, z) -/
theorem plane_apply (x1 : (⟨S4x8x8x512x64, .f32⟩ : BufTy).Contents (Elt Ideal)) (x2 : (⟨S4x8x8x64x512, .f32⟩ : BufTy).Contents (Elt Ideal))
    (x3 x4 x5 : (⟨S4x8x8x1x1, .f32⟩ : BufTy).Contents (Elt Ideal)) (bit : Fin 4) (rw cw : Fin 8) (y z : Fin 512) :
    Read.val_main_v20 (F := Ideal) x1 x2 x3 x4 x5 (ix5 bit rw cw y z)
      = (x3 (ix5 bit rw cw (0 : Fin 1) (0 : Fin 1)) * (∑ i : Fin 64, bin (x1 (ix5 bit rw cw y i)) * bin (x2 (ix5 bit rw cw i z)))
          + x4 (ix5 bit rw cw (0 : Fin 1) (0 : Fin 1)) * (∑ i : Fin 64, bin (x1 (ix5 bit rw cw y i))))
        + x5 (ix5 bit rw cw (0 : Fin 1) (0 : Fin 1)) * (∑ i : Fin 64, bin (x2 (ix5 bit rw cw i z))) := by
  have e11 : Read.idx_main_v11 (ix5 bit rw cw y z) = ix5 bit rw cw (0 : Fin 1) (0 : Fin 1) :=
    funext fun a => by match a with | ⟨0, _⟩ => rfl | ⟨1, _⟩ => rfl | ⟨2, _⟩ => rfl | ⟨3, _⟩ => rfl | ⟨4, _⟩ => rfl
  have e15 : Read.idx_main_v15 (ix5 bit rw cw y z) = ix5 bit rw cw y (0 : Fin 1) :=
    funext fun a => by match a with | ⟨0, _⟩ => rfl | ⟨1, _⟩ => rfl | ⟨2, _⟩ => rfl | ⟨3, _⟩ => rfl | ⟨4, _⟩ => rfl
  have e13 : Read.idx_main_v13 (ix5 bit rw cw y (0 : Fin 1)) = ix5 bit rw cw (0 : Fin 1) (0 : Fin 1) :=
    funext fun a => by match a with | ⟨0, _⟩ => rfl | ⟨1, _⟩ => rfl | ⟨2, _⟩ => rfl | ⟨3, _⟩ => rfl | ⟨4, _⟩ => rfl
  have e8 : Read.idx_main_v8 (ix5 bit rw cw y (0 : Fin 1)) = ix4 bit rw cw y :=
    funext fun a => by match a with | ⟨0, _⟩ => rfl | ⟨1, _⟩ => rfl | ⟨2, _⟩ => rfl | ⟨3, _⟩ => rfl
  have e19 : Read.idx_main_v19 (ix5 bit rw cw y z) = ix5 bit rw cw (0 : Fin 1) z :=
    funext fun a => by match a with | ⟨0, _⟩ => rfl | ⟨1, _⟩ => rfl | ⟨2, _⟩ => rfl | ⟨3, _⟩ => rfl | ⟨4, _⟩ => rfl
  have e17 : Read.idx_main_v17 (ix5 bit rw cw (0 : Fin 1) z) = ix5 bit rw cw (0 : Fin 1) (0 : Fin 1) :=
    funext fun a => by match a with | ⟨0, _⟩ => rfl | ⟨1, _⟩ => rfl | ⟨2, _⟩ => rfl | ⟨3, _⟩ => rfl | ⟨4, _⟩ => rfl
  have e10 : Read.idx_main_v10 (ix5 bit rw cw (0 : Fin 1) z) = ix4 bit rw cw z :=
    funext fun a => by match a with | ⟨0, _⟩ => rfl | ⟨1, _⟩ => rfl | ⟨2, _⟩ => rfl | ⟨3, _⟩ => rfl
  rw [Read.val_main_v20_apply, Read.val_main_v16_apply, Read.val_main_v12_apply, Read.val_main_v11_apply, e11, core_apply,
    Read.val_main_v15_apply, e15, Read.val_main_v14_apply, Read.val_main_v13_apply, e13, Read.val_main_v8_apply, e8, ysum_apply,
    Read.val_main_v19_apply, e19, Read.val_main_v18_apply, Read.val_main_v17_apply, e17, Read.val_main_v10_apply, e10, zsum_apply]
  simp only [Ideal.addf_def, Ideal.mulf_def]

/-- a tile at (y, z): the planes added up, plus the tile's offset -/
theorem tile_apply (x1 : (⟨S4x8x8x512x64, .f32⟩ : BufTy).Contents (Elt Ideal)) (x2 : (⟨S4x8x8x64x512, .f32⟩ : BufTy).Contents (Elt Ideal))
    (x3 x4 x5 : (⟨S4x8x8x1x1, .f32⟩ : BufTy).Contents (Elt Ideal)) (x6 : (⟨S8x8x1x1, .f32⟩ : BufTy).Contents (Elt Ideal))
    (rw cw : Fin 8) (y z : Fin 512) :
    Read.val_main_v23 (F := Ideal) x1 x2 x3 x4 x5 x6 (ix4 rw cw y z) = wTile x1 x2 x3 x4 x5 x6 rw cw y z := by
  have e22 : Read.idx_main_v22 (ix4 rw cw y z) = ix4 rw cw (0 : Fin 1) (0 : Fin 1) :=
    funext fun a => by match a with | ⟨0, _⟩ => rfl | ⟨1, _⟩ => rfl | ⟨2, _⟩ => rfl | ⟨3, _⟩ => rfl
  have e21 : ∀ k : Fin 4, Read.idx_main_v21 (ix4 rw cw y z) k = ix5 k rw cw y z := fun k =>
    funext fun a => by match a with | ⟨0, _⟩ => rfl | ⟨1, _⟩ => rfl | ⟨2, _⟩ => rfl | ⟨3, _⟩ => rfl | ⟨4, _⟩ => rfl
  rw [Read.val_main_v23_apply, Read.val_main_v21_apply, Read.val_main_cst_3_apply, Ideal.ofBits_def, Ideal.ofBits_zero_f32, zero_add,
    Read.val_main_v22_apply, e22, Ideal.addf_def]
  unfold wTile
  refine congrArg (· + _) (Finset.sum_congr rfl fun k _ => ?_)
  rw [e21, plane_apply]

/-! ## The tiles laid out as the 4096 x 4096 matrix, and the product with X -/

/-- the transposed weight matrix at (k, q) is W at (q, k): row n of W is offset n % 512 of tile row n / 512 -/
theorem wT_apply (x1 : (⟨S4x8x8x512x64, .f32⟩ : BufTy).Contents (Elt Ideal)) (x2 : (⟨S4x8x8x64x512, .f32⟩ : BufTy).Contents (Elt Ideal))
    (x3 x4 x5 : (⟨S4x8x8x1x1, .f32⟩ : BufTy).Contents (Elt Ideal)) (x6 : (⟨S8x8x1x1, .f32⟩ : BufTy).Contents (Elt Ideal))
    (k q : Fin 4096) :
    Read.val_main_v26 (F := Ideal) x1 x2 x3 x4 x5 x6 (ix2 k q) = wAt x1 x2 x3 x4 x5 x6 q k := by
  have hq : q.val < 4096 := q.isLt
  have hk : k.val < 4096 := k.isLt
  have e26 : Read.idx_main_v26 (ix2 k q) = ix2 q k :=
    funext fun a => by match a with | ⟨0, _⟩ => rfl | ⟨1, _⟩ => rfl
  have e25 : Read.idx_main_v25 (ix2 q k) = ix4 (tileOf q) (offOf q) (tileOf k) (offOf k) :=
    funext fun a => Fin.ext (by
      match a with
      | ⟨0, _⟩ => show (q.val * 4096 + k.val) / 2097152 = q.val / 512; omega
      | ⟨1, _⟩ => show (q.val * 4096 + k.val) / 4096 % 512 = q.val % 512; omega
      | ⟨2, _⟩ => show (q.val * 4096 + k.val) / 512 % 8 = k.val / 512; omega
      | ⟨3, _⟩ => show (q.val * 4096 + k.val) % 512 = k.val % 512; omega)
  have e24 : Read.idx_main_v24 (ix4 (tileOf q) (offOf q) (tileOf k) (offOf k)) = ix4 (tileOf q) (tileOf k) (offOf q) (offOf k) :=
    funext fun a => by match a with | ⟨0, _⟩ => rfl | ⟨1, _⟩ => rfl | ⟨2, _⟩ => rfl | ⟨3, _⟩ => rfl
  rw [Read.val_main_v26_apply, e26, Read.val_main_v25_apply, e25, Read.val_main_v24_apply, e24, tile_apply]
  rfl

/-- the reference's last stage is the specification's function of the eight argument arrays -/
theorem val_eq (x0 : (⟨S4096x4096, .f32⟩ : BufTy).Contents (Elt Ideal)) (x1 : (⟨S4x8x8x512x64, .f32⟩ : BufTy).Contents (Elt Ideal)) (x2 : (⟨S4x8x8x64x512, .f32⟩ : BufTy).Contents (Elt Ideal)) (x3 x4 x5 : (⟨S4x8x8x1x1, .f32⟩ : BufTy).Contents (Elt Ideal)) (x6 : (⟨S8x8x1x1, .f32⟩ : BufTy).Contents (Elt Ideal)) (x7 : (⟨S4096, .f32⟩ : BufTy).Contents (Elt Ideal)) :
    Cert.ReferenceIdeal.Read.val_main_v30 (F := Ideal) x0 x1 x2 x3 x4 x5 x6 x7 = Cert.Spec.result x0 x1 x2 x3 x4 x5 x6 x7 := by
  funext i
  obtain ⟨p, q, rfl⟩ : ∃ (p q : Fin 4096), i = ix2 p q := ⟨i 0, i 1, eq_ix2 i⟩
  have e29 : Read.idx_main_v29 (ix2 p q) = ix2 (0 : Fin 1) q :=
    funext fun a => by match a with | ⟨0, _⟩ => rfl | ⟨1, _⟩ => rfl
  have e28 : Read.idx_main_v28 (ix2 (0 : Fin 1) q) = ix1 q :=
    funext fun a => by match a with | ⟨0, _⟩ => rfl
  have el : ∀ k : Fin 4096, Read.lidx_main_v27 (ix2 p q) k = ix2 p k := fun k =>
    funext fun a => by match a with | ⟨0, _⟩ => rfl | ⟨1, _⟩ => rfl
  have er : ∀ k : Fin 4096, Read.ridx_main_v27 (ix2 p q) k = ix2 k q := fun k =>
    funext fun a => by match a with | ⟨0, _⟩ => rfl | ⟨1, _⟩ => rfl
  rw [Read.val_main_v30_apply, Read.val_main_v27_apply, Read.val_main_v29_apply, e29, Read.val_main_v28_apply, e28, Ideal.addf_def]
  show _ = outAt x0 (wArr x1 x2 x3 x4 x5 x6) x7 p q
  unfold outAt
  refine congrArg (· + _) (Finset.sum_congr rfl fun k _ => ?_)
  rw [el, er, wT_apply, wArr_ix2]

/-! ## The run -/

/-- the reference's run with its result named by the specification -/
theorem ref_run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ fun r => ∀ c : Dev Cert.ReferenceIdeal.nD,
      r.2.mem ((c.tc : Thread _ _).loc Cert.ReferenceIdeal.main_v30)
          = Cert.Spec.result (m ((c.tc : Thread _ _).loc Cert.ReferenceIdeal.main_arg0)) (m ((c.tc : Thread _ _).loc Cert.ReferenceIdeal.main_arg1))
              (m ((c.tc : Thread _ _).loc Cert.ReferenceIdeal.main_arg2)) (m ((c.tc : Thread _ _).loc Cert.ReferenceIdeal.main_arg3))
              (m ((c.tc : Thread _ _).loc Cert.ReferenceIdeal.main_arg4)) (m ((c.tc : Thread _ _).loc Cert.ReferenceIdeal.main_arg5))
              (m ((c.tc : Thread _ _).loc Cert.ReferenceIdeal.main_arg6)) (m ((c.tc : Thread _ _).loc Cert.ReferenceIdeal.main_arg7))
      ∧ r.2.mem ((c.tc : Thread _ _).loc Cert.ReferenceIdeal.main_arg0) = m ((c.tc : Thread _ _).loc Cert.ReferenceIdeal.main_arg0)
      ∧ r.2.mem ((c.tc : Thread _ _).loc Cert.ReferenceIdeal.main_arg1) = m ((c.tc : Thread _ _).loc Cert.ReferenceIdeal.main_arg1)
      ∧ r.2.mem ((c.tc : Thread _ _).loc Cert.ReferenceIdeal.main_arg2) = m ((c.tc : Thread _ _).loc Cert.ReferenceIdeal.main_arg2)
      ∧ r.2.mem ((c.tc : Thread _ _).loc Cert.ReferenceIdeal.main_arg3) = m ((c.tc : Thread _ _).loc Cert.ReferenceIdeal.main_arg3)
      ∧ r.2.mem ((c.tc : Thread _ _).loc Cert.ReferenceIdeal.main_arg4) = m ((c.tc : Thread _ _).loc Cert.ReferenceIdeal.main_arg4)
      ∧ r.2.mem ((c.tc : Thread _ _).loc Cert.ReferenceIdeal.main_arg5) = m ((c.tc : Thread _ _).loc Cert.ReferenceIdeal.main_arg5)
      ∧ r.2.mem ((c.tc : Thread _ _).loc Cert.ReferenceIdeal.main_arg6) = m ((c.tc : Thread _ _).loc Cert.ReferenceIdeal.main_arg6)
      ∧ r.2.mem ((c.tc : Thread _ _).loc Cert.ReferenceIdeal.main_arg7) = m ((c.tc : Thread _ _).loc Cert.ReferenceIdeal.main_arg7) :=
  (θ_run _ _ _).mono (fun _ h c => ⟨by rw [(h c).1, Read.val_main_v30_eq, val_eq], (h c).2⟩) (Value.run (F := Ideal) m ρ)

end Cert.ReferenceIdeal.RefValue

end
-- ==== Proof.lean ====
/-
  The certificate: a weight matrix rebuilt from thresholded binary code books, then a blocked matrix product.

  The kernel has two regions.  The first rebuilds the 4096 x 4096 weight matrix W tile by tile: for each of the 8 x 8 tiles it
  thresholds four bit planes of two code books at one half, and adds up, over the planes, a * (Y Z) + b * rowsum(Y) +
  c * colsum(Z), then the tile's offset.  The second computes X * W^T + bias block by block, adding the products of eight
  column blocks into an accumulator that it carries from one grid point to the next and adds the bias to at the last.
  The reference does the same with whole-array operations.  Over the extended reals both are the one function
  Cert.Spec.result of the eight argument arrays: a sum may be taken in any order and any grouping, a change of float format is
  the identity, and the two ways of turning a comparison's bit into a number agree.  No law used needs finiteness.

  The three frames: the word-level and the idealized kernel run to the end with the arguments unchanged because each region's
  body does (the body's loads and stores stay inside its staging buffers and its scratch), and the reference because its
  host operations do.  The idealization dropped eight round trips through bf16, each the identity at the ideal instance.
-/
import proofs.«109794_j25589415149863_1_alg».proof.Defs
import proofs.«109794_j25589415149863_1_alg».proof.Proof.Gen.Kernel
import proofs.«109794_j25589415149863_1_alg».proof.Proof.Gen.KernelIdeal
import proofs.«109794_j25589415149863_1_alg».proof.Proof.Gen.ReferenceIdeal
import proofs.«109794_j25589415149863_1_alg».proof.Proof.Gen.Pre_finite_inputs
import proofs.«109794_j25589415149863_1_alg».proof.Proof.Gen.ReferenceIdeal.Run
import proofs.«109794_j25589415149863_1_alg».proof.Proof.K.Run
import proofs.«109794_j25589415149863_1_alg».proof.Proof.KI.Run
import proofs.«109794_j25589415149863_1_alg».proof.Proof.KI.Value
import proofs.«109794_j25589415149863_1_alg».proof.Proof.RefValue
import Idealize.ShloMosaic.Adequacy
import Idealize.ShloMosaic.Init

noncomputable section

namespace Cert.Proof

open Idealize.ShloMosaic Idealize.SL.Sem

/-- The word-level kernel runs to the end and leaves its arguments as launched. -/
theorem frame_k : Cert.frame_Kernel := fun m ρ _ => Cert.Kernel.Fr.frame m ρ

/-- So does the idealized kernel. -/
theorem frame_ki : Cert.frame_KernelIdeal := fun m ρ _ => Cert.KernelIdeal.Fr.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The eight round trips f32 -> bf16 -> f32 the idealization dropped are each the identity at the ideal instance. -/
theorem preserves : Cert.preserves_Kernel_KernelIdeal :=
  ⟨IdealRules.truncf_extf.statement _ .f32 .bf16, IdealRules.truncf_extf.statement _ .f32 .bf16,
   IdealRules.truncf_extf.statement _ .f32 .bf16, IdealRules.truncf_extf.statement _ .f32 .bf16,
   IdealRules.truncf_extf.statement _ .f32 .bf16, IdealRules.truncf_extf.statement _ .f32 .bf16,
   IdealRules.truncf_extf.statement _ .f32 .bf16, IdealRules.truncf_extf.statement _ .f32 .bf16⟩

/-- Both idealized programs end with the specification's function of the argument arrays, on which the two memories agree. -/
theorem algebraic : Cert.algebraic_KernelIdeal_ReferenceIdeal := by
  intro m ρ m' ρ' _ hagree
  refine ⟨_, Cert.KernelIdeal.Val.kernel_run m ρ, ?_⟩
  refine (θ_run Cert.ReferenceIdeal.defs _ _).mono (fun _ h c => ⟨(h c).1.trans ?_, (h c).2⟩)
    (Cert.ReferenceIdeal.RefValue.ref_run m' ρ')
  rw [(hagree c).1, (hagree c).2.1, (hagree c).2.2.1, (hagree c).2.2.2.1, (hagree c).2.2.2.2.1, (hagree c).2.2.2.2.2.1,
    (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
